-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x32x32 : Shape := ⟨4, ![4096, 3, 32, 32]⟩
abbrev S5x3x32x168 : Shape := ⟨4, ![5, 3, 32, 168]⟩
abbrev S1x168 : Shape := ⟨2, ![1, 168]⟩
abbrev S5x162x160 : Shape := ⟨3, ![5, 162, 160]⟩
abbrev S1x160 : Shape := ⟨2, ![1, 160]⟩
abbrev S5x144x120 : Shape := ⟨3, ![5, 144, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S_ : Shape := ⟨0, ![]⟩

class Facts : Prop where
  bcast_S_S4096x3x32x32 : S_.BroadcastsInDim S4096x3x32x32 (![] : Fin 0 → Fin S4096x3x32x32.rank)
  reducesTo_S4096x3x32x32_S_d0_1_2_3 : S4096x3x32x32.ReducesTo [0, 1, 2, 3] S_
  h_S_ : 0 < S_.numel
  bcast_S_S5x3x32x168 : S_.BroadcastsInDim S5x3x32x168 (![] : Fin 0 → Fin S5x3x32x168.rank)
  reducesTo_S5x3x32x168_S_d0_1_2_3 : S5x3x32x168.ReducesTo [0, 1, 2, 3] S_
  bcast_S_S1x168 : S_.BroadcastsInDim S1x168 (![] : Fin 0 → Fin S1x168.rank)
  reducesTo_S1x168_S_d0_1 : S1x168.ReducesTo [0, 1] S_
  bcast_S_S5x162x160 : S_.BroadcastsInDim S5x162x160 (![] : Fin 0 → Fin S5x162x160.rank)
  reducesTo_S5x162x160_S_d0_1_2 : S5x162x160.ReducesTo [0, 1, 2] S_
  bcast_S_S1x160 : S_.BroadcastsInDim S1x160 (![] : Fin 0 → Fin S1x160.rank)
  reducesTo_S1x160_S_d0_1 : S1x160.ReducesTo [0, 1] S_
  bcast_S_S5x144x120 : S_.BroadcastsInDim S5x144x120 (![] : Fin 0 → Fin S5x144x120.rank)
  reducesTo_S5x144x120_S_d0_1_2 : S5x144x120.ReducesTo [0, 1, 2] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S1x84 : S_.BroadcastsInDim S1x84 (![] : Fin 0 → Fin S1x84.rank)
  reducesTo_S1x84_S_d0_1 : S1x84.ReducesTo [0, 1] S_
  bcast_S_S84x10 : S_.BroadcastsInDim S84x10 (![] : Fin 0 → Fin S84x10.rank)
  reducesTo_S84x10_S_d0_1 : S84x10.ReducesTo [0, 1] S_
  bcast_S_S1x10 : S_.BroadcastsInDim S1x10 (![] : Fin 0 → Fin S1x10.rank)
  reducesTo_S1x10_S_d0_1 : S1x10.ReducesTo [0, 1] S_

variable [Facts]

def fn_part3 {F : FTy → Type} [FloatOps F] (main_v48 : IVec S_ 1) (main_v49 : FVec F S1x10 .f32) (main_v50 : FVec F S1x10 .f32) : IVec S_ 1 :=
  let main_v51 : IVec S1x10 1 := cmpf .olt main_v49 main_v50
  let main_c_19 : IVec S_ 1 := constantI S_ 1 1#1
  let main_v52 : IVec S_ 1 := (fun x v => Host.reduce IntOp.andi x v reducesTo_S1x10_S_d0_1 h_S_) main_v51 main_c_19
  let main_v53 : IVec S_ 1 := andi main_v48 main_v52
  main_v53

def fn_part2 {F : FTy → Type} [FloatOps F] (main_arg7 : FVec F S120x84 .f32) (main_arg8 : FVec F S1x84 .f32) (main_arg9 : FVec F S84x10 .f32) (main_arg10 : FVec F S1x10 .f32) (main_v33 : IVec S_ 1) : IVec S_ 1 :=
  let main_v34 : FVec F S120x84 .f32 := Host.absf main_arg7
  let main_cst_12 : FVec F S_ .f32 := constant S_ .f32 0x7F800000#32
  let main_v35 : FVec F S120x84 .f32 := broadcastInDim S120x84 ![] bcast_S_S120x84 main_cst_12
  let main_v36 : IVec S120x84 1 := cmpf .olt main_v34 main_v35
  let main_c_13 : IVec S_ 1 := constantI S_ 1 1#1
  let main_v37 : IVec S_ 1 := (fun x v => Host.reduce IntOp.andi x v reducesTo_S120x84_S_d0_1 h_S_) main_v36 main_c_13
  let main_v38 : IVec S_ 1 := andi main_v33 main_v37
  let main_v39 : FVec F S1x84 .f32 := Host.absf main_arg8
  let main_cst_14 : FVec F S_ .f32 := constant S_ .f32 0x7F800000#32
  let main_v40 : FVec F S1x84 .f32 := broadcastInDim S1x84 ![] bcast_S_S1x84 main_cst_14
  let main_v41 : IVec S1x84 1 := cmpf .olt main_v39 main_v40
  let main_c_15 : IVec S_ 1 := constantI S_ 1 1#1
  let main_v42 : IVec S_ 1 := (fun x v => Host.reduce IntOp.andi x v reducesTo_S1x84_S_d0_1 h_S_) main_v41 main_c_15
  let main_v43 : IVec S_ 1 := andi main_v38 main_v42
  let main_v44 : FVec F S84x10 .f32 := Host.absf main_arg9
  let main_cst_16 : FVec F S_ .f32 := constant S_ .f32 0x7F800000#32
  let main_v45 : FVec F S84x10 .f32 := broadcastInDim S84x10 ![] bcast_S_S84x10 main_cst_16
  let main_v46 : IVec S84x10 1 := cmpf .olt main_v44 main_v45
  let main_c_17 : IVec S_ 1 := constantI S_ 1 1#1
  let main_v47 : IVec S_ 1 := (fun x v => Host.reduce IntOp.andi x v reducesTo_S84x10_S_d0_1 h_S_) main_v46 main_c_17
  let main_v48 : IVec S_ 1 := andi main_v43 main_v47
  let main_v49 : FVec F S1x10 .f32 := Host.absf main_arg10
  let main_cst_18 : FVec F S_ .f32 := constant S_ .f32 0x7F800000#32
  let main_v50 : FVec F S1x10 .f32 := broadcastInDim S1x10 ![] bcast_S_S1x10 main_cst_18
  fn_part3 (F := F) main_v48 main_v49 main_v50

def fn_part1 {F : FTy → Type} [FloatOps F] (main_arg4 : FVec F S1x160 .f32) (main_arg5 : FVec F S5x144x120 .f32) (main_arg6 : FVec F S1x120 .f32) (main_arg7 : FVec F S120x84 .f32) (main_arg8 : FVec F S1x84 .f32) (main_arg9 : FVec F S84x10 .f32) (main_arg10 : FVec F S1x10 .f32) (main_v13 : IVec S_ 1) (main_v16 : IVec S5x162x160 1) : IVec S_ 1 :=
  let main_c_5 : IVec S_ 1 := constantI S_ 1 1#1
  let main_v17 : IVec S_ 1 := (fun x v => Host.reduce IntOp.andi x v reducesTo_S5x162x160_S_d0_1_2 h_S_) main_v16 main_c_5
  let main_v18 : IVec S_ 1 := andi main_v13 main_v17
  let main_v19 : FVec F S1x160 .f32 := Host.absf main_arg4
  let main_cst_6 : FVec F S_ .f32 := constant S_ .f32 0x7F800000#32
  let main_v20 : FVec F S1x160 .f32 := broadcastInDim S1x160 ![] bcast_S_S1x160 main_cst_6
  let main_v21 : IVec S1x160 1 := cmpf .olt main_v19 main_v20
  let main_c_7 : IVec S_ 1 := constantI S_ 1 1#1
  let main_v22 : IVec S_ 1 := (fun x v => Host.reduce IntOp.andi x v reducesTo_S1x160_S_d0_1 h_S_) main_v21 main_c_7
  let main_v23 : IVec S_ 1 := andi main_v18 main_v22
  let main_v24 : FVec F S5x144x120 .f32 := Host.absf main_arg5
  let main_cst_8 : FVec F S_ .f32 := constant S_ .f32 0x7F800000#32
  let main_v25 : FVec F S5x144x120 .f32 := broadcastInDim S5x144x120 ![] bcast_S_S5x144x120 main_cst_8
  let main_v26 : IVec S5x144x120 1 := cmpf .olt main_v24 main_v25
  let main_c_9 : IVec S_ 1 := constantI S_ 1 1#1
  let main_v27 : IVec S_ 1 := (fun x v => Host.reduce IntOp.andi x v reducesTo_S5x144x120_S_d0_1_2 h_S_) main_v26 main_c_9
  let main_v28 : IVec S_ 1 := andi main_v23 main_v27
  let main_v29 : FVec F S1x120 .f32 := Host.absf main_arg6
  let main_cst_10 : FVec F S_ .f32 := constant S_ .f32 0x7F800000#32
  let main_v30 : FVec F S1x120 .f32 := broadcastInDim S1x120 ![] bcast_S_S1x120 main_cst_10
  let main_v31 : IVec S1x120 1 := cmpf .olt main_v29 main_v30
  let main_c_11 : IVec S_ 1 := constantI S_ 1 1#1
  let main_v32 : IVec S_ 1 := (fun x v => Host.reduce IntOp.andi x v reducesTo_S1x120_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x3x32x32 .f32) (main_arg1 : FVec F S5x3x32x168 .f32) (main_arg2 : FVec F S1x168 .f32) (main_arg3 : FVec F S5x162x160 .f32) (main_arg4 : FVec F S1x160 .f32) (main_arg5 : FVec F S5x144x120 .f32) (main_arg6 : FVec F S1x120 .f32) (main_arg7 : FVec F S120x84 .f32) (main_arg8 : FVec F S1x84 .f32) (main_arg9 : FVec F S84x10 .f32) (main_arg10 : FVec F S1x10 .f32) : IVec S_ 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_c : IVec S_ 1 := constantI S_ 1 1#1
  let main_v3 : IVec S_ 1 := (fun x v => Host.reduce IntOp.andi x v reducesTo_S4096x3x32x32_S_d0_1_2_3 h_S_) main_v2 main_c
  let main_v4 : FVec F S5x3x32x168 .f32 := Host.absf main_arg1
  let main_cst_0 : FVec F S_ .f32 := constant S_ .f32 0x7F800000#32
  let main_v5 : FVec F S5x3x32x168 .f32 := broadcastInDim S5x3x32x168 ![] bcast_S_S5x3x32x168 main_cst_0
  let main_v6 : IVec S5x3x32x168 1 := cmpf .olt main_v4 main_v5
  let main_c_1 : IVec S_ 1 := constantI S_ 1 1#1
  let main_v7 : IVec S_ 1 := (fun x v => Host.reduce IntOp.andi x v reducesTo_S5x3x32x168_S_d0_1_2_3 h_S_) main_v6 main_c_1
  let main_v8 : IVec S_ 1 := andi main_v3 main_v7
  let main_v9 : FVec F S1x168 .f32 := Host.absf main_arg2
  let main_cst_2 : FVec F S_ .f32 := constant S_ .f32 0x7F800000#32
  let main_v10 : FVec F S1x168 .f32 := broadcastInDim S1x168 ![] bcast_S_S1x168 main_cst_2
  let main_v11 : IVec S1x168 1 := cmpf .olt main_v9 main_v10
  let main_c_3 : IVec S_ 1 := constantI S_ 1 1#1
  let main_v12 : IVec S_ 1 := (fun x v => Host.reduce IntOp.andi x v reducesTo_S1x168_S_d0_1 h_S_) main_v11 main_c_3
  let main_v13 : IVec S_ 1 := andi main_v8 main_v12
  let main_v14 : FVec F S5x162x160 .f32 := Host.absf main_arg3
  let main_cst_4 : FVec F S_ .f32 := constant S_ .f32 0x7F800000#32
  let main_v15 : FVec F S5x162x160 .f32 := broadcastInDim S5x162x160 ![] bcast_S_S5x162x160 main_cst_4
  let main_v16 : IVec S5x162x160 1 := cmpf .olt main_v14 main_v15
  fn_part1 (F := F) main_arg4 main_arg5 main_arg6 main_arg7 main_arg8 main_arg9 main_arg10 main_v13 main_v16
-- ==== Kernel.lean ====
abbrev S4096x3x32x32 : Shape := ⟨4, ![4096, 3, 32, 32]⟩
abbrev S5x3x32x168 : Shape := ⟨4, ![5, 3, 32, 168]⟩
abbrev S1x168 : Shape := ⟨2, ![1, 168]⟩
abbrev S5x162x160 : Shape := ⟨3, ![5, 162, 160]⟩
abbrev S1x160 : Shape := ⟨2, ![1, 160]⟩
abbrev S5x144x120 : Shape := ⟨3, ![5, 144, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S32x4096x3x32 : Shape := ⟨4, ![32, 4096, 3, 32]⟩
abbrev S32x4096x96 : Shape := ⟨3, ![32, 4096, 96]⟩
abbrev S480x168 : Shape := ⟨2, ![480, 168]⟩
abbrev S810x160 : Shape := ⟨2, ![810, 160]⟩
abbrev S720x120 : Shape := ⟨2, ![720, 120]⟩
abbrev S4096x10 : Shape := ⟨2, ![4096, 10]⟩
abbrev S32x512x96 : Shape := ⟨3, ![32, 512, 96]⟩
abbrev S512x10 : Shape := ⟨2, ![512, 10]⟩
abbrev S16384x96 : Shape := ⟨2, ![16384, 96]⟩
abbrev S7168x162 : Shape := ⟨2, ![7168, 162]⟩
abbrev S14336x96 : Shape := ⟨2, ![14336, 96]⟩
abbrev S14336x480 : Shape := ⟨2, ![14336, 480]⟩
abbrev S14336x168 : Shape := ⟨2, ![14336, 168]⟩
abbrev S14336x162 : Shape := ⟨2, ![14336, 162]⟩
abbrev S14x1024x162 : Shape := ⟨3, ![14, 1024, 162]⟩
abbrev S14x512x162 : Shape := ⟨3, ![14, 512, 162]⟩
abbrev S5120x162 : Shape := ⟨2, ![5120, 162]⟩
abbrev S5120x810 : Shape := ⟨2, ![5120, 810]⟩
abbrev S5120x160 : Shape := ⟨2, ![5120, 160]⟩
abbrev S5120x144 : Shape := ⟨2, ![5120, 144]⟩
abbrev S5x1024x144 : Shape := ⟨3, ![5, 1024, 144]⟩
abbrev S5x512x144 : Shape := ⟨3, ![5, 512, 144]⟩
abbrev S1x512x144 : Shape := ⟨3, ![1, 512, 144]⟩
abbrev S512x144 : Shape := ⟨2, ![512, 144]⟩
abbrev S512x720 : Shape := ⟨2, ![512, 720]⟩
abbrev S512x120 : Shape := ⟨2, ![512, 120]⟩
abbrev S512x84 : Shape := ⟨2, ![512, 84]⟩

abbrev nBuf : Space → Nat
  | .hbm => 23
  | .vmem => 16
  | .smem => 0
  | _ => 0

abbrev bufTy : (tb : Table) → Fin (tcTables nBuf tb) → BufTy
  | .hbm, ⟨0, _⟩ => ⟨S4096x3x32x32, .f32⟩
  | .hbm, ⟨1, _⟩ => ⟨S5x3x32x168, .f32⟩
  | .hbm, ⟨2, _⟩ => ⟨S1x168, .f32⟩
  | .hbm, ⟨3, _⟩ => ⟨S5x162x160, .f32⟩
  | .hbm, ⟨4, _⟩ => ⟨S1x160, .f32⟩
  | .hbm, ⟨5, _⟩ => ⟨S5x144x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x10, .f32⟩
  | .hbm, ⟨10, _⟩ => ⟨S1x10, .f32⟩
  | .hbm, ⟨11, _⟩ => ⟨S32x4096x3x32, .f32⟩
  | .hbm, ⟨12, _⟩ => ⟨S32x4096x96, .f32⟩
  | .hbm, ⟨13, _⟩ => ⟨S32x4096x96, .bf16⟩
  | .hbm, ⟨14, _⟩ => ⟨S480x168, .f32⟩
  | .hbm, ⟨15, _⟩ => ⟨S480x168, .bf16⟩
  | .hbm, ⟨16, _⟩ => ⟨S810x160, .f32⟩
  | .hbm, ⟨17, _⟩ => ⟨S810x160, .bf16⟩
  | .hbm, ⟨18, _⟩ => ⟨S720x120, .f32⟩
  | .hbm, ⟨19, _⟩ => ⟨S720x120, .bf16⟩
  | .hbm, ⟨20, _⟩ => ⟨S120x84, .bf16⟩
  | .hbm, ⟨21, _⟩ => ⟨S84x10, .bf16⟩
  | .hbm, ⟨22, _⟩ => ⟨S4096x10, .f32⟩
  | .local _ .vmem, ⟨0, _⟩ => ⟨S32x512x96, .bf16⟩
  | .local _ .vmem, ⟨1, _⟩ => ⟨S32x512x96, .bf16⟩
  | .local _ .vmem, ⟨2, _⟩ => ⟨S480x168, .bf16⟩
  | .local _ .vmem, ⟨3, _⟩ => ⟨S1x168, .f32⟩
  | .local _ .vmem, ⟨4, _⟩ => ⟨S810x160, .bf16⟩
  | .local _ .vmem, ⟨5, _⟩ => ⟨S1x160, .f32⟩
  | .local _ .vmem, ⟨6, _⟩ => ⟨S720x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x10, .bf16⟩
  | .local _ .vmem, ⟨11, _⟩ => ⟨S1x10, .f32⟩
  | .local _ .vmem, ⟨12, _⟩ => ⟨S512x10, .f32⟩
  | .local _ .vmem, ⟨13, _⟩ => ⟨S512x10, .f32⟩
  | .local _ .vmem, ⟨14, _⟩ => ⟨S16384x96, .bf16⟩
  | .local _ .vmem, ⟨15, _⟩ => ⟨S7168x162, .bf16⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S810x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S720x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x3x32x32_S32x4096x3x32_2_0_1_3 : S4096x3x32x32.Transposes [2, 0, 1, 3] S32x4096x3x32
  shapeCasts_S32x4096x3x32_S32x4096x96 : S32x4096x3x32.ShapeCasts S32x4096x96
  bitsLt_bf16_f32 : FTy.bits .bf16 < FTy.bits .f32
  shapeCasts_S5x3x32x168_S480x168 : S5x3x32x168.ShapeCasts S480x168
  shapeCasts_S5x162x160_S810x160 : S5x162x160.ShapeCasts S810x160
  shapeCasts_S5x144x120_S720x120 : S5x144x120.ShapeCasts S720x120
  inb_S32x512x96_S32x512x96_0_0_0 : ∀ a, (![0, 0, 0] : Fin 3 → Nat) a + S32x512x96.size a ≤ S32x512x96.size a
  h_S32x512x96 : 0 < S32x512x96.numel
  shapeCasts_S32x512x96_S32x512x96 : S32x512x96.ShapeCasts S32x512x96
  shapeCasts_S32x512x96_S16384x96 : S32x512x96.ShapeCasts S16384x96
  inb_S16384x96_S16384x96_0_0 : ∀ a, (![0, 0] : Fin 2 → Nat) a + S16384x96.size a ≤ S16384x96.size a
  h_S16384x96 : 0 < S16384x96.numel
  shapeCasts_S16384x96_S16384x96 : S16384x96.ShapeCasts S16384x96
  packedbf16_S16384x96_S16384x96_0_0 : (Rect.unit (s := S16384x96) ![0, 0] S16384x96.size inb_S16384x96_S16384x96_0_0).PackedRows (EltTy.packing .bf16)
  inb_S16384x96_S14336x96_0_0 : ∀ a, (![0, 0] : Fin 2 → Nat) a + S14336x96.size a ≤ S16384x96.size a
  h_S14336x96 : 0 < S14336x96.numel
  inb_S16384x96_S14336x96_512_0 : ∀ a, (![512, 0] : Fin 2 → Nat) a + S14336x96.size a ≤ S16384x96.size a
  inb_S16384x96_S14336x96_1024_0 : ∀ a, (![1024, 0] : Fin 2 → Nat) a + S14336x96.size a ≤ S16384x96.size a
  inb_S16384x96_S14336x96_1536_0 : ∀ a, (![1536, 0] : Fin 2 → Nat) a + S14336x96.size a ≤ S16384x96.size a
  inb_S16384x96_S14336x96_2048_0 : ∀ a, (![2048, 0] : Fin 2 → Nat) a + S14336x96.size a ≤ S16384x96.size a
  concatenates_S14336x96_S14336x96_S14336x96_S14336x96_S14336x96_S14336x480_d1 : Shape.Concatenates [S14336x96, S14336x96, S14336x96, S14336x96, S14336x96] S14336x480 1
  inb_S480x168_S480x168_0_0 : ∀ a, (![0, 0] : Fin 2 → Nat) a + S480x168.size a ≤ S480x168.size a
  h_S480x168 : 0 < S480x168.numel
  shapeCasts_S480x168_S480x168 : S480x168.ShapeCasts S480x168
  inb_S1x168_S1x168_0_0 : ∀ a, (![0, 0] : Fin 2 → Nat) a + S1x168.size a ≤ S1x168.size a
  h_S1x168 : 0 < S1x168.numel
  broadcasts_S1x168_S14336x168 : S1x168.Broadcasts S14336x168
  slices_S14336x168_o0_0_S14336x162 : S14336x168.Slices ![0, 0] S14336x162
  slices_S14336x168_o0_6_S14336x162 : S14336x168.Slices ![0, 6] S14336x162
  shapeCasts_S14336x162_S14x1024x162 : S14336x162.ShapeCasts S14x1024x162
  slices_S14x1024x162_o0_0_0_S14x512x162 : S14x1024x162.Slices ![0, 0, 0] S14x512x162
  slices_S14x1024x162_o0_512_0_S14x512x162 : S14x1024x162.Slices ![0, 512, 0] S14x512x162
  shapeCasts_S14x512x162_S7168x162 : S14x512x162.ShapeCasts S7168x162
  inb_S7168x162_S7168x162_0_0 : ∀ a, (![0, 0] : Fin 2 → Nat) a + S7168x162.size a ≤ S7168x162.size a
  h_S7168x162 : 0 < S7168x162.numel
  shapeCasts_S7168x162_S7168x162 : S7168x162.ShapeCasts S7168x162
  packedbf16_S7168x162_S7168x162_0_0 : (Rect.unit (s := S7168x162) ![0, 0] S7168x162.size inb_S7168x162_S7168x162_0_0).PackedRows (EltTy.packing .bf16)
  inb_S7168x162_S5120x162_0_0 : ∀ a, (![0, 0] : Fin 2 → Nat) a + S5120x162.size a ≤ S7168x162.size a
  h_S5120x162 : 0 < S5120x162.numel
  inb_S7168x162_S5120x162_512_0 : ∀ a, (![512, 0] : Fin 2 → Nat) a + S5120x162.size a ≤ S7168x162.size a
  inb_S7168x162_S5120x162_1024_0 : ∀ a, (![1024, 0] : Fin 2 → Nat) a + S5120x162.size a ≤ S7168x162.size a
  inb_S7168x162_S5120x162_1536_0 : ∀ a, (![1536, 0] : Fin 2 → Nat) a + S5120x162.size a ≤ S7168x162.size a
  inb_S7168x162_S5120x162_2048_0 : ∀ a, (![2048, 0] : Fin 2 → Nat) a + S5120x162.size a ≤ S7168x162.size a
  concatenates_S5120x162_S5120x162_S5120x162_S5120x162_S5120x162_S5120x810_d1 : Shape.Concatenates [S5120x162, S5120x162, S5120x162, S5120x162, S5120x162] S5120x810 1
  inb_S810x160_S810x160_0_0 : ∀ a, (![0, 0] : Fin 2 → Nat) a + S810x160.size a ≤ S810x160.size a
  h_S810x160 : 0 < S810x160.numel
  shapeCasts_S810x160_S810x160 : S810x160.ShapeCasts S810x160
  inb_S1x160_S1x160_0_0 : ∀ a, (![0, 0] : Fin 2 → Nat) a + S1x160.size a ≤ S1x160.size a
  h_S1x160 : 0 < S1x160.numel
  broadcasts_S1x160_S5120x160 : S1x160.Broadcasts S5120x160
  slices_S5120x160_o0_0_S5120x144 : S5120x160.Slices ![0, 0] S5120x144
  slices_S5120x160_o0_16_S5120x144 : S5120x160.Slices ![0, 16] S5120x144
  shapeCasts_S5120x144_S5x1024x144 : S5120x144.ShapeCasts S5x1024x144
  slices_S5x1024x144_o0_0_0_S5x512x144 : S5x1024x144.Slices ![0, 0, 0] S5x512x144
  slices_S5x1024x144_o0_512_0_S5x512x144 : S5x1024x144.Slices ![0, 512, 0] S5x512x144
  slices_S5x512x144_o0_0_0_S1x512x144 : S5x512x144.Slices ![0, 0, 0] S1x512x144
  shapeCasts_S1x512x144_S512x144 : S1x512x144.ShapeCasts S512x144
  slices_S5x512x144_o1_0_0_S1x512x144 : S5x512x144.Slices ![1, 0, 0] S1x512x144
  slices_S5x512x144_o2_0_0_S1x512x144 : S5x512x144.Slices ![2, 0, 0] S1x512x144
  slices_S5x512x144_o3_0_0_S1x512x144 : S5x512x144.Slices ![3, 0, 0] S1x512x144
  slices_S5x512x144_o4_0_0_S1x512x144 : S5x512x144.Slices ![4, 0, 0] S1x512x144
  concatenates_S512x144_S512x144_S512x144_S512x144_S512x144_S512x720_d1 : Shape.Concatenates [S512x144, S512x144, S512x144, S512x144, S512x144] S512x720 1
  inb_S720x120_S720x120_0_0 : ∀ a, (![0, 0] : Fin 2 → Nat) a + S720x120.size a ≤ S720x120.size a
  h_S720x120 : 0 < S720x120.numel
  shapeCasts_S720x120_S720x120 : S720x120.ShapeCasts S720x120
  inb_S1x120_S1x120_0_0 : ∀ a, (![0, 0] : Fin 2 → Nat) a + S1x120.size a ≤ S1x120.size a
  h_S1x120 : 0 < S1x120.numel
  broadcasts_S1x120_S512x120 : S1x120.Broadcasts S512x120
  inb_S120x84_S120x84_0_0 : ∀ a, (![0, 0] : Fin 2 → Nat) a + S120x84.size a ≤ S120x84.size a
  h_S120x84 : 0 < S120x84.numel
  shapeCasts_S120x84_S120x84 : S120x84.ShapeCasts S120x84
  inb_S1x84_S1x84_0_0 : ∀ a, (![0, 0] : Fin 2 → Nat) a + S1x84.size a ≤ S1x84.size a
  h_S1x84 : 0 < S1x84.numel
  broadcasts_S1x84_S512x84 : S1x84.Broadcasts S512x84
  inb_S84x10_S84x10_0_0 : ∀ a, (![0, 0] : Fin 2 → Nat) a + S84x10.size a ≤ S84x10.size a
  h_S84x10 : 0 < S84x10.numel
  shapeCasts_S84x10_S84x10 : S84x10.ShapeCasts S84x10
  inb_S1x10_S1x10_0_0 : ∀ a, (![0, 0] : Fin 2 → Nat) a + S1x10.size a ≤ S1x10.size a
  h_S1x10 : 0 < S1x10.numel
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S14336x480_S480x168_S14336x168_1_0_0_1_n_n_wf : DotDims.WF S14336x480 S480x168 S14336x168 [1] [0] [0] [1] [] []
  dot_S5120x810_S810x160_S5120x160_1_0_0_1_n_n_wf : DotDims.WF S5120x810 S810x160 S5120x160 [1] [0] [0] [1] [] []
  dot_S512x720_S720x120_S512x120_1_0_0_1_n_n_wf : DotDims.WF S512x720 S720x120 S512x120 [1] [0] [0] [1] [] []
  dot_S512x120_S120x84_S512x84_1_0_0_1_n_n_wf : DotDims.WF S512x120 S120x84 S512x84 [1] [0] [0] [1] [] []
  dot_S512x84_S84x10_S512x10_1_0_0_1_n_n_wf : DotDims.WF S512x84 S84x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x96.size a ≤ S32x4096x96.size a
  hwx0_0 : ∀ i : grid0.Coords, EltTy.bits .bf16 = 32 ∨ (Rect.block (s := S32x4096x96) S32x512x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S480x168.size a ≤ S480x168.size a
  hwx0_1 : ∀ i : grid0.Coords, EltTy.bits .bf16 = 32 ∨ (Rect.block (s := S480x168) S480x168.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S810x160.size a ≤ S810x160.size a
  hwx0_3 : ∀ i : grid0.Coords, EltTy.bits .bf16 = 32 ∨ (Rect.block (s := S810x160) S810x160.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S720x120.size a ≤ S720x120.size a
  hwx0_5 : ∀ i : grid0.Coords, EltTy.bits .bf16 = 32 ∨ (Rect.block (s := S720x120) S720x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .bf16 = 32 ∨ (Rect.block (s := S84x10) S84x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x10.size a ≤ S4096x10.size a
  hwx0_11 : ∀ i : grid0.Coords, EltTy.bits .f32 = 32 ∨ (Rect.block (s := S4096x10) S512x10.size (cc0_transform_11 i) (hinb0_11 i)).WholeWords (EltTy.packing .f32)

variable [Facts₀]

def dot_S14336x480_S480x168_S14336x168_1_0_0_1_n_n : DotDims S14336x480 S480x168 S14336x168 where
  lhsContracting := [1]
  rhsContracting := [0]
  lhsNonContracting := [0]
  rhsNonContracting := [1]
  lhsBatch := []
  rhsBatch := []
  wf := dot_S14336x480_S480x168_S14336x168_1_0_0_1_n_n_wf
def dot_S5120x810_S810x160_S5120x160_1_0_0_1_n_n : DotDims S5120x810 S810x160 S5120x160 where
  lhsContracting := [1]
  rhsContracting := [0]
  lhsNonContracting := [0]
  rhsNonContracting := [1]
  lhsBatch := []
  rhsBatch := []
  wf := dot_S5120x810_S810x160_S5120x160_1_0_0_1_n_n_wf
def dot_S512x720_S720x120_S512x120_1_0_0_1_n_n : DotDims S512x720 S720x120 S512x120 where
  lhsContracting := [1]
  rhsContracting := [0]
  lhsNonContracting := [0]
  rhsNonContracting := [1]
  lhsBatch := []
  rhsBatch := []
  wf := dot_S512x720_S720x120_S512x120_1_0_0_1_n_n_wf
def dot_S512x120_S120x84_S512x84_1_0_0_1_n_n : DotDims S512x120 S120x84 S512x84 where
  lhsContracting := [1]
  rhsContracting := [0]
  lhsNonContracting := [0]
  rhsNonContracting := [1]
  lhsBatch := []
  rhsBatch := []
  wf := dot_S512x120_S120x84_S512x84_1_0_0_1_n_n_wf
def dot_S512x84_S84x10_S512x10_1_0_0_1_n_n : DotDims S512x84 S84x10 S512x10 where
  lhsContracting := [1]
  rhsContracting := [0]
  lhsNonContracting := [0]
  rhsNonContracting := [1]
  lhsBatch := []
  rhsBatch := []
  wf := dot_S512x84_S84x10_S512x10_1_0_0_1_n_n_wf

abbrev win0_0 : Pipeline.Window sig grid0 :=
  Pipeline.Window.ofSpec (Memref.whole main_v2) S32x512x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S480x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S810x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S720x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x3x32x32 : Shape := ⟨4, ![4096, 3, 32, 32]⟩
abbrev S5x3x32x168 : Shape := ⟨4, ![5, 3, 32, 168]⟩
abbrev S1x168 : Shape := ⟨2, ![1, 168]⟩
abbrev S5x162x160 : Shape := ⟨3, ![5, 162, 160]⟩
abbrev S1x160 : Shape := ⟨2, ![1, 160]⟩
abbrev S5x144x120 : Shape := ⟨3, ![5, 144, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S4096x96x32 : Shape := ⟨3, ![4096, 96, 32]⟩
abbrev S4096x1x10 : Shape := ⟨3, ![4096, 1, 10]⟩
abbrev S1x96x32 : Shape := ⟨3, ![1, 96, 32]⟩
abbrev S1x1x10 : Shape := ⟨3, ![1, 1, 10]⟩
abbrev S14x162 : Shape := ⟨2, ![14, 162]⟩
abbrev S28x168 : Shape := ⟨2, ![28, 168]⟩
abbrev S1x28x32 : Shape := ⟨3, ![1, 28, 32]⟩
abbrev S28x32 : Shape := ⟨2, ![28, 32]⟩
abbrev S1x1x32x168 : Shape := ⟨4, ![1, 1, 32, 168]⟩
abbrev S32x168 : Shape := ⟨2, ![32, 168]⟩
abbrev S28x162 : Shape := ⟨2, ![28, 162]⟩
abbrev S27x162 : Shape := ⟨2, ![27, 162]⟩
abbrev S1x162 : Shape := ⟨2, ![1, 162]⟩
abbrev S10x160 : Shape := ⟨2, ![10, 160]⟩
abbrev S10x162 : Shape := ⟨2, ![10, 162]⟩
abbrev S1x162x160 : Shape := ⟨3, ![1, 162, 160]⟩
abbrev S162x160 : Shape := ⟨2, ![162, 160]⟩
abbrev S10x144 : Shape := ⟨2, ![10, 144]⟩
abbrev S9x144 : Shape := ⟨2, ![9, 144]⟩
abbrev S1x144 : Shape := ⟨2, ![1, 144]⟩
abbrev S1x144x120 : Shape := ⟨3, ![1, 144, 120]⟩
abbrev S144x120 : Shape := ⟨2, ![144, 120]⟩
abbrev S4096x10 : Shape := ⟨2, ![4096, 10]⟩

abbrev nBuf : Space → Nat
  | .hbm => 14
  | .vmem => 15
  | .smem => 0
  | _ => 0

abbrev bufTy : (tb : Table) → Fin (tcTables nBuf tb) → BufTy
  | .hbm, ⟨0, _⟩ => ⟨S4096x3x32x32, .f32⟩
  | .hbm, ⟨1, _⟩ => ⟨S5x3x32x168, .f32⟩
  | .hbm, ⟨2, _⟩ => ⟨S1x168, .f32⟩
  | .hbm, ⟨3, _⟩ => ⟨S5x162x160, .f32⟩
  | .hbm, ⟨4, _⟩ => ⟨S1x160, .f32⟩
  | .hbm, ⟨5, _⟩ => ⟨S5x144x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x10, .f32⟩
  | .hbm, ⟨10, _⟩ => ⟨S1x10, .f32⟩
  | .hbm, ⟨11, _⟩ => ⟨S4096x96x32, .f32⟩
  | .hbm, ⟨12, _⟩ => ⟨S4096x1x10, .f32⟩
  | .hbm, ⟨13, _⟩ => ⟨S4096x10, .f32⟩
  | .local _ .vmem, ⟨0, _⟩ => ⟨S1x96x32, .f32⟩
  | .local _ .vmem, ⟨1, _⟩ => ⟨S1x96x32, .f32⟩
  | .local _ .vmem, ⟨2, _⟩ => ⟨S5x3x32x168, .f32⟩
  | .local _ .vmem, ⟨3, _⟩ => ⟨S1x168, .f32⟩
  | .local _ .vmem, ⟨4, _⟩ => ⟨S5x162x160, .f32⟩
  | .local _ .vmem, ⟨5, _⟩ => ⟨S1x160, .f32⟩
  | .local _ .vmem, ⟨6, _⟩ => ⟨S5x144x120, .f32⟩
  | .local _ .vmem, ⟨7, _⟩ => ⟨S1x120, .f32⟩
  | .local _ .vmem, ⟨8, _⟩ => ⟨S120x84, .f32⟩
  | .local _ .vmem, ⟨9, _⟩ => ⟨S1x84, .f32⟩
  | .local _ .vmem, ⟨10, _⟩ => ⟨S84x10, .f32⟩
  | .local _ .vmem, ⟨11, _⟩ => ⟨S1x10, .f32⟩
  | .local _ .vmem, ⟨12, _⟩ => ⟨S1x1x10, .f32⟩
  | .local _ .vmem, ⟨13, _⟩ => ⟨S1x1x10, .f32⟩
  | .local _ .vmem, ⟨14, _⟩ => ⟨S14x162, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x3x32x168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x162x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x144x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x3x32x32_S4096x96x32 : S4096x3x32x32.ShapeCasts S4096x96x32
  inb_S1x96x32_S1x28x32_0_0_0 : ∀ a, (![0, 0, 0] : Fin 3 → Nat) a + S1x28x32.size a ≤ S1x96x32.size a
  h_S1x28x32 : 0 < S1x28x32.numel
  shapeCasts_S1x28x32_S28x32 : S1x28x32.ShapeCasts S28x32
  inb_S5x3x32x168_S1x1x32x168_0_0_0_0 : ∀ a, (![0, 0, 0, 0] : Fin 4 → Nat) a + S1x1x32x168.size a ≤ S5x3x32x168.size a
  h_S1x1x32x168 : 0 < S1x1x32x168.numel
  shapeCasts_S1x1x32x168_S32x168 : S1x1x32x168.ShapeCasts S32x168
  inb_S1x96x32_S1x28x32_0_1_0 : ∀ a, (![0, 1, 0] : Fin 3 → Nat) a + S1x28x32.size a ≤ S1x96x32.size a
  inb_S5x3x32x168_S1x1x32x168_1_0_0_0 : ∀ a, (![1, 0, 0, 0] : Fin 4 → Nat) a + S1x1x32x168.size a ≤ S5x3x32x168.size a
  inb_S1x96x32_S1x28x32_0_2_0 : ∀ a, (![0, 2, 0] : Fin 3 → Nat) a + S1x28x32.size a ≤ S1x96x32.size a
  inb_S5x3x32x168_S1x1x32x168_2_0_0_0 : ∀ a, (![2, 0, 0, 0] : Fin 4 → Nat) a + S1x1x32x168.size a ≤ S5x3x32x168.size a
  inb_S1x96x32_S1x28x32_0_3_0 : ∀ a, (![0, 3, 0] : Fin 3 → Nat) a + S1x28x32.size a ≤ S1x96x32.size a
  inb_S5x3x32x168_S1x1x32x168_3_0_0_0 : ∀ a, (![3, 0, 0, 0] : Fin 4 → Nat) a + S1x1x32x168.size a ≤ S5x3x32x168.size a
  inb_S1x96x32_S1x28x32_0_4_0 : ∀ a, (![0, 4, 0] : Fin 3 → Nat) a + S1x28x32.size a ≤ S1x96x32.size a
  inb_S5x3x32x168_S1x1x32x168_4_0_0_0 : ∀ a, (![4, 0, 0, 0] : Fin 4 → Nat) a + S1x1x32x168.size a ≤ S5x3x32x168.size a
  inb_S1x96x32_S1x28x32_0_32_0 : ∀ a, (![0, 32, 0] : Fin 3 → Nat) a + S1x28x32.size a ≤ S1x96x32.size a
  inb_S5x3x32x168_S1x1x32x168_0_1_0_0 : ∀ a, (![0, 1, 0, 0] : Fin 4 → Nat) a + S1x1x32x168.size a ≤ S5x3x32x168.size a
  inb_S1x96x32_S1x28x32_0_33_0 : ∀ a, (![0, 33, 0] : Fin 3 → Nat) a + S1x28x32.size a ≤ S1x96x32.size a
  inb_S5x3x32x168_S1x1x32x168_1_1_0_0 : ∀ a, (![1, 1, 0, 0] : Fin 4 → Nat) a + S1x1x32x168.size a ≤ S5x3x32x168.size a
  inb_S1x96x32_S1x28x32_0_34_0 : ∀ a, (![0, 34, 0] : Fin 3 → Nat) a + S1x28x32.size a ≤ S1x96x32.size a
  inb_S5x3x32x168_S1x1x32x168_2_1_0_0 : ∀ a, (![2, 1, 0, 0] : Fin 4 → Nat) a + S1x1x32x168.size a ≤ S5x3x32x168.size a
  inb_S1x96x32_S1x28x32_0_35_0 : ∀ a, (![0, 35, 0] : Fin 3 → Nat) a + S1x28x32.size a ≤ S1x96x32.size a
  inb_S5x3x32x168_S1x1x32x168_3_1_0_0 : ∀ a, (![3, 1, 0, 0] : Fin 4 → Nat) a + S1x1x32x168.size a ≤ S5x3x32x168.size a
  inb_S1x96x32_S1x28x32_0_36_0 : ∀ a, (![0, 36, 0] : Fin 3 → Nat) a + S1x28x32.size a ≤ S1x96x32.size a
  inb_S5x3x32x168_S1x1x32x168_4_1_0_0 : ∀ a, (![4, 1, 0, 0] : Fin 4 → Nat) a + S1x1x32x168.size a ≤ S5x3x32x168.size a
  inb_S1x96x32_S1x28x32_0_64_0 : ∀ a, (![0, 64, 0] : Fin 3 → Nat) a + S1x28x32.size a ≤ S1x96x32.size a
  inb_S5x3x32x168_S1x1x32x168_0_2_0_0 : ∀ a, (![0, 2, 0, 0] : Fin 4 → Nat) a + S1x1x32x168.size a ≤ S5x3x32x168.size a
  inb_S1x96x32_S1x28x32_0_65_0 : ∀ a, (![0, 65, 0] : Fin 3 → Nat) a + S1x28x32.size a ≤ S1x96x32.size a
  inb_S5x3x32x168_S1x1x32x168_1_2_0_0 : ∀ a, (![1, 2, 0, 0] : Fin 4 → Nat) a + S1x1x32x168.size a ≤ S5x3x32x168.size a
  inb_S1x96x32_S1x28x32_0_66_0 : ∀ a, (![0, 66, 0] : Fin 3 → Nat) a + S1x28x32.size a ≤ S1x96x32.size a
  inb_S5x3x32x168_S1x1x32x168_2_2_0_0 : ∀ a, (![2, 2, 0, 0] : Fin 4 → Nat) a + S1x1x32x168.size a ≤ S5x3x32x168.size a
  inb_S1x96x32_S1x28x32_0_67_0 : ∀ a, (![0, 67, 0] : Fin 3 → Nat) a + S1x28x32.size a ≤ S1x96x32.size a
  inb_S5x3x32x168_S1x1x32x168_3_2_0_0 : ∀ a, (![3, 2, 0, 0] : Fin 4 → Nat) a + S1x1x32x168.size a ≤ S5x3x32x168.size a
  inb_S1x96x32_S1x28x32_0_68_0 : ∀ a, (![0, 68, 0] : Fin 3 → Nat) a + S1x28x32.size a ≤ S1x96x32.size a
  inb_S5x3x32x168_S1x1x32x168_4_2_0_0 : ∀ a, (![4, 2, 0, 0] : Fin 4 → Nat) a + S1x1x32x168.size a ≤ S5x3x32x168.size a
  inb_S1x168_S1x168_0_0 : ∀ a, (![0, 0] : Fin 2 → Nat) a + S1x168.size a ≤ S1x168.size a
  h_S1x168 : 0 < S1x168.numel
  broadcasts_S1x168_S28x168 : S1x168.Broadcasts S28x168
  slices_S28x168_o0_0_S28x162 : S28x168.Slices ![0, 0] S28x162
  slices_S28x168_o0_6_S28x162 : S28x168.Slices ![0, 6] S28x162
  slices_S28x162_o0_0_S27x162 : S28x162.Slices ![0, 0] S27x162
  slices_S28x162_o1_0_S27x162 : S28x162.Slices ![1, 0] S27x162
  slices_S27x162_o0_0_S1x162 : S27x162.Slices ![0, 0] S1x162
  inb_S14x162_S1x162_0_0 : ∀ a, (![0, 0] : Fin 2 → Nat) a + S1x162.size a ≤ S14x162.size a
  h_S1x162 : 0 < S1x162.numel
  shapeCasts_S1x162_S1x162 : S1x162.ShapeCasts S1x162
  slices_S27x162_o2_0_S1x162 : S27x162.Slices ![2, 0] S1x162
  inb_S14x162_S1x162_1_0 : ∀ a, (![1, 0] : Fin 2 → Nat) a + S1x162.size a ≤ S14x162.size a
  slices_S27x162_o4_0_S1x162 : S27x162.Slices ![4, 0] S1x162
  inb_S14x162_S1x162_2_0 : ∀ a, (![2, 0] : Fin 2 → Nat) a + S1x162.size a ≤ S14x162.size a
  slices_S27x162_o6_0_S1x162 : S27x162.Slices ![6, 0] S1x162
  inb_S14x162_S1x162_3_0 : ∀ a, (![3, 0] : Fin 2 → Nat) a + S1x162.size a ≤ S14x162.size a
  slices_S27x162_o8_0_S1x162 : S27x162.Slices ![8, 0] S1x162
  inb_S14x162_S1x162_4_0 : ∀ a, (![4, 0] : Fin 2 → Nat) a + S1x162.size a ≤ S14x162.size a
  slices_S27x162_o10_0_S1x162 : S27x162.Slices ![10, 0] S1x162
  inb_S14x162_S1x162_5_0 : ∀ a, (![5, 0] : Fin 2 → Nat) a + S1x162.size a ≤ S14x162.size a
  slices_S27x162_o12_0_S1x162 : S27x162.Slices ![12, 0] S1x162
  inb_S14x162_S1x162_6_0 : ∀ a, (![6, 0] : Fin 2 → Nat) a + S1x162.size a ≤ S14x162.size a
  slices_S27x162_o14_0_S1x162 : S27x162.Slices ![14, 0] S1x162
  inb_S14x162_S1x162_7_0 : ∀ a, (![7, 0] : Fin 2 → Nat) a + S1x162.size a ≤ S14x162.size a
  slices_S27x162_o16_0_S1x162 : S27x162.Slices ![16, 0] S1x162
  inb_S14x162_S1x162_8_0 : ∀ a, (![8, 0] : Fin 2 → Nat) a + S1x162.size a ≤ S14x162.size a
  slices_S27x162_o18_0_S1x162 : S27x162.Slices ![18, 0] S1x162
  inb_S14x162_S1x162_9_0 : ∀ a, (![9, 0] : Fin 2 → Nat) a + S1x162.size a ≤ S14x162.size a
  slices_S27x162_o20_0_S1x162 : S27x162.Slices ![20, 0] S1x162
  inb_S14x162_S1x162_10_0 : ∀ a, (![10, 0] : Fin 2 → Nat) a + S1x162.size a ≤ S14x162.size a
  slices_S27x162_o22_0_S1x162 : S27x162.Slices ![22, 0] S1x162
  inb_S14x162_S1x162_11_0 : ∀ a, (![11, 0] : Fin 2 → Nat) a + S1x162.size a ≤ S14x162.size a
  slices_S27x162_o24_0_S1x162 : S27x162.Slices ![24, 0] S1x162
  inb_S14x162_S1x162_12_0 : ∀ a, (![12, 0] : Fin 2 → Nat) a + S1x162.size a ≤ S14x162.size a
  slices_S27x162_o26_0_S1x162 : S27x162.Slices ![26, 0] S1x162
  inb_S14x162_S1x162_13_0 : ∀ a, (![13, 0] : Fin 2 → Nat) a + S1x162.size a ≤ S14x162.size a
  inb_S14x162_S10x162_0_0 : ∀ a, (![0, 0] : Fin 2 → Nat) a + S10x162.size a ≤ S14x162.size a
  h_S10x162 : 0 < S10x162.numel
  inb_S5x162x160_S1x162x160_0_0_0 : ∀ a, (![0, 0, 0] : Fin 3 → Nat) a + S1x162x160.size a ≤ S5x162x160.size a
  h_S1x162x160 : 0 < S1x162x160.numel
  shapeCasts_S1x162x160_S162x160 : S1x162x160.ShapeCasts S162x160
  inb_S14x162_S10x162_1_0 : ∀ a, (![1, 0] : Fin 2 → Nat) a + S10x162.size a ≤ S14x162.size a
  inb_S5x162x160_S1x162x160_1_0_0 : ∀ a, (![1, 0, 0] : Fin 3 → Nat) a + S1x162x160.size a ≤ S5x162x160.size a
  inb_S14x162_S10x162_2_0 : ∀ a, (![2, 0] : Fin 2 → Nat) a + S10x162.size a ≤ S14x162.size a
  inb_S5x162x160_S1x162x160_2_0_0 : ∀ a, (![2, 0, 0] : Fin 3 → Nat) a + S1x162x160.size a ≤ S5x162x160.size a
  inb_S14x162_S10x162_3_0 : ∀ a, (![3, 0] : Fin 2 → Nat) a + S10x162.size a ≤ S14x162.size a
  inb_S5x162x160_S1x162x160_3_0_0 : ∀ a, (![3, 0, 0] : Fin 3 → Nat) a + S1x162x160.size a ≤ S5x162x160.size a
  inb_S14x162_S10x162_4_0 : ∀ a, (![4, 0] : Fin 2 → Nat) a + S10x162.size a ≤ S14x162.size a
  inb_S5x162x160_S1x162x160_4_0_0 : ∀ a, (![4, 0, 0] : Fin 3 → Nat) a + S1x162x160.size a ≤ S5x162x160.size a
  inb_S1x160_S1x160_0_0 : ∀ a, (![0, 0] : Fin 2 → Nat) a + S1x160.size a ≤ S1x160.size a
  h_S1x160 : 0 < S1x160.numel
  broadcasts_S1x160_S10x160 : S1x160.Broadcasts S10x160
  slices_S10x160_o0_0_S10x144 : S10x160.Slices ![0, 0] S10x144
  slices_S10x160_o0_16_S10x144 : S10x160.Slices ![0, 16] S10x144
  slices_S10x144_o0_0_S9x144 : S10x144.Slices ![0, 0] S9x144
  slices_S10x144_o1_0_S9x144 : S10x144.Slices ![1, 0] S9x144
  slices_S9x144_o0_0_S1x144 : S9x144.Slices ![0, 0] S1x144
  inb_S5x144x120_S1x144x120_0_0_0 : ∀ a, (![0, 0, 0] : Fin 3 → Nat) a + S1x144x120.size a ≤ S5x144x120.size a
  h_S1x144x120 : 0 < S1x144x120.numel
  shapeCasts_S1x144x120_S144x120 : S1x144x120.ShapeCasts S144x120
  slices_S9x144_o2_0_S1x144 : S9x144.Slices ![2, 0] S1x144
  inb_S5x144x120_S1x144x120_1_0_0 : ∀ a, (![1, 0, 0] : Fin 3 → Nat) a + S1x144x120.size a ≤ S5x144x120.size a
  slices_S9x144_o4_0_S1x144 : S9x144.Slices ![4, 0] S1x144
  inb_S5x144x120_S1x144x120_2_0_0 : ∀ a, (![2, 0, 0] : Fin 3 → Nat) a + S1x144x120.size a ≤ S5x144x120.size a
  slices_S9x144_o6_0_S1x144 : S9x144.Slices ![6, 0] S1x144
  inb_S5x144x120_S1x144x120_3_0_0 : ∀ a, (![3, 0, 0] : Fin 3 → Nat) a + S1x144x120.size a ≤ S5x144x120.size a
  slices_S9x144_o8_0_S1x144 : S9x144.Slices ![8, 0] S1x144
  inb_S5x144x120_S1x144x120_4_0_0 : ∀ a, (![4, 0, 0] : Fin 3 → Nat) a + S1x144x120.size a ≤ S5x144x120.size a
  inb_S1x120_S1x120_0_0 : ∀ a, (![0, 0] : Fin 2 → Nat) a + S1x120.size a ≤ S1x120.size a
  h_S1x120 : 0 < S1x120.numel
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  shapeCasts_S1x10_S1x1x10 : S1x10.ShapeCasts S1x1x10
  shapeCasts_S4096x1x10_S4096x10 : S4096x1x10.ShapeCasts S4096x10
  dot_S28x32_S32x168_S28x168_1_0_0_1_n_n_wf : DotDims.WF S28x32 S32x168 S28x168 [1] [0] [0] [1] [] []
  dot_S10x162_S162x160_S10x160_1_0_0_1_n_n_wf : DotDims.WF S10x162 S162x160 S10x160 [1] [0] [0] [1] [] []
  dot_S1x144_S144x120_S1x120_1_0_0_1_n_n_wf : DotDims.WF S1x144 S144x120 S1x120 [1] [0] [0] [1] [] []
  dot_S1x120_S120x84_S1x84_1_0_0_1_n_n_wf : DotDims.WF S1x120 S120x84 S1x84 [1] [0] [0] [1] [] []
  dot_S1x84_S84x10_S1x10_1_0_0_1_n_n_wf : DotDims.WF S1x84 S84x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x32.size a ≤ S4096x96x32.size a
  hwx0_0 : ∀ i : grid0.Coords, EltTy.bits .f32 = 32 ∨ (Rect.block (s := S4096x96x32) S1x96x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x3x32x168.size a ≤ S5x3x32x168.size a
  hwx0_1 : ∀ i : grid0.Coords, EltTy.bits .f32 = 32 ∨ (Rect.block (s := S5x3x32x168) S5x3x32x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x162x160.size a ≤ S5x162x160.size a
  hwx0_3 : ∀ i : grid0.Coords, EltTy.bits .f32 = 32 ∨ (Rect.block (s := S5x162x160) S5x162x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x144x120.size a ≤ S5x144x120.size a
  hwx0_5 : ∀ i : grid0.Coords, EltTy.bits .f32 = 32 ∨ (Rect.block (s := S5x144x120) S5x144x120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .f32 = 32 ∨ (Rect.block (s := S120x84) S120x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .f32 = 32 ∨ (Rect.block (s := S84x10) S84x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x10.size a ≤ S4096x1x10.size a
  hwx0_11 : ∀ i : grid0.Coords, EltTy.bits .f32 = 32 ∨ (Rect.block (s := S4096x1x10) S1x1x10.size (cc0_transform_11 i) (hinb0_11 i)).WholeWords (EltTy.packing .f32)

variable [Facts₀]

def dot_S28x32_S32x168_S28x168_1_0_0_1_n_n : DotDims S28x32 S32x168 S28x168 where
  lhsContracting := [1]
  rhsContracting := [0]
  lhsNonContracting := [0]
  rhsNonContracting := [1]
  lhsBatch := []
  rhsBatch := []
  wf := dot_S28x32_S32x168_S28x168_1_0_0_1_n_n_wf
def dot_S10x162_S162x160_S10x160_1_0_0_1_n_n : DotDims S10x162 S162x160 S10x160 where
  lhsContracting := [1]
  rhsContracting := [0]
  lhsNonContracting := [0]
  rhsNonContracting := [1]
  lhsBatch := []
  rhsBatch := []
  wf := dot_S10x162_S162x160_S10x160_1_0_0_1_n_n_wf
def dot_S1x144_S144x120_S1x120_1_0_0_1_n_n : DotDims S1x144 S144x120 S1x120 where
  lhsContracting := [1]
  rhsContracting := [0]
  lhsNonContracting := [0]
  rhsNonContracting := [1]
  lhsBatch := []
  rhsBatch := []
  wf := dot_S1x144_S144x120_S1x120_1_0_0_1_n_n_wf
def dot_S1x120_S120x84_S1x84_1_0_0_1_n_n : DotDims S1x120 S120x84 S1x84 where
  lhsContracting := [1]
  rhsContracting := [0]
  lhsNonContracting := [0]
  rhsNonContracting := [1]
  lhsBatch := []
  rhsBatch := []
  wf := dot_S1x120_S120x84_S1x84_1_0_0_1_n_n_wf
def dot_S1x84_S84x10_S1x10_1_0_0_1_n_n : DotDims S1x84 S84x10 S1x10 where
  lhsContracting := [1]
  rhsContracting := [0]
  lhsNonContracting := [0]
  rhsNonContracting := [1]
  lhsBatch := []
  rhsBatch := []
  wf := dot_S1x84_S84x10_S1x10_1_0_0_1_n_n_wf

abbrev win0_0 : Pipeline.Window sig grid0 :=
  Pipeline.Window.ofSpec (Memref.whole main_v0) S1x96x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x3x32x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x162x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x144x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x1x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  The network both programs compute, written once over plain index functions: a 5×5 valid convolution of a
  3×32×32 image given as row-Toeplitz products (one 32-wide input row against a 32×168 matrix per kernel row
  and input channel), a bias and a rectifier; a 2×2 maximum pooling kept DILATED (row pairs are compacted,
  lane pairs are not: lane l holds max of lanes l and l+6, and only every other lane group is consumed later,
  through zeros in the next weight tensor); the same again with 162-wide rows against 162×160 matrices and a
  lane shift of 16; then three dense layers, the first contracting five pooled rows of 144 lanes at once.

  Everything is an extended real; sums are finite sums in the commutative monoid of the extended reals, so
  their grouping and order are free, and nothing here needs an input to be finite.
-/
import Idealize.ShloMosaic.PureOps.Ideal
import Mathlib.Algebra.BigOperators.Fin

noncomputable section

namespace Cert.Net

open BigOperators

/-- The rectifier. -/
def relu (a : EReal) : EReal := max a 0

/-- First convolution row `oh` (28 of them), lane `l` = output column × 6 + output channel: the sum over the
    input channel, the kernel row and the input column of image × Toeplitz weight, plus bias, rectified. -/
def conv1 (X : Fin 3 → Fin 32 → Fin 32 → EReal) (T1 : Fin 5 → Fin 3 → Fin 32 → Fin 168 → EReal)
    (B1 : Fin 168 → EReal) (oh : Fin 28) (l : Fin 168) : EReal :=
  relu ((∑ ci : Fin 3, ∑ kh : Fin 5, ∑ w : Fin 32,
      X ci ⟨oh.val + kh.val, by omega⟩ w * T1 kh ci w l) + B1 l)

/-- Lane-pair maximum with shift `s` on rows of `n + s` lanes. -/
def lanePair {R n : Nat} (s : Nat) (c : Fin R → Fin (n + s) → EReal) (r : Fin R) (l : Fin n) : EReal :=
  max (c r ⟨l.val, by omega⟩) (c r ⟨l.val + s, by omega⟩)

/-- Row-pair maximum: pooled row `p` is the maximum of rows `2 p` and `2 p + 1`. -/
def rowPair {P n : Nat} (c : Fin (2 * P) → Fin n → EReal) (p : Fin P) (l : Fin n) : EReal :=
  max (c ⟨2 * p.val, by omega⟩ l) (c ⟨2 * p.val + 1, by omega⟩ l)

/-- First pooling: 14 rows of 162 lanes. -/
def pool1 (c1 : Fin 28 → Fin 168 → EReal) : Fin 14 → Fin 162 → EReal :=
  rowPair (P := 14) (lanePair (R := 28) (n := 162) 6 c1)

/-- Second convolution row `oh` (10 of them), lane `l` (160): the sum over the kernel row and the 162 pooled
    lanes of pooled value × weight, plus bias, rectified. -/
def conv2 (P1 : Fin 14 → Fin 162 → EReal) (T2 : Fin 5 → Fin 162 → Fin 160 → EReal)
    (B2 : Fin 160 → EReal) (oh : Fin 10) (l : Fin 160) : EReal :=
  relu ((∑ kh : Fin 5, ∑ j : Fin 162, P1 ⟨oh.val + kh.val, by omega⟩ j * T2 kh j l) + B2 l)

/-- Second pooling: 5 rows of 144 lanes. -/
def pool2 (c2 : Fin 10 → Fin 160 → EReal) : Fin 5 → Fin 144 → EReal :=
  rowPair (P := 5) (lanePair (R := 10) (n := 144) 16 c2)

/-- First dense layer: all five pooled rows against their own 144×120 matrices. -/
def fc1 (P2 : Fin 5 → Fin 144 → EReal) (F1 : Fin 5 → Fin 144 → Fin 120 → EReal) (BF1 : Fin 120 → EReal)
    (j : Fin 120) : EReal :=
  relu ((∑ r : Fin 5, ∑ l : Fin 144, P2 r l * F1 r l j) + BF1 j)

/-- A dense layer `y · W + b`, rectified. -/
def dense {K N : Nat} (y : Fin K → EReal) (W : Fin K → Fin N → EReal) (b : Fin N → EReal) (j : Fin N) : EReal :=
  (∑ k : Fin K, y k * W k j) + b j

/-- The whole network on one image: ten scores. -/
def net (X : Fin 3 → Fin 32 → Fin 32 → EReal) (T1 : Fin 5 → Fin 3 → Fin 32 → Fin 168 → EReal)
    (B1 : Fin 168 → EReal) (T2 : Fin 5 → Fin 162 → Fin 160 → EReal) (B2 : Fin 160 → EReal)
    (F1 : Fin 5 → Fin 144 → Fin 120 → EReal) (BF1 : Fin 120 → EReal)
    (W2 : Fin 120 → Fin 84 → EReal) (BF2 : Fin 84 → EReal)
    (W3 : Fin 84 → Fin 10 → EReal) (B3 : Fin 10 → EReal) : Fin 10 → EReal :=
  dense (fun k => relu (dense (fc1 (pool2 (conv2 (pool1 (conv1 X T1 B1)) T2 B2)) F1 BF1) W2 BF2 k)) W3 B3

end Cert.Net

end
-- ==== Proof.Sums.lean ====
/-
  Regrouping finite sums. A contraction over a flattened axis of extent a·b (a kernel row index times the row
  width, or a pooled row times its lanes) is the double sum over the two factors: position k = i·b + j.
  Valid in any commutative additive monoid, so in the extended reals with no finiteness assumed.
-/
import Mathlib.Data.Fintype.BigOperators
import Mathlib.Logic.Equiv.Fin.Basic
import Mathlib.Algebra.BigOperators.Fin

namespace Cert.Net

open BigOperators

/-- Position `j + b * i` of the pair (i, j) in the flattened axis. -/
abbrev flat {a b : ℕ} (i : Fin a) (j : Fin b) : Fin (a * b) := finProdFinEquiv (i, j)

theorem flat_val {a b : ℕ} (i : Fin a) (j : Fin b) : (flat i j).val = j.val + b * i.val := rfl

/-- A sum over the flattened axis is the double sum over its two factors. -/
theorem sum_flat {M : Type*} [AddCommMonoid M] (a b : ℕ) (f : Fin (a * b) → M) :
    ∑ k : Fin (a * b), f k = ∑ i : Fin a, ∑ j : Fin b, f (flat i j) := by
  rw [← Fintype.sum_prod_type' (f := fun i j => f (flat i j))]
  exact (Fintype.sum_equiv finProdFinEquiv _ _ fun _ => rfl).symm

/-- The same, the summand given on the factors: whatever `f` is at position `j + b * i`. -/
theorem sum_flat_of {M : Type*} [AddCommMonoid M] (a b : ℕ) (f : Fin (a * b) → M) (g : Fin a → Fin b → M)
    (h : ∀ i j, f (flat i j) = g i j) : ∑ k : Fin (a * b), f k = ∑ i : Fin a, ∑ j : Fin b, g i j := by
  rw [sum_flat]
  exact Finset.sum_congr rfl fun i _ => Finset.sum_congr rfl fun j _ => h i j

end Cert.Net
-- ==== Proof.Whole.lean ====
/-
  The result array both programs must end at, as one function of the eleven argument arrays: row n of the
  [4096, 10] result is the network's ten scores on image n, the weight tensors read through their own axes.
-/
import proofs.«125908_g2000603131124687_pallasbulk_7_34_alg».proof.Proof.Spec
import Idealize.ShloMosaic.Lib.ValueIdx

noncomputable section

open Idealize.ShloMosaic Idealize.ShloMosaic.ValueIdx

namespace Cert.Net

/-- A bias row [1, n] as a function of the lane. -/
def rowv {n : Nat} (x : (⟨2, ![1, n]⟩ : Shape).Idx → EReal) : Fin n → EReal := fun l => x (ix2 (0 : Fin 1) l)

/-- A matrix [k, n] as a function of its two coordinates. -/
def mat {k n : Nat} (x : (⟨2, ![k, n]⟩ : Shape).Idx → EReal) : Fin k → Fin n → EReal := fun a b => x (ix2 a b)

/-- A rank-3 tensor as a function of its three coordinates. -/
def ten3 {a b c : Nat} (x : (⟨3, ![a, b, c]⟩ : Shape).Idx → EReal) : Fin a → Fin b → Fin c → EReal :=
  fun i j k => x (ix3 i j k)

/-- A rank-4 tensor as a function of its four coordinates. -/
def ten4 {a b c d : Nat} (x : (⟨4, ![a, b, c, d]⟩ : Shape).Idx → EReal) : Fin a → Fin b → Fin c → Fin d → EReal :=
  fun i j k l => x (ix4 i j k l)

/-- The whole result: scores of image `n` at row `n`. -/
def G (x : (⟨4, ![4096, 3, 32, 32]⟩ : Shape).Idx → EReal) (t1 : (⟨4, ![5, 3, 32, 168]⟩ : Shape).Idx → EReal)
    (b1 : (⟨2, ![1, 168]⟩ : Shape).Idx → EReal) (t2 : (⟨3, ![5, 162, 160]⟩ : Shape).Idx → EReal)
    (b2 : (⟨2, ![1, 160]⟩ : Shape).Idx → EReal) (f1 : (⟨3, ![5, 144, 120]⟩ : Shape).Idx → EReal)
    (bf1 : (⟨2, ![1, 120]⟩ : Shape).Idx → EReal) (w2 : (⟨2, ![120, 84]⟩ : Shape).Idx → EReal)
    (bf2 : (⟨2, ![1, 84]⟩ : Shape).Idx → EReal) (w3 : (⟨2, ![84, 10]⟩ : Shape).Idx → EReal)
    (b3 : (⟨2, ![1, 10]⟩ : Shape).Idx → EReal) : (⟨2, ![4096, 10]⟩ : Shape).Idx → EReal :=
  fun i => net (ten4 x (i 0)) (ten4 t1) (rowv b1) (ten3 t2) (rowv b2) (ten3 f1) (rowv bf1) (mat w2) (rowv bf2)
    (mat w3) (rowv b3) (i 1)

end Cert.Net

end
-- ==== Proof.KernelPayA.lean ====
/-
  The idealized kernel's payloads read at an index. Every one is stated over the payload's own operands, which
  are arbitrary arrays of the printed shapes: rows are numbered (row within the image) × 512 + (image within the
  block), so that a kernel-row tap is a window of whole 512-row bands and a row-pair maximum pairs two bands.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.KernelIdeal Cert.KernelIdeal.Gen

namespace Cert.KernelIdeal.Pay

/-! ## The staging slab -/

/-- The staging slab: block [32, 512, 96] laid out as rows (input row × 512 + image). -/
theorem pay2_apply (v0 : Vec Ideal S32x512x96 .bf16) (ih : Fin 32) (b : Fin 512) (q : Fin 96) :
    k0_pay2 (F := Ideal) v0 (ix2 (⟨ih.val * 512 + b.val, by omega⟩ : Fin 16384) q) = v0 (ix3 ih b q) := by
  unfold k0_pay2
  show shapeCast S16384x96 (shapeCast S16384x96 (shapeCast S32x512x96 v0 shapeCasts_S32x512x96_S32x512x96)
    shapeCasts_S32x512x96_S16384x96) shapeCasts_S16384x96_S16384x96 _ = _
  rw [shapeCast_self, shapeCast_self]
  -- both positions are ((ih · 512 + b) · 96 + q)
  exact shapeCast_apply v0 _ _ (ix3 ih b q) (by
    rw [Shape.rowMajor_val_three, Shape.rowMajor_val_two]
    show (ih.val * 512 + b.val) * 96 + q.val = (ih.val * 512 + b.val) * 96 + q.val
    rfl)

/-! ## The product: operand indices of the [14336, 480] × [480, 168] contraction -/

private theorem lhs_ax0 (i : S14336x168.Idx) (k : dot_S14336x480_S480x168_S14336x168_1_0_0_1_n_n.contr.Idx) :
    (dot_S14336x480_S480x168_S14336x168_1_0_0_1_n_n.lhsIdx i k 0).val = (i 0).val := by
  unfold DotDims.lhsIdx
  rw [dif_neg (show ¬(0 : Fin S14336x480.rank) ∈ dot_S14336x480_S480x168_S14336x168_1_0_0_1_n_n.lhsBatch by decide),
    dif_pos (show (0 : Fin S14336x480.rank) ∈ dot_S14336x480_S480x168_S14336x168_1_0_0_1_n_n.lhsNonContracting by decide)]
  rfl

private theorem lhs_ax1 (i : S14336x168.Idx) (k : dot_S14336x480_S480x168_S14336x168_1_0_0_1_n_n.contr.Idx) :
    (dot_S14336x480_S480x168_S14336x168_1_0_0_1_n_n.lhsIdx i k 1).val = (k ⟨0, by decide⟩).val :=
  dot_S14336x480_S480x168_S14336x168_1_0_0_1_n_n.lhsIdx_val_of_single rfl i k

private theorem rhs_ax0 (i : S14336x168.Idx) (k : dot_S14336x480_S480x168_S14336x168_1_0_0_1_n_n.contr.Idx) :
    (dot_S14336x480_S480x168_S14336x168_1_0_0_1_n_n.rhsIdx i k 0).val = (k ⟨0, by decide⟩).val :=
  dot_S14336x480_S480x168_S14336x168_1_0_0_1_n_n.rhsIdx_val_of_single rfl i k

private theorem rhs_ax1 (i : S14336x168.Idx) (k : dot_S14336x480_S480x168_S14336x168_1_0_0_1_n_n.contr.Idx) :
    (dot_S14336x480_S480x168_S14336x168_1_0_0_1_n_n.rhsIdx i k 1).val = (i 1).val := by
  unfold DotDims.rhsIdx
  rw [dif_neg (show ¬(1 : Fin S480x168.rank) ∈ dot_S14336x480_S480x168_S14336x168_1_0_0_1_n_n.rhsBatch by decide),
    dif_pos (show (1 : Fin S480x168.rank) ∈ dot_S14336x480_S480x168_S14336x168_1_0_0_1_n_n.rhsNonContracting by decide)]
  rfl

/-- The product into zeros at (row r, lane l): the sum over the 480 contraction positions. -/
private theorem mm_apply (A : FVec Ideal S14336x480 .bf16) (W : FVec Ideal S480x168 .bf16) (r : Fin 14336) (l' : Fin 168) :
    matmul dot_S14336x480_S480x168_S14336x168_1_0_0_1_n_n none A W (constant S14336x168 .f32 0x00000000#32) (ix2 r l')
      = ∑ k : Fin 480, A (ix2 r k) * W (ix2 k l') := by
  show FloatOps.matmul dot_S14336x480_S480x168_S14336x168_1_0_0_1_n_n none A W (constant S14336x168 .f32 0x00000000#32) (ix2 r l') = _
  rw [Ideal.matmul_constant_zero_apply, ← Equiv.sum_comp (contrEquiv1 dot_S14336x480_S480x168_S14336x168_1_0_0_1_n_n 480 rfl rfl).symm]
  refine Finset.sum_congr rfl fun k _ => ?_
  have hk := contrEquiv1_symm_val dot_S14336x480_S480x168_S14336x168_1_0_0_1_n_n 480 rfl rfl k
  have el : dot_S14336x480_S480x168_S14336x168_1_0_0_1_n_n.lhsIdx (ix2 r l') ((contrEquiv1 dot_S14336x480_S480x168_S14336x168_1_0_0_1_n_n 480 rfl rfl).symm k) = ix2 r k :=
    funext fun a => Fin.ext (by
      match a with
      | ⟨0, _⟩ => exact lhs_ax0 _ _
      | ⟨1, _⟩ => exact (lhs_ax1 _ _).trans hk)
  have er : dot_S14336x480_S480x168_S14336x168_1_0_0_1_n_n.rhsIdx (ix2 r l') ((contrEquiv1 dot_S14336x480_S480x168_S14336x168_1_0_0_1_n_n 480 rfl rfl).symm k) = ix2 k l' :=
    funext fun a => Fin.ext (by
      match a with
      | ⟨0, _⟩ => exact (rhs_ax0 _ _).trans hk
      | ⟨1, _⟩ => exact rhs_ax1 _ _)
  rw [el, er]

/-! ## The five taps side by side -/

/-- The five taps side by side along the lanes. -/
private def cat (v6 v7 v8 v9 v10 : Vec Ideal S14336x96 .bf16) : FVec Ideal S14336x480 .bf16 :=
  concatenate S14336x480 1 [⟨S14336x96, v6⟩, ⟨S14336x96, v7⟩, ⟨S14336x96, v8⟩, ⟨S14336x96, v9⟩, ⟨S14336x96, v10⟩] concatenates_S14336x96_S14336x96_S14336x96_S14336x96_S14336x96_S14336x480_d1

/-- Lane kh · 96 + q of the concatenation is lane q of tap kh. -/
private theorem cat_apply (v6 v7 v8 v9 v10 : Vec Ideal S14336x96 .bf16) (r : Fin 14336) (kh : Fin 5) (q : Fin 96) :
    cat v6 v7 v8 v9 v10 (ix2 r (⟨kh.val * 96 + q.val, by omega⟩ : Fin 480))
      = (![v6, v7, v8, v9, v10] : Fin 5 → Vec Ideal S14336x96 .bf16) kh (ix2 r q) := by
  unfold cat
  match kh with
  | ⟨0, _⟩ =>
    show _ = v6 (ix2 r q)
    refine concatenate_apply_piece (t := S14336x480) 1 _ _ _ 0 ?_ S14336x96 v6 ?_ rfl 0 ?_ (ix2 r q) ?_ ?_
    · show 0 < 5
      omega
    · rfl
    · rfl
    · intro b hb
      match b with
      | ⟨0, _⟩ => rfl
      | ⟨1, _⟩ => exact absurd rfl hb
    · show 0 + q.val = 0 * 96 + q.val
      omega
  | ⟨1, _⟩ =>
    show _ = v7 (ix2 r q)
    refine concatenate_apply_piece (t := S14336x480) 1 _ _ _ 1 ?_ S14336x96 v7 ?_ rfl 96 ?_ (ix2 r q) ?_ ?_
    · show 1 < 5
      omega
    · rfl
    · rfl
    · intro b hb
      match b with
      | ⟨0, _⟩ => rfl
      | ⟨1, _⟩ => exact absurd rfl hb
    · show 96 + q.val = 1 * 96 + q.val
      omega
  | ⟨2, _⟩ =>
    show _ = v8 (ix2 r q)
    refine concatenate_apply_piece (t := S14336x480) 1 _ _ _ 2 ?_ S14336x96 v8 ?_ rfl 192 ?_ (ix2 r q) ?_ ?_
    · show 2 < 5
      omega
    · rfl
    · rfl
    · intro b hb
      match b with
      | ⟨0, _⟩ => rfl
      | ⟨1, _⟩ => exact absurd rfl hb
    · show 192 + q.val = 2 * 96 + q.val
      omega
  | ⟨3, _⟩ =>
    show _ = v9 (ix2 r q)
    refine concatenate_apply_piece (t := S14336x480) 1 _ _ _ 3 ?_ S14336x96 v9 ?_ rfl 288 ?_ (ix2 r q) ?_ ?_
    · show 3 < 5
      omega
    · rfl
    · rfl
    · intro b hb
      match b with
      | ⟨0, _⟩ => rfl
      | ⟨1, _⟩ => exact absurd rfl hb
    · show 288 + q.val = 3 * 96 + q.val
      omega
  | ⟨4, _⟩ =>
    show _ = v10 (ix2 r q)
    refine concatenate_apply_piece (t := S14336x480) 1 _ _ _ 4 ?_ S14336x96 v10 ?_ rfl 384 ?_ (ix2 r q) ?_ ?_
    · show 4 < 5
      omega
    · rfl
    · rfl
    · intro b hb
      match b with
      | ⟨0, _⟩ => rfl
      | ⟨1, _⟩ => exact absurd rfl hb
    · show 384 + q.val = 4 * 96 + q.val
      omega

/-- A sum over the 480 contraction positions is the double sum over (kernel row, lane of the tap). -/
private theorem sum_480 (f : Fin 480 → EReal) :
    ∑ k : Fin 480, f k = ∑ kh : Fin 5, ∑ q : Fin 96, f (⟨kh.val * 96 + q.val, by omega⟩ : Fin 480) :=
  Net.sum_flat_of 5 96 f _ (fun kh q => congrArg f (Fin.ext (by
    rw [Net.flat_val]
    show q.val + 96 * kh.val = kh.val * 96 + q.val
    omega)))

/-! ## The rectified product plus bias -/

/-- The rows before pooling: product, bias, rectifier (the change of format is the identity on extended reals). -/
private def pre (v6 v7 v8 v9 v10 : Vec Ideal S14336x96 .bf16) (v12 : Vec Ideal S480x168 .bf16) (v15 : Vec Ideal S1x168 .f32) :
    FVec Ideal S14336x168 .bf16 :=
  truncf .bf16
    (maximumf
      (addf
        (matmul dot_S14336x480_S480x168_S14336x168_1_0_0_1_n_n none
          (cat v6 v7 v8 v9 v10)
          (shapeCast S480x168 v12 shapeCasts_S480x168_S480x168 : FVec Ideal S480x168 .bf16)
          (constant S14336x168 .f32 0x00000000#32))
        (broadcastTo S14336x168 v15 broadcasts_S1x168_S14336x168))
      (broadcast S14336x168 (Scalar.ofBits (F := Ideal) .f32 0x00000000#32)))
    bitsLt_bf16_f32

private theorem pre_apply (v6 v7 v8 v9 v10 : Vec Ideal S14336x96 .bf16) (v12 : Vec Ideal S480x168 .bf16) (v15 : Vec Ideal S1x168 .f32)
    (r : Fin 14336) (l' : Fin 168) :
    pre v6 v7 v8 v9 v10 v12 v15 (ix2 r l')
      = Net.relu ((∑ kh : Fin 5, ∑ q : Fin 96,
            ((![v6, v7, v8, v9, v10] : Fin 5 → Vec Ideal S14336x96 .bf16) kh (ix2 r q) : EReal)
              * v12 (ix2 (⟨kh.val * 96 + q.val, by omega⟩ : Fin 480) l')) + v15 (ix2 (0 : Fin 1) l')) := by
  have hz : (Scalar.ofBits (F := Ideal) .f32 0x00000000#32 : Ideal .f32) = 0 := Ideal.ofBits_zero_f32
  unfold pre
  rw [truncf_apply, maximumf_apply, addf_apply, broadcast_apply, mm_apply, shapeCast_self, hz,
    broadcastTo_apply v15 broadcasts_S1x168_S14336x168 (ix2 r l') (ix2 (0 : Fin 1) l')
      (fun a => match a with | ⟨0, _⟩ => rfl | ⟨1, _⟩ => rfl),
    sum_480]
  unfold Net.relu
  congr 2
  exact Finset.sum_congr rfl fun kh _ => Finset.sum_congr rfl fun q _ => by rw [cat_apply]

/-! ## The two pooling steps -/

/-- Lane-pair maximum: lane l against lane l + 6. -/
private def lp (c : FVec Ideal S14336x168 .bf16) : FVec Ideal S14336x162 .bf16 :=
  maximumf (extractStridedSlice S14336x162 ![0, 0] c slices_S14336x168_o0_0_S14336x162)
    (extractStridedSlice S14336x162 ![0, 6] c slices_S14336x168_o0_6_S14336x162)

private theorem lp_apply (c : FVec Ideal S14336x168 .bf16) (r : Fin 14336) (l : Fin 162) :
    lp c (ix2 r l) = max (c (ix2 r (⟨l.val, by omega⟩ : Fin 168))) (c (ix2 r (⟨l.val + 6, by omega⟩ : Fin 168))) := by
  unfold lp
  rw [maximumf_apply,
    extractStridedSlice_apply ![0, 0] c slices_S14336x168_o0_0_S14336x162 (ix2 r l) (ix2 r (⟨l.val, by omega⟩ : Fin 168))
      (fun a => match a with
        | ⟨0, _⟩ => by show r.val = 0 + r.val; omega
        | ⟨1, _⟩ => by show l.val = 0 + l.val; omega),
    extractStridedSlice_apply ![0, 6] c slices_S14336x168_o0_6_S14336x162 (ix2 r l) (ix2 r (⟨l.val + 6, by omega⟩ : Fin 168))
      (fun a => match a with
        | ⟨0, _⟩ => by show r.val = 0 + r.val; omega
        | ⟨1, _⟩ => by show l.val + 6 = 6 + l.val; omega)]

/-- Row-pair maximum: rows are (row of the image) · 512 + image, so band 2 p against band 2 p + 1. -/
private def rp (d : FVec Ideal S14336x162 .bf16) : FVec Ideal S7168x162 .bf16 :=
  shapeCast S7168x162
    (shapeCast S7168x162
      (maximumf
        (extractStridedSlice S14x512x162 ![0, 0, 0] (shapeCast S14x1024x162 d shapeCasts_S14336x162_S14x1024x162)
          slices_S14x1024x162_o0_0_0_S14x512x162)
        (extractStridedSlice S14x512x162 ![0, 512, 0] (shapeCast S14x1024x162 d shapeCasts_S14336x162_S14x1024x162)
          slices_S14x1024x162_o0_512_0_S14x512x162))
      shapeCasts_S14x512x162_S7168x162)
    shapeCasts_S7168x162_S7168x162

private theorem rp_apply (d : FVec Ideal S14336x162 .bf16) (ph : Fin 14) (b : Fin 512) (l : Fin 162) :
    rp d (ix2 (⟨ph.val * 512 + b.val, by omega⟩ : Fin 7168) l)
      = max (d (ix2 (⟨2 * ph.val * 512 + b.val, by omega⟩ : Fin 14336) l))
          (d (ix2 (⟨(2 * ph.val + 1) * 512 + b.val, by omega⟩ : Fin 14336) l)) := by
  unfold rp
  rw [shapeCast_self]
  -- [7168, 162] at (ph · 512 + b, l) is [14, 512, 162] at (ph, b, l)
  refine (shapeCast_apply _ _ _ (ix3 ph b l) (by
    rw [Shape.rowMajor_val_three, Shape.rowMajor_val_two]
    show (ph.val * 512 + b.val) * 162 + l.val = (ph.val * 512 + b.val) * 162 + l.val
    rfl)).trans ?_
  rw [maximumf_apply]
  -- the two halves of the 1024-row band ph: rows ph · 1024 + b and ph · 1024 + 512 + b
  have e0 : extractStridedSlice S14x512x162 ![0, 0, 0] (shapeCast S14x1024x162 d shapeCasts_S14336x162_S14x1024x162)
        slices_S14x1024x162_o0_0_0_S14x512x162 (ix3 ph b l)
      = d (ix2 (⟨2 * ph.val * 512 + b.val, by omega⟩ : Fin 14336) l) := by
    refine (extractStridedSlice_apply _ _ _ _ (ix3 ph (⟨b.val, by omega⟩ : Fin 1024) l) (fun a => match a with
      | ⟨0, _⟩ => by show ph.val = 0 + ph.val; omega
      | ⟨1, _⟩ => by show b.val = 0 + b.val; omega
      | ⟨2, _⟩ => by show l.val = 0 + l.val; omega)).trans ?_
    exact shapeCast_apply _ _ _ _ (by
      rw [Shape.rowMajor_val_two, Shape.rowMajor_val_three]
      show (2 * ph.val * 512 + b.val) * 162 + l.val = (ph.val * 1024 + b.val) * 162 + l.val
      omega)
  have e1 : extractStridedSlice S14x512x162 ![0, 512, 0] (shapeCast S14x1024x162 d shapeCasts_S14336x162_S14x1024x162)
        slices_S14x1024x162_o0_512_0_S14x512x162 (ix3 ph b l)
      = d (ix2 (⟨(2 * ph.val + 1) * 512 + b.val, by omega⟩ : Fin 14336) l) := by
    refine (extractStridedSlice_apply _ _ _ _ (ix3 ph (⟨b.val + 512, by omega⟩ : Fin 1024) l) (fun a => match a with
      | ⟨0, _⟩ => by show ph.val = 0 + ph.val; omega
      | ⟨1, _⟩ => by show b.val + 512 = 512 + b.val; omega
      | ⟨2, _⟩ => by show l.val = 0 + l.val; omega)).trans ?_
    exact shapeCast_apply _ _ _ _ (by
      rw [Shape.rowMajor_val_two, Shape.rowMajor_val_three]
      show ((2 * ph.val + 1) * 512 + b.val) * 162 + l.val = (ph.val * 1024 + (b.val + 512)) * 162 + l.val
      omega)
  rw [e0, e1]

/-- The payload is the two pooling steps on the rectified rows. -/
private theorem pay3_eq (v6 v7 v8 v9 v10 : Vec Ideal S14336x96 .bf16) (v12 : Vec Ideal S480x168 .bf16) (v15 : Vec Ideal S1x168 .f32) :
    k0_pay3 (F := Ideal) v6 v7 v8 v9 v10 v12 v15 = rp (lp (pre v6 v7 v8 v9 v10 v12 v15)) := rfl

/-- First convolution, rectifier and 2×2 pooling on the slab: pooled row `ph` of image `b`, lane `l`. The
    contraction index is (kernel row × 96 + lane of the tap). -/
theorem pay3_apply (v6 v7 v8 v9 v10 : Vec Ideal S14336x96 .bf16) (v12 : Vec Ideal S480x168 .bf16) (v15 : Vec Ideal S1x168 .f32)
    (ph : Fin 14) (b : Fin 512) (l : Fin 162) :
    k0_pay3 (F := Ideal) v6 v7 v8 v9 v10 v12 v15 (ix2 (⟨ph.val * 512 + b.val, by omega⟩ : Fin 7168) l)
      = Net.pool1 (fun oh l' => Net.relu ((∑ kh : Fin 5, ∑ q : Fin 96,
            ((![v6, v7, v8, v9, v10] : Fin 5 → Vec Ideal S14336x96 .bf16) kh (ix2 (⟨oh.val * 512 + b.val, by omega⟩ : Fin 14336) q) : EReal)
              * v12 (ix2 (⟨kh.val * 96 + q.val, by omega⟩ : Fin 480) l')) + v15 (ix2 (0 : Fin 1) l'))) ph l := by
  rw [pay3_eq, rp_apply, lp_apply, lp_apply, pre_apply, pre_apply, pre_apply, pre_apply]
  rfl

end Cert.KernelIdeal.Pay

end
-- ==== Proof.KernelPayB.lean ====
/-
  The idealized kernel's later payloads read at an index (second convolution to the scores). Every one is stated over the payload's own operands, which
  are arbitrary arrays of the printed shapes: rows are numbered (row within the image) × 512 + (image within the
  block), so that a kernel-row tap is a window of whole 512-row bands and a row-pair maximum pairs two bands.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.KernelIdeal Cert.KernelIdeal.Gen

namespace Cert.KernelIdeal.Pay

/-! ### A plain matrix product into zeros, a dense layer and a rectifier, read at an index -/

/-- A rows × depth by depth × columns product accumulated into zeros, read at row `p` and column `q`: the sum over
    the contracted coordinate of the operands' products. The contraction's index set has one axis of extent `K`;
    the sum is carried to `Fin K` along that identification, and each operand index is named coordinate by
    coordinate. -/
private theorem plain_zero_apply (M K N : ℕ) {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, (x (ix2 p k) : EReal) * (w (ix2 k q) : EReal) := by
  show FloatOps.matmul _ _ _ _ _ _ = _
  rw [Ideal.matmul_constant_zero_apply, ← Equiv.sum_comp (contrEquiv1 (DotDims.plain M K N) K rfl rfl).symm]
  refine Finset.sum_congr rfl fun k _ => ?_
  show (x _ : EReal) * (w _ : EReal) = _
  congr 2
  · exact Shape.idx_ext₂ rfl (contrEquiv1_symm_val (DotDims.plain M K N) K rfl rfl k)
  · exact Shape.idx_ext₂ (contrEquiv1_symm_val (DotDims.plain M K N) K rfl rfl k) rfl

/-- A dense layer as the kernel writes it — the product into zeros of `x` with the weights (recast to their own
    shape), plus the bias row broadcast over the rows — read at row `p` and unit `q`. -/
private theorem dense_apply {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (hw : (⟨2, ![K, N]⟩ : Shape).ShapeCasts ⟨2, ![K, N]⟩) (bias : FVec Ideal ⟨2, ![1, N]⟩ .f32)
    (hb : (⟨2, ![1, N]⟩ : Shape).Broadcasts ⟨2, ![M, N]⟩) (p : Fin M) (q : Fin N) :
    addf (matmul d none x (shapeCast ⟨2, ![K, N]⟩ w hw) (constant (F := Ideal) ⟨2, ![M, N]⟩ .f32 0x00000000#32))
        (broadcastTo ⟨2, ![M, N]⟩ bias hb) (ix2 p q)
      = (∑ k : Fin K, (x (ix2 p k) : EReal) * (w (ix2 k q) : EReal)) + (bias (ix2 (0 : Fin 1) q) : EReal) := by
  subst hd
  rw [shapeCast_self, addf_apply, plain_zero_apply, broadcastTo_1b_ab_apply]

/-- The maximum with the zero splat, narrowed: the rectifier at each element. -/
private theorem relu_apply {s : Shape} (y : FVec Ideal s .f32) (i : s.Idx) :
    truncf .bf16 (maximumf y (broadcast s (Scalar.ofBits (F := Ideal) .f32 0x00000000#32))) bitsLt_bf16_f32 i
      = Net.relu (y i) := by
  show max (y i) (Ideal.ofBits .f32 0x00000000#32) = max (y i) 0
  rw [Ideal.ofBits_zero_f32]

/-! ### The second convolution: five taps side by side against the stacked weights -/

/-- The five taps laid side by side along the lanes, read at lane `kh · 162 + q`: tap `kh` at lane `q`. -/
private theorem taps_apply (v32 v33 v34 v35 v36 : Vec Ideal S5120x162 .bf16) (R : Fin 5120) (kh : Fin 5) (q : Fin 162) :
    concatenate S5120x810 1 [⟨S5120x162, v32⟩, ⟨S5120x162, v33⟩, ⟨S5120x162, v34⟩, ⟨S5120x162, v35⟩, ⟨S5120x162, v36⟩]
        concatenates_S5120x162_S5120x162_S5120x162_S5120x162_S5120x162_S5120x810_d1
        (ix2 R (⟨kh.val * 162 + q.val, by omega⟩ : Fin 810))
      = (![v32, v33, v34, v35, v36] : Fin 5 → Vec Ideal S5120x162 .bf16) kh (ix2 R q) :=
  concatenate_ofFn_apply (t := S5120x810) (s₁ := S5120x162) 1 ![v32, v33, v34, v35, v36]
    concatenates_S5120x162_S5120x162_S5120x162_S5120x162_S5120x162_S5120x810_d1 rfl 162 rfl _ kh
    (by show (kh.val * 162 + q.val) / 162 = kh.val; omega) (ix2 R q)
    (by show q.val = (kh.val * 162 + q.val) % 162; omega)
    (fun a ha => by
      match a with
      | ⟨0, _⟩ => rfl
      | ⟨1, _⟩ => exact absurd rfl ha)

/-- The second convolution's rectified rows, as the kernel writes them. -/
private def conv2v (v32 v33 v34 v35 v36 : Vec Ideal S5120x162 .bf16) (v38 : Vec Ideal S810x160 .bf16)
    (v41 : Vec Ideal S1x160 .f32) : FVec Ideal S5120x160 .bf16 :=
  truncf .bf16 (maximumf (addf (matmul dot_S5120x810_S810x160_S5120x160_1_0_0_1_n_n none
        (concatenate S5120x810 1 [⟨S5120x162, v32⟩, ⟨S5120x162, v33⟩, ⟨S5120x162, v34⟩, ⟨S5120x162, v35⟩, ⟨S5120x162, v36⟩]
          concatenates_S5120x162_S5120x162_S5120x162_S5120x162_S5120x162_S5120x810_d1 : FVec Ideal S5120x810 .bf16)
        (shapeCast S810x160 v38 shapeCasts_S810x160_S810x160 : FVec Ideal S810x160 .bf16) (constant S5120x160 .f32 0x00000000#32))
      (broadcastTo S5120x160 v41 broadcasts_S1x160_S5120x160))
    (broadcast S5120x160 (Scalar.ofBits .f32 0x00000000#32))) bitsLt_bf16_f32

/-- Row `R`, lane `l'` of the second convolution: the contraction over the 810 stacked lanes regrouped as kernel
    row × pooled lane, plus the bias, rectified. -/
private theorem conv2v_apply (v32 v33 v34 v35 v36 : Vec Ideal S5120x162 .bf16) (v38 : Vec Ideal S810x160 .bf16)
    (v41 : Vec Ideal S1x160 .f32) (R : Fin 5120) (l' : Fin 160) :
    conv2v v32 v33 v34 v35 v36 v38 v41 (ix2 R l')
      = Net.relu ((∑ kh : Fin 5, ∑ q : Fin 162,
            ((![v32, v33, v34, v35, v36] : Fin 5 → Vec Ideal S5120x162 .bf16) kh (ix2 R q) : EReal)
              * v38 (ix2 (⟨kh.val * 162 + q.val, by omega⟩ : Fin 810) l')) + v41 (ix2 (0 : Fin 1) l')) := by
  unfold conv2v
  rw [relu_apply, dense_apply dot_S5120x810_S810x160_S5120x160_1_0_0_1_n_n rfl]
  congr 2
  refine Cert.Net.sum_flat_of 5 162 _ _ fun kh q => ?_
  have e : (Cert.Net.flat kh q : Fin 810) = ⟨kh.val * 162 + q.val, by omega⟩ :=
    Fin.ext (by show (Cert.Net.flat kh q).val = kh.val * 162 + q.val; rw [Cert.Net.flat_val]; omega)
  rw [e, taps_apply]

/-! ### The pooling: lane pairs, then row pairs -/

/-- The lane-pair maximum: lanes `l` and `l + 16`. -/
private def lanev (x : FVec Ideal S5120x160 .bf16) : FVec Ideal S5120x144 .bf16 :=
  maximumf (extractStridedSlice S5120x144 ![0, 0] x slices_S5120x160_o0_0_S5120x144)
    (extractStridedSlice S5120x144 ![0, 16] x slices_S5120x160_o0_16_S5120x144)

private theorem lanev_apply (x : FVec Ideal S5120x160 .bf16) (R : Fin 5120) (l : Fin 144) :
    lanev x (ix2 R l)
      = max (x (ix2 R (⟨l.val, by omega⟩ : Fin 160))) (x (ix2 R (⟨l.val + 16, by omega⟩ : Fin 160))) := by
  unfold lanev
  rw [maximumf_apply, slice2_axis1_apply 0 x _ R l ⟨l.val, by omega⟩ (Nat.zero_add _).symm,
    slice2_axis1_apply 16 x _ R l ⟨l.val + 16, by omega⟩ (Nat.add_comm _ _)]

/-- The rows regrouped as five bands of 1024: band `r`, row `m` is row `r · 1024 + m`. -/
private theorem bands_apply (w : FVec Ideal S5120x144 .bf16) (r : Fin 5) (m : Fin 1024) (l : Fin 144) (R : Fin 5120)
    (hR : R.val = r.val * 1024 + m.val) :
    shapeCast S5x1024x144 w shapeCasts_S5120x144_S5x1024x144 (ix3 r m l) = w (ix2 R l) :=
  shapeCast_apply w _ _ _ (by
    rw [Shape.rowMajor_val_two, Shape.rowMajor_val_three]
    show R.val * 144 + l.val = (r.val * 1024 + m.val) * 144 + l.val
    rw [hR])

/-- The row-pair maximum: within band `r`, the two half-bands of 512 rows — convolution rows `2 r` and `2 r + 1`. -/
private def rowv (w : FVec Ideal S5120x144 .bf16) : FVec Ideal S5x512x144 .bf16 :=
  maximumf
    (extractStridedSlice S5x512x144 ![0, 0, 0] (shapeCast S5x1024x144 w shapeCasts_S5120x144_S5x1024x144)
      slices_S5x1024x144_o0_0_0_S5x512x144)
    (extractStridedSlice S5x512x144 ![0, 512, 0] (shapeCast S5x1024x144 w shapeCasts_S5120x144_S5x1024x144)
      slices_S5x1024x144_o0_512_0_S5x512x144)

private theorem rowv_apply (w : FVec Ideal S5120x144 .bf16) (r : Fin 5) (n : Fin 512) (l : Fin 144) :
    rowv w (ix3 r n l)
      = max (w (ix2 (⟨(2 * r.val) * 512 + n.val, by omega⟩ : Fin 5120) l))
          (w (ix2 (⟨(2 * r.val + 1) * 512 + n.val, by omega⟩ : Fin 5120) l)) := by
  unfold rowv
  rw [maximumf_apply, slice3_axis1_apply 0 (shapeCast S5x1024x144 w shapeCasts_S5120x144_S5x1024x144) _ r n l ⟨n.val, by omega⟩ (Nat.zero_add _).symm,
    slice3_axis1_apply 512 (shapeCast S5x1024x144 w shapeCasts_S5120x144_S5x1024x144) _ r n l ⟨n.val + 512, by omega⟩ (Nat.add_comm _ _),
    bands_apply w r ⟨n.val, by omega⟩ l ⟨(2 * r.val) * 512 + n.val, by omega⟩ (by show (2 * r.val) * 512 + n.val = r.val * 1024 + n.val; omega),
    bands_apply w r ⟨n.val + 512, by omega⟩ l ⟨(2 * r.val + 1) * 512 + n.val, by omega⟩
      (by show (2 * r.val + 1) * 512 + n.val = r.val * 1024 + (n.val + 512); omega)]

/-! ### The five pooled rows side by side -/

/-- Pooled row `r₀` taken out as a [512, 144] array. -/
private def piece (y : FVec Ideal S5x512x144 .bf16) (r₀ : ℕ) (hs : S5x512x144.Slices ![r₀, 0, 0] S1x512x144) :
    FVec Ideal S512x144 .bf16 :=
  shapeCast S512x144 (extractStridedSlice S1x512x144 ![r₀, 0, 0] y hs) shapeCasts_S1x512x144_S512x144

private theorem piece_apply (y : FVec Ideal S5x512x144 .bf16) (r₀ : ℕ) (hr₀ : r₀ < 5)
    (hs : S5x512x144.Slices ![r₀, 0, 0] S1x512x144) (n : Fin 512) (l : Fin 144) :
    piece y r₀ hs (ix2 n l) = y (ix3 (⟨r₀, hr₀⟩ : Fin 5) n l) :=
  (shapeCast_1ab_ab_apply _ _ n l).trans (extractStridedSlice_apply _ _ _ _ _ fun ax => by
    match ax with
    | ⟨0, _⟩ => exact (Nat.add_zero _).symm
    | ⟨1, _⟩ => exact (Nat.zero_add _).symm
    | ⟨2, _⟩ => exact (Nat.zero_add _).symm)

/-- The five pooled rows laid side by side along the lanes. -/
private def catv (y : FVec Ideal S5x512x144 .bf16) : FVec Ideal S512x720 .bf16 :=
  concatenate S512x720 1
    [⟨S512x144, piece y 0 slices_S5x512x144_o0_0_0_S1x512x144⟩, ⟨S512x144, piece y 1 slices_S5x512x144_o1_0_0_S1x512x144⟩,
      ⟨S512x144, piece y 2 slices_S5x512x144_o2_0_0_S1x512x144⟩, ⟨S512x144, piece y 3 slices_S5x512x144_o3_0_0_S1x512x144⟩,
      ⟨S512x144, piece y 4 slices_S5x512x144_o4_0_0_S1x512x144⟩]
    concatenates_S512x144_S512x144_S512x144_S512x144_S512x144_S512x720_d1

/-- Read at lane `r · 144 + l`: pooled row `r` at lane `l`. -/
private theorem catv_apply (y : FVec Ideal S5x512x144 .bf16) (n : Fin 512) (r : Fin 5) (l : Fin 144) :
    catv y (ix2 n (⟨r.val * 144 + l.val, by omega⟩ : Fin 720)) = y (ix3 r n l) := by
  unfold catv
  refine (concatenate_ofFn_apply (t := S512x720) (s₁ := S512x144) 1
    ![piece y 0 slices_S5x512x144_o0_0_0_S1x512x144, piece y 1 slices_S5x512x144_o1_0_0_S1x512x144,
      piece y 2 slices_S5x512x144_o2_0_0_S1x512x144, piece y 3 slices_S5x512x144_o3_0_0_S1x512x144,
      piece y 4 slices_S5x512x144_o4_0_0_S1x512x144]
    concatenates_S512x144_S512x144_S512x144_S512x144_S512x144_S512x720_d1 rfl 144 rfl _ r
    (by show (r.val * 144 + l.val) / 144 = r.val; omega) (ix2 n l)
    (by show l.val = (r.val * 144 + l.val) % 144; omega)
    (fun a ha => by
      match a with
      | ⟨0, _⟩ => rfl
      | ⟨1, _⟩ => exact absurd rfl ha)).trans ?_
  match r with
  | ⟨0, _⟩ => exact piece_apply y 0 (by omega) slices_S5x512x144_o0_0_0_S1x512x144 n l
  | ⟨1, _⟩ => exact piece_apply y 1 (by omega) slices_S5x512x144_o1_0_0_S1x512x144 n l
  | ⟨2, _⟩ => exact piece_apply y 2 (by omega) slices_S5x512x144_o2_0_0_S1x512x144 n l
  | ⟨3, _⟩ => exact piece_apply y 3 (by omega) slices_S5x512x144_o3_0_0_S1x512x144 n l
  | ⟨4, _⟩ => exact piece_apply y 4 (by omega) slices_S5x512x144_o4_0_0_S1x512x144 n l

/-- The payload is the first dense layer over the pooled, laid-out second convolution. -/
private theorem k0_pay4_eq (v32 v33 v34 v35 v36 : Vec Ideal S5120x162 .bf16) (v38 : Vec Ideal S810x160 .bf16)
    (v41 : Vec Ideal S1x160 .f32) (v65 : Vec Ideal S720x120 .bf16) (v68 : Vec Ideal S1x120 .f32) :
    k0_pay4 (F := Ideal) v32 v33 v34 v35 v36 v38 v41 v65 v68
      = addf (matmul dot_S512x720_S720x120_S512x120_1_0_0_1_n_n none
            (catv (rowv (lanev (conv2v v32 v33 v34 v35 v36 v38 v41))))
            (shapeCast S720x120 v65 shapeCasts_S720x120_S720x120 : FVec Ideal S720x120 .bf16) (constant S512x120 .f32 0x00000000#32))
          (broadcastTo S512x120 v68 broadcasts_S1x120_S512x120) := rfl

/-- Second convolution, rectifier, pooling and the first dense layer's product and bias (before its rectifier):
    image `b`, unit `j`. -/
theorem pay4_apply (v32 v33 v34 v35 v36 : Vec Ideal S5120x162 .bf16) (v38 : Vec Ideal S810x160 .bf16) (v41 : Vec Ideal S1x160 .f32)
    (v65 : Vec Ideal S720x120 .bf16) (v68 : Vec Ideal S1x120 .f32) (b : Fin 512) (j : Fin 120) :
    k0_pay4 (F := Ideal) v32 v33 v34 v35 v36 v38 v41 v65 v68 (ix2 b j)
      = (∑ r : Fin 5, ∑ l : Fin 144,
          Net.pool2 (fun oh l' => Net.relu ((∑ kh : Fin 5, ∑ q : Fin 162,
              ((![v32, v33, v34, v35, v36] : Fin 5 → Vec Ideal S5120x162 .bf16) kh (ix2 (⟨oh.val * 512 + b.val, by omega⟩ : Fin 5120) q) : EReal)
                * v38 (ix2 (⟨kh.val * 162 + q.val, by omega⟩ : Fin 810) l')) + v41 (ix2 (0 : Fin 1) l'))) r l
            * v65 (ix2 (⟨r.val * 144 + l.val, by omega⟩ : Fin 720) j))
        + v68 (ix2 (0 : Fin 1) j) := by
  rw [k0_pay4_eq, dense_apply dot_S512x720_S720x120_S512x120_1_0_0_1_n_n rfl]
  congr 1
  refine Cert.Net.sum_flat_of 5 144 _ _ fun r l => ?_
  have e : (Cert.Net.flat r l : Fin 720) = ⟨r.val * 144 + l.val, by omega⟩ :=
    Fin.ext (by show (Cert.Net.flat r l).val = r.val * 144 + l.val; rw [Cert.Net.flat_val]; omega)
  rw [e]
  congr 1
  rw [catv_apply, rowv_apply, lanev_apply, lanev_apply, conv2v_apply, conv2v_apply, conv2v_apply, conv2v_apply]
  rfl

/-- The zero the first dense layer is rectified against. -/
theorem pay5_apply (i : S512x120.Idx) : k0_pay5 (F := Ideal) i = 0 := by
  show Ideal.ofBits .f32 0x00000000#32 = 0
  exact Ideal.ofBits_zero_f32

/-- The first dense layer's rectifier and the last two dense layers: image `b`, score `j`. -/
theorem pay1_apply (v70 v71 : FVec Ideal S512x120 .f32) (v74 : Vec Ideal S120x84 .bf16) (v77 : Vec Ideal S1x84 .f32)
    (v83 : Vec Ideal S84x10 .bf16) (v86 : Vec Ideal S1x10 .f32) (b : Fin 512) (j : Fin 10) :
    k0_pay1 (F := Ideal) v70 v71 v74 v77 v83 v86 (ix2 b j)
      = Net.dense (fun k => Net.relu (Net.dense (fun k' => max (v70 (ix2 b k')) (v71 (ix2 b k')))
            (fun k' j' => (v74 (ix2 k' j') : EReal)) (fun j' => (v77 (ix2 (0 : Fin 1) j') : EReal)) k))
          (fun k j' => (v83 (ix2 k j') : EReal)) (fun j' => (v86 (ix2 (0 : Fin 1) j') : EReal)) j := by
  refine (dense_apply _ rfl _ v83 _ v86 _ b j).trans ?_
  unfold Net.dense
  congr 1
  refine Finset.sum_congr rfl fun k _ => ?_
  congr 1
  rw [relu_apply, dense_apply dot_S512x120_S120x84_S512x84_1_0_0_1_n_n rfl]
  rfl

end Cert.KernelIdeal.Pay

end
-- ==== Proof.KernelBody.lean ====
/-
  What one grid point of the idealized kernel leaves in its result block [512, 10]: row b holds the network's ten
  scores on image b of the block. The two scratch slabs are written whole and read back through windows of whole
  512-row bands, so each read-back is a window of rows of the payload just stored; composing the payloads gives
  the network with the image, the Toeplitz weights and the dense weights read through the kernel's own layouts.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Whole
import proofs.«125908_g2000603131124687_pallasbulk_7_34_alg».proof.Proof.KernelPayA
import proofs.«125908_g2000603131124687_pallasbulk_7_34_alg».proof.Proof.KernelPayB
import proofs.«125908_g2000603131124687_pallasbulk_7_34_alg».proof.Proof.Gen.KernelIdeal.Frame
import Idealize.ShloMosaic.Lib.Pipeline.RowLoads
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.KernelIdeal Cert.KernelIdeal.Gen Cert.KernelIdeal.Pay

namespace Cert.KernelIdeal.Body

theorem hz2 : (![0, 0] : Fin 2 → Nat) = fun _ => 0 := funext fun a => by fin_cases a <;> rfl
theorem hz3 : (![0, 0, 0] : Fin 3 → Nat) = fun _ => 0 := funext fun a => by fin_cases a <;> rfl

/-- Image `b` of a staged block [32 rows, 512 images, 3 × 32 lanes] as channel × row × column. -/
def Xk (x0 : Vec Ideal S32x512x96 .bf16) (b : Fin 512) : Fin 3 → Fin 32 → Fin 32 → EReal :=
  fun ci ih w => x0 (ix3 ih b (⟨ci.val * 32 + w.val, by omega⟩ : Fin 96))

/-- The first Toeplitz tensor flattened to [5 × 3 × 32, 168]. -/
def T1k (x1 : Vec Ideal S480x168 .bf16) : Fin 5 → Fin 3 → Fin 32 → Fin 168 → EReal :=
  fun kh ci w l => x1 (ix2 (⟨kh.val * 96 + ci.val * 32 + w.val, by omega⟩ : Fin 480) l)

/-- The second Toeplitz tensor flattened to [5 × 162, 160]. -/
def T2k (x3 : Vec Ideal S810x160 .bf16) : Fin 5 → Fin 162 → Fin 160 → EReal :=
  fun kh q l => x3 (ix2 (⟨kh.val * 162 + q.val, by omega⟩ : Fin 810) l)

/-- The first dense tensor flattened to [5 × 144, 120]. -/
def F1k (x5 : Vec Ideal S720x120 .bf16) : Fin 5 → Fin 144 → Fin 120 → EReal :=
  fun r l j => x5 (ix2 (⟨r.val * 144 + l.val, by omega⟩ : Fin 720) j)

section Rows

variable {sig' : RefSig} {κ : Kind} {sp : Space} {e : EltTy} {F : FTy → Type} [FloatOps F] {m n : Nat}

/-- A buffer whose last store was one whole payload, read through a window of `k` rows from row `o`: those
    rows of the payload. -/
theorem readCov_whole_rows {k : Nat} (v : View sig' κ sp (⟨2, ![m, n]⟩ : Shape) e) (P : (⟨2, ![m, n]⟩ : Shape).Idx → Elt F e)
    (inbP : ∀ a, (![0, 0] : Fin 2 → Nat) a + (⟨2, ![m, n]⟩ : Shape).size a ≤ (⟨2, ![m, n]⟩ : Shape).size a)
    (o : Nat)
    (inb : ∀ a, (![o, 0] : Fin 2 → Nat) a + (⟨2, ![k, n]⟩ : Shape).size a ≤ (⟨2, ![m, n]⟩ : Shape).size a) :
    v.readCov [(⟨Rect.unit (s := (⟨2, ![m, n]⟩ : Shape)) ![0, 0] (⟨2, ![m, n]⟩ : Shape).size inbP, P⟩ : View.Piece (Elt F) (⟨2, ![m, n]⟩ : Shape) e)]
        (Rect.unit (s := (⟨2, ![m, n]⟩ : Shape)) ![o, 0] (⟨2, ![k, n]⟩ : Shape).size inb).toLoadRect
      = RowLoads.rowsFrom k P o (inb 0) := by
  rw [View.readCov_eq_canon', View.canon_unit_zero hz2]
  funext j
  unfold RowLoads.rowsFrom
  refine congrArg P ?_
  funext a; apply Fin.ext
  fin_cases a
  · show o + 1 * (j 0).val = o + (j 0).val; omega
  · show 0 + 1 * (j 1).val = (j 1).val; omega

end Rows

section Term

variable {F : FTy → Type} [FloatOps F]

/-- The first slab's rows `o … o + 14335`: one kernel-row tap of the first convolution. -/
def tapA (x0 : Vec F S32x512x96 .bf16) (o : Nat) (h : o + 14336 ≤ 16384) : Vec F S14336x96 .bf16 :=
  RowLoads.rowsFrom 14336 (k0_pay2 x0) o h

/-- The second slab: first convolution, rectifier and pooling of the five taps. -/
def slab1 (x0 : Vec F S32x512x96 .bf16) (x1 : Vec F S480x168 .bf16) (x2 : Vec F S1x168 .f32) : FVec F S7168x162 .bf16 :=
  k0_pay3 (tapA x0 0 (by omega)) (tapA x0 512 (by omega)) (tapA x0 1024 (by omega)) (tapA x0 1536 (by omega))
    (tapA x0 2048 (by omega)) x1 x2

/-- The second slab's rows `o … o + 5119`: one kernel-row tap of the second convolution. -/
def tapB (x0 : Vec F S32x512x96 .bf16) (x1 : Vec F S480x168 .bf16) (x2 : Vec F S1x168 .f32) (o : Nat) (h : o + 5120 ≤ 7168) : Vec F S5120x162 .bf16 :=
  RowLoads.rowsFrom 5120 (slab1 x0 x1 x2) o h

/-- One grid point's result block as a closed term of its eleven staged blocks. -/
def blockTerm (x0 : Vec F S32x512x96 .bf16) (x1 : Vec F S480x168 .bf16) (x2 : Vec F S1x168 .f32) (x3 : Vec F S810x160 .bf16) (x4 : Vec F S1x160 .f32) (x5 : Vec F S720x120 .bf16) (x6 : Vec F S1x120 .f32) (x7 : Vec F S120x84 .bf16) (x8 : Vec F S1x84 .f32) (x9 : Vec F S84x10 .bf16) (x10 : Vec F S1x10 .f32) : FVec F S512x10 .f32 :=
  k0_pay1 (k0_pay4 (tapB x0 x1 x2 0 (by omega)) (tapB x0 x1 x2 512 (by omega)) (tapB x0 x1 x2 1024 (by omega))
      (tapB x0 x1 x2 1536 (by omega)) (tapB x0 x1 x2 2048 (by omega)) x3 x4 x5 x6) k0_pay5 x7 x8 x9 x10

/-- What the body's stores leave in the result buffer is that term: the loads of the staged blocks read the
    blocks, and each read-back of a scratch slab is a row window of the payload stored whole just before. -/
theorem out_eq_blockTerm (c : Dev nD) (i : grid0.Coords) (arg1 : Memref sig .tc .vmem S32x512x96 .bf16) (harg1 : arg1.IsWhole) (arg2 : Memref sig .tc .vmem S480x168 .bf16) (harg2 : arg2.IsWhole) (arg3 : Memref sig .tc .vmem S1x168 .f32) (harg3 : arg3.IsWhole) (arg4 : Memref sig .tc .vmem S810x160 .bf16) (harg4 : arg4.IsWhole) (arg5 : Memref sig .tc .vmem S1x160 .f32) (harg5 : arg5.IsWhole) (arg6 : Memref sig .tc .vmem S720x120 .bf16) (harg6 : arg6.IsWhole) (arg7 : Memref sig .tc .vmem S1x120 .f32) (harg7 : arg7.IsWhole) (arg8 : Memref sig .tc .vmem S120x84 .bf16) (harg8 : arg8.IsWhole) (arg9 : Memref sig .tc .vmem S1x84 .f32) (harg9 : arg9.IsWhole) (arg10 : Memref sig .tc .vmem S84x10 .bf16) (harg10 : arg10.IsWhole) (arg11 : Memref sig .tc .vmem S1x10 .f32) (harg11 : arg11.IsWhole) (arg12 : Memref sig .tc .vmem S512x10 .f32) (harg12 : arg12.IsWhole) (arg13 : Memref sig .tc .vmem S16384x96 .bf16) (harg13 : arg13.IsWhole) (arg14 : Memref sig .tc .vmem S7168x162 .bf16) (harg14 : arg14.IsWhole)
    (x0 : Vec F S32x512x96 .bf16) (x1 : Vec F S480x168 .bf16) (x2 : Vec F S1x168 .f32) (x3 : Vec F S810x160 .bf16) (x4 : Vec F S1x160 .f32) (x5 : Vec F S720x120 .bf16) (x6 : Vec F S1x120 .f32) (x7 : Vec F S120x84 .bf16) (x8 : Vec F S1x84 .f32) (x9 : Vec F S84x10 .bf16) (x10 : Vec F S1x10 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = blockTerm x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg9.read_unread,
    harg10.read_unread, harg11.read_unread,
    View.ld_unit_zero (S := S32x512x96) hz3, View.ld_unit_zero (S := S480x168) hz2, View.ld_unit_zero (S := S1x168) hz2,
    View.ld_unit_zero (S := S810x160) hz2, View.ld_unit_zero (S := S1x160) hz2, View.ld_unit_zero (S := S720x120) hz2,
    View.ld_unit_zero (S := S1x120) hz2, View.ld_unit_zero (S := S120x84) hz2, View.ld_unit_zero (S := S1x84) hz2,
    View.ld_unit_zero (S := S84x10) hz2, View.ld_unit_zero (S := S1x10) hz2]
  rw [readCov_whole_rows arg13.view _ _ 0 inb_S16384x96_S14336x96_0_0,
    readCov_whole_rows arg13.view _ _ 512 inb_S16384x96_S14336x96_512_0,
    readCov_whole_rows arg13.view _ _ 1024 inb_S16384x96_S14336x96_1024_0,
    readCov_whole_rows arg13.view _ _ 1536 inb_S16384x96_S14336x96_1536_0,
    readCov_whole_rows arg13.view _ _ 2048 inb_S16384x96_S14336x96_2048_0,
    readCov_whole_rows arg14.view _ _ 0 inb_S7168x162_S5120x162_0_0,
    readCov_whole_rows arg14.view _ _ 512 inb_S7168x162_S5120x162_512_0,
    readCov_whole_rows arg14.view _ _ 1024 inb_S7168x162_S5120x162_1024_0,
    readCov_whole_rows arg14.view _ _ 1536 inb_S7168x162_S5120x162_1536_0,
    readCov_whole_rows arg14.view _ _ 2048 inb_S7168x162_S5120x162_2048_0]
  rfl

end Term

/-! ## The term at an index -/

section Value

variable (x0 : Vec Ideal S32x512x96 .bf16) (x1 : Vec Ideal S480x168 .bf16) (x2 : Vec Ideal S1x168 .f32)

/-- A tap of the first slab at (row oh of image b, lane q) is the staged block at input row oh + kh. -/
theorem tapA_apply (kh : Fin 5) (h : kh.val * 512 + 14336 ≤ 16384) (oh : Fin 28) (b : Fin 512) (q : Fin 96) :
    tapA x0 (kh.val * 512) h (ix2 (⟨oh.val * 512 + b.val, by omega⟩ : Fin 14336) q)
      = x0 (ix3 (⟨oh.val + kh.val, by omega⟩ : Fin 32) b q) := by
  unfold tapA RowLoads.rowsFrom
  refine Eq.trans (congrArg (k0_pay2 (F := Ideal) x0) ?_) (pay2_apply x0 (⟨oh.val + kh.val, by omega⟩ : Fin 32) b q)
  funext a; apply Fin.ext
  fin_cases a
  · show kh.val * 512 + (oh.val * 512 + b.val) = (oh.val + kh.val) * 512 + b.val; omega
  · rfl

/-- The five taps, as the kernel lists them, are the windows at kernel row × 512. -/
theorem tapsA_eq (kh : Fin 5) :
    (![tapA x0 0 (by omega), tapA x0 512 (by omega), tapA x0 1024 (by omega), tapA x0 1536 (by omega),
        tapA x0 2048 (by omega)] : Fin 5 → Vec Ideal S14336x96 .bf16) kh
      = tapA x0 (kh.val * 512) (by have := kh.isLt; omega) := by
  fin_cases kh <;> rfl

theorem tapsA_apply (kh : Fin 5) (oh : Fin 28) (b : Fin 512) (q : Fin 96) :
    ((![tapA x0 0 (by omega), tapA x0 512 (by omega), tapA x0 1024 (by omega), tapA x0 1536 (by omega),
        tapA x0 2048 (by omega)] : Fin 5 → Vec Ideal S14336x96 .bf16) kh
      (ix2 (⟨oh.val * 512 + b.val, by omega⟩ : Fin 14336) q) : EReal)
      = x0 (ix3 (⟨oh.val + kh.val, by omega⟩ : Fin 32) b q) := by
  rw [tapsA_eq]
  exact tapA_apply x0 kh _ oh b q

/-- The first convolution as the kernel contracts it (kernel row outer, the 96 = 3 × 32 tap lanes inner) is the
    network's (channel, kernel row, column): the lane splits as channel × 32 + column and the two outer sums
    commute. -/
theorem conv1_eq (b : Fin 512) :
    (fun (oh : Fin 28) (l' : Fin 168) => Net.relu ((∑ kh : Fin 5, ∑ q : Fin 96,
        ((![tapA x0 0 (by omega), tapA x0 512 (by omega), tapA x0 1024 (by omega), tapA x0 1536 (by omega),
            tapA x0 2048 (by omega)] : Fin 5 → Vec Ideal S14336x96 .bf16) kh
          (ix2 (⟨oh.val * 512 + b.val, by omega⟩ : Fin 14336) q) : EReal)
          * x1 (ix2 (⟨kh.val * 96 + q.val, by omega⟩ : Fin 480) l')) + x2 (ix2 (0 : Fin 1) l')))
      = Net.conv1 (Xk x0 b) (T1k x1) (Net.rowv x2) := by
  funext oh l'
  unfold Net.conv1
  refine congrArg (fun s => Net.relu (s + x2 (ix2 (0 : Fin 1) l'))) ?_
  refine Eq.trans (Finset.sum_congr rfl fun kh _ =>
    Net.sum_flat_of 3 32 _ (fun ci w => Xk x0 b ci (⟨oh.val + kh.val, by omega⟩ : Fin 32) w * T1k x1 kh ci w l')
      (fun ci w => ?_)) Finset.sum_comm
  rw [tapsA_apply]
  unfold Xk T1k
  have hf : (Net.flat ci w : Fin (3 * 32)).val = w.val + 32 * ci.val := Net.flat_val ci w
  have e1 : (Net.flat ci w : Fin (3 * 32)) = (⟨ci.val * 32 + w.val, by omega⟩ : Fin 96) :=
    Fin.ext (by show (Net.flat ci w : Fin (3 * 32)).val = ci.val * 32 + w.val; omega)
  have e2 : (⟨kh.val * 96 + (Net.flat ci w : Fin (3 * 32)).val, by omega⟩ : Fin 480)
      = (⟨kh.val * 96 + ci.val * 32 + w.val, by omega⟩ : Fin 480) :=
    Fin.ext (by show kh.val * 96 + (Net.flat ci w : Fin (3 * 32)).val = kh.val * 96 + ci.val * 32 + w.val; omega)
  exact congrArg₂ (· * ·)
    (congrArg (fun z => (x0 (ix3 (⟨oh.val + kh.val, by omega⟩ : Fin 32) b z) : EReal)) e1)
    (congrArg (fun z => (x1 (ix2 z l') : EReal)) e2)

/-- The second slab at (pooled row ph of image b, lane l) is the first pooling of the first convolution. -/
theorem slab1_apply (ph : Fin 14) (b : Fin 512) (l : Fin 162) :
    (slab1 x0 x1 x2 (ix2 (⟨ph.val * 512 + b.val, by omega⟩ : Fin 7168) l) : EReal)
      = Net.pool1 (Net.conv1 (Xk x0 b) (T1k x1) (Net.rowv x2)) ph l := by
  unfold slab1
  refine (pay3_apply _ _ _ _ _ x1 x2 ph b l).trans ?_
  exact congrArg (fun C => Net.pool1 C ph l) (conv1_eq x0 x1 x2 b)

/-- A tap of the second slab at (row oh of image b, lane q) is the pooled row oh + kh. -/
theorem tapB_apply (kh : Fin 5) (h : kh.val * 512 + 5120 ≤ 7168) (oh : Fin 10) (b : Fin 512) (q : Fin 162) :
    (tapB x0 x1 x2 (kh.val * 512) h (ix2 (⟨oh.val * 512 + b.val, by omega⟩ : Fin 5120) q) : EReal)
      = Net.pool1 (Net.conv1 (Xk x0 b) (T1k x1) (Net.rowv x2)) (⟨oh.val + kh.val, by omega⟩ : Fin 14) q := by
  unfold tapB RowLoads.rowsFrom
  refine Eq.trans (congrArg (slab1 x0 x1 x2) ?_) (slab1_apply x0 x1 x2 (⟨oh.val + kh.val, by omega⟩ : Fin 14) b q)
  funext a; apply Fin.ext
  fin_cases a
  · show kh.val * 512 + (oh.val * 512 + b.val) = (oh.val + kh.val) * 512 + b.val; omega
  · rfl

theorem tapsB_eq (kh : Fin 5) :
    (![tapB x0 x1 x2 0 (by omega), tapB x0 x1 x2 512 (by omega), tapB x0 x1 x2 1024 (by omega),
        tapB x0 x1 x2 1536 (by omega), tapB x0 x1 x2 2048 (by omega)] : Fin 5 → Vec Ideal S5120x162 .bf16) kh
      = tapB x0 x1 x2 (kh.val * 512) (by have := kh.isLt; omega) := by
  fin_cases kh <;> rfl

theorem tapsB_apply (kh : Fin 5) (oh : Fin 10) (b : Fin 512) (q : Fin 162) :
    ((![tapB x0 x1 x2 0 (by omega), tapB x0 x1 x2 512 (by omega), tapB x0 x1 x2 1024 (by omega),
        tapB x0 x1 x2 1536 (by omega), tapB x0 x1 x2 2048 (by omega)] : Fin 5 → Vec Ideal S5120x162 .bf16) kh
      (ix2 (⟨oh.val * 512 + b.val, by omega⟩ : Fin 5120) q) : EReal)
      = Net.pool1 (Net.conv1 (Xk x0 b) (T1k x1) (Net.rowv x2)) (⟨oh.val + kh.val, by omega⟩ : Fin 14) q := by
  rw [tapsB_eq]
  exact tapB_apply x0 x1 x2 kh _ oh b q

/-- The second convolution as the kernel contracts it is the network's: the flattened weight row is
    (kernel row × 162 + lane). -/
theorem conv2_eq (x3 : Vec Ideal S810x160 .bf16) (x4 : Vec Ideal S1x160 .f32) (b : Fin 512) :
    (fun (oh : Fin 10) (l' : Fin 160) => Net.relu ((∑ kh : Fin 5, ∑ q : Fin 162,
        ((![tapB x0 x1 x2 0 (by omega), tapB x0 x1 x2 512 (by omega), tapB x0 x1 x2 1024 (by omega),
            tapB x0 x1 x2 1536 (by omega), tapB x0 x1 x2 2048 (by omega)] : Fin 5 → Vec Ideal S5120x162 .bf16) kh
          (ix2 (⟨oh.val * 512 + b.val, by omega⟩ : Fin 5120) q) : EReal)
          * x3 (ix2 (⟨kh.val * 162 + q.val, by omega⟩ : Fin 810) l')) + x4 (ix2 (0 : Fin 1) l')))
      = Net.conv2 (Net.pool1 (Net.conv1 (Xk x0 b) (T1k x1) (Net.rowv x2))) (T2k x3) (Net.rowv x4) := by
  funext oh l'
  unfold Net.conv2
  refine congrArg (fun s => Net.relu (s + x4 (ix2 (0 : Fin 1) l'))) ?_
  refine Finset.sum_congr rfl fun kh _ => Finset.sum_congr rfl fun q _ => ?_
  rw [tapsB_apply]
  rfl

end Value

/-- One grid point's result block, row `b`, score `j`. -/
theorem block_out (c : Dev nD) (i : grid0.Coords) (arg1 : Memref sig .tc .vmem S32x512x96 .bf16) (harg1 : arg1.IsWhole) (arg2 : Memref sig .tc .vmem S480x168 .bf16) (harg2 : arg2.IsWhole) (arg3 : Memref sig .tc .vmem S1x168 .f32) (harg3 : arg3.IsWhole) (arg4 : Memref sig .tc .vmem S810x160 .bf16) (harg4 : arg4.IsWhole) (arg5 : Memref sig .tc .vmem S1x160 .f32) (harg5 : arg5.IsWhole) (arg6 : Memref sig .tc .vmem S720x120 .bf16) (harg6 : arg6.IsWhole) (arg7 : Memref sig .tc .vmem S1x120 .f32) (harg7 : arg7.IsWhole) (arg8 : Memref sig .tc .vmem S120x84 .bf16) (harg8 : arg8.IsWhole) (arg9 : Memref sig .tc .vmem S1x84 .f32) (harg9 : arg9.IsWhole) (arg10 : Memref sig .tc .vmem S84x10 .bf16) (harg10 : arg10.IsWhole) (arg11 : Memref sig .tc .vmem S1x10 .f32) (harg11 : arg11.IsWhole) (arg12 : Memref sig .tc .vmem S512x10 .f32) (harg12 : arg12.IsWhole) (arg13 : Memref sig .tc .vmem S16384x96 .bf16) (harg13 : arg13.IsWhole) (arg14 : Memref sig .tc .vmem S7168x162 .bf16) (harg14 : arg14.IsWhole)
    (x0 : Vec Ideal S32x512x96 .bf16) (x1 : Vec Ideal S480x168 .bf16) (x2 : Vec Ideal S1x168 .f32) (x3 : Vec Ideal S810x160 .bf16) (x4 : Vec Ideal S1x160 .f32) (x5 : Vec Ideal S720x120 .bf16) (x6 : Vec Ideal S1x120 .f32) (x7 : Vec Ideal S120x84 .bf16) (x8 : Vec Ideal S1x84 .f32) (x9 : Vec Ideal S84x10 .bf16) (x10 : Vec Ideal S1x10 .f32) (b : Fin 512) (j : Fin 10) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix2 b j)
      = Net.net (Xk x0 b) (T1k x1) (Net.rowv x2) (T2k x3) (Net.rowv x4) (F1k x5) (Net.rowv x6) (Net.mat x7)
          (Net.rowv x8) (Net.mat x9) (Net.rowv x10) j := by
  rw [out_eq_blockTerm]
  unfold blockTerm
  rw [pay1_apply]
  unfold Net.net
  refine congrArg (fun A => Net.dense (fun k => Net.relu (Net.dense A (Net.mat x7) (Net.rowv x8) k)) (Net.mat x9) (Net.rowv x10) j) ?_
  funext k'
  rw [pay4_apply, pay5_apply]
  exact congrArg (fun C => Net.fc1 (Net.pool2 C) (F1k x5) (Net.rowv x6) k') (conv2_eq x0 x1 x2 x3 x4 b)

end Cert.KernelIdeal.Body

end
-- ==== Proof.KernelArray.lean ====
/-
  The idealized kernel's run with its result array named: every grid point t writes rows 512 t … 512 t + 511 of
  the [4096, 10] result, and those eight blocks tile it; the staged blocks are windows of the arrays the host
  operations before the call leave (a transpose and a flattening of the images, flattenings of the weight
  tensors, changes of float format that are the identity on extended reals).
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Whole
import proofs.«125908_g2000603131124687_pallasbulk_7_34_alg».proof.Proof.KernelBody
import proofs.«125908_g2000603131124687_pallasbulk_7_34_alg».proof.Proof.Gen.KernelIdeal.Value
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.KernelIdeal Cert.KernelIdeal.Gen Idealize.SL.Sem
open Idealize.ShloMosaic.Pipeline (Dat)

namespace Cert.KernelIdeal.Arr

variable (m : (ℓ : Loc nD τ sig) → Buf (Elt Ideal) ℓ) (ρ : Dev nD → PrngReg)

/-! ## The grid and the printed index maps -/

/-- The grid has eight points. -/
theorem N_eq : cfg0.N = 8 := N_0

/-- The image window sits at block (0, t, 0) at point `t`. -/
theorem idx_img : ∀ t : Fin cfg0.N, win0_0.index t (0 : Fin 3) = 0 ∧ win0_0.index t (1 : Fin 3) = t.val
    ∧ win0_0.index t (2 : Fin 3) = 0 :=
  (by decide +kernel : ∀ t : Fin grid0.N, _)

/-- The result window sits at block (t, 0) at point `t`. -/
theorem idx_out : ∀ t : Fin cfg0.N, win0_11.index t (0 : Fin 2) = t.val ∧ win0_11.index t (1 : Fin 2) = 0 :=
  (by decide +kernel : ∀ t : Fin grid0.N, _)

/-- Window 1 sits at block (0, 0) at every point. -/
theorem idx_w1 : ∀ t : Fin cfg0.N, win0_1.index t (0 : Fin 2) = 0 ∧ win0_1.index t (1 : Fin 2) = 0 :=
  (by decide +kernel : ∀ t : Fin grid0.N, _)
/-- Window 2 sits at block (0, 0) at every point. -/
theorem idx_w2 : ∀ t : Fin cfg0.N, win0_2.index t (0 : Fin 2) = 0 ∧ win0_2.index t (1 : Fin 2) = 0 :=
  (by decide +kernel : ∀ t : Fin grid0.N, _)
/-- Window 3 sits at block (0, 0) at every point. -/
theorem idx_w3 : ∀ t : Fin cfg0.N, win0_3.index t (0 : Fin 2) = 0 ∧ win0_3.index t (1 : Fin 2) = 0 :=
  (by decide +kernel : ∀ t : Fin grid0.N, _)
/-- Window 4 sits at block (0, 0) at every point. -/
theorem idx_w4 : ∀ t : Fin cfg0.N, win0_4.index t (0 : Fin 2) = 0 ∧ win0_4.index t (1 : Fin 2) = 0 :=
  (by decide +kernel : ∀ t : Fin grid0.N, _)
/-- Window 5 sits at block (0, 0) at every point. -/
theorem idx_w5 : ∀ t : Fin cfg0.N, win0_5.index t (0 : Fin 2) = 0 ∧ win0_5.index t (1 : Fin 2) = 0 :=
  (by decide +kernel : ∀ t : Fin grid0.N, _)
/-- Window 6 sits at block (0, 0) at every point. -/
theorem idx_w6 : ∀ t : Fin cfg0.N, win0_6.index t (0 : Fin 2) = 0 ∧ win0_6.index t (1 : Fin 2) = 0 :=
  (by decide +kernel : ∀ t : Fin grid0.N, _)
/-- Window 7 sits at block (0, 0) at every point. -/
theorem idx_w7 : ∀ t : Fin cfg0.N, win0_7.index t (0 : Fin 2) = 0 ∧ win0_7.index t (1 : Fin 2) = 0 :=
  (by decide +kernel : ∀ t : Fin grid0.N, _)
/-- Window 8 sits at block (0, 0) at every point. -/
theorem idx_w8 : ∀ t : Fin cfg0.N, win0_8.index t (0 : Fin 2) = 0 ∧ win0_8.index t (1 : Fin 2) = 0 :=
  (by decide +kernel : ∀ t : Fin grid0.N, _)
/-- Window 9 sits at block (0, 0) at every point. -/
theorem idx_w9 : ∀ t : Fin cfg0.N, win0_9.index t (0 : Fin 2) = 0 ∧ win0_9.index t (1 : Fin 2) = 0 :=
  (by decide +kernel : ∀ t : Fin grid0.N, _)
/-- Window 10 sits at block (0, 0) at every point. -/
theorem idx_w10 : ∀ t : Fin cfg0.N, win0_10.index t (0 : Fin 2) = 0 ∧ win0_10.index t (1 : Fin 2) = 0 :=
  (by decide +kernel : ∀ t : Fin grid0.N, _)

/-- The row of the result that point `t` writes at place `b` of its block: row `512 t + b`. -/
abbrev rowOf (t : Fin cfg0.N) (b : Fin 512) : Fin 4096 :=
  ⟨t.val * 512 + b.val, by have hN : cfg0.N = 8 := N_0; have ht := t.isLt; have hb := b.isLt; omega⟩

/-! ## The arrays the call stages, as terms of the arguments -/

/-- The staged image array: the images with the row axis first, then image, then channel and column flattened
    to 96 lanes; the change of float format is the identity on extended reals. -/
theorem V_img (c : Dev nD) :
    (V m c main_v2 : FVec Ideal S32x4096x96 .bf16)
      = truncf (F := Ideal) .bf16 (shapeCast S32x4096x96 (transpose S32x4096x3x32 [2, 0, 1, 3]
          (m ((c : Thread nD τ).loc main_arg0) : FVec Ideal S4096x3x32x32 .f32)
          transposes_S4096x3x32x32_S32x4096x3x32_2_0_1_3) shapeCasts_S32x4096x3x32_S32x4096x96) bitsLt_bf16_f32 := by
  dsimp only [V, hostOps0]; after_results; rfl

/-- The staged first Toeplitz tensor: its three leading axes flattened to 480 rows. -/
theorem V_t1 (c : Dev nD) :
    (V m c main_v4 : FVec Ideal S480x168 .bf16)
      = truncf (F := Ideal) .bf16 (shapeCast S480x168 (m ((c : Thread nD τ).loc main_arg1) : FVec Ideal S5x3x32x168 .f32)
          shapeCasts_S5x3x32x168_S480x168) bitsLt_bf16_f32 := by
  dsimp only [V, hostOps0]; after_results; rfl

/-- The staged second Toeplitz tensor: its two leading axes flattened to 810 rows. -/
theorem V_t2 (c : Dev nD) :
    (V m c main_v6 : FVec Ideal S810x160 .bf16)
      = truncf (F := Ideal) .bf16 (shapeCast S810x160 (m ((c : Thread nD τ).loc main_arg3) : FVec Ideal S5x162x160 .f32)
          shapeCasts_S5x162x160_S810x160) bitsLt_bf16_f32 := by
  dsimp only [V, hostOps0]; after_results; rfl

/-- The staged first dense tensor: its two leading axes flattened to 720 rows. -/
theorem V_f1 (c : Dev nD) :
    (V m c main_v8 : FVec Ideal S720x120 .bf16)
      = truncf (F := Ideal) .bf16 (shapeCast S720x120 (m ((c : Thread nD τ).loc main_arg5) : FVec Ideal S5x144x120 .f32)
          shapeCasts_S5x144x120_S720x120) bitsLt_bf16_f32 := by
  dsimp only [V, hostOps0]; after_results; rfl

/-- The staged second dense matrix is the argument. -/
theorem V_w2 (c : Dev nD) :
    (V m c main_v9 : FVec Ideal S120x84 .bf16) = (m ((c : Thread nD τ).loc main_arg7) : FVec Ideal S120x84 .f32) := by
  dsimp only [V, hostOps0]; after_results; rfl

/-- The staged third dense matrix is the argument. -/
theorem V_w3 (c : Dev nD) :
    (V m c main_v10 : FVec Ideal S84x10 .bf16) = (m ((c : Thread nD τ).loc main_arg9) : FVec Ideal S84x10 .f32) := by
  dsimp only [V, hostOps0]; after_results; rfl

/-! ## The staged arrays read at an index -/

/-- The staged image array at row `ih`, image `n`, lane `32 ci + w` is the image argument at
    (`n`, `ci`, `ih`, `w`). -/
theorem img_apply (x : FVec Ideal S4096x3x32x32 .f32) (ih : Fin 32) (n : Fin 4096) (ci : Fin 3) (w : Fin 32) :
    (truncf (F := Ideal) .bf16 (shapeCast S32x4096x96 (transpose S32x4096x3x32 [2, 0, 1, 3] x
        transposes_S4096x3x32x32_S32x4096x3x32_2_0_1_3) shapeCasts_S32x4096x3x32_S32x4096x96) bitsLt_bf16_f32
        : FVec Ideal S32x4096x96 .bf16) (ix3 ih n (⟨ci.val * 32 + w.val, by omega⟩ : Fin 96))
      = x (ix4 n ci ih w) := by
  rw [truncf_apply]
  refine (shapeCast_apply _ _ _ (ix4 ih n ci w) ?_).trans ?_
  · rw [Shape.rowMajor_val_four, Shape.rowMajor_val_three]
    show ((ih.val * 4096 + n.val) * 3 + ci.val) * 32 + w.val = (ih.val * 4096 + n.val) * 96 + (ci.val * 32 + w.val)
    omega
  · exact transpose_apply _ _ _ (ix4 ih n ci w) (ix4 n ci ih w)
      (fun b => match b with | ⟨0, _⟩ => rfl | ⟨1, _⟩ => rfl | ⟨2, _⟩ => rfl | ⟨3, _⟩ => rfl)

/-- The flattened first Toeplitz tensor at row `96 kh + 32 ci + w` is the argument at (`kh`, `ci`, `w`). -/
theorem t1_apply (x : FVec Ideal S5x3x32x168 .f32) (kh : Fin 5) (ci : Fin 3) (w : Fin 32) (l : Fin 168) :
    (truncf (F := Ideal) .bf16 (shapeCast S480x168 x shapeCasts_S5x3x32x168_S480x168) bitsLt_bf16_f32
        : FVec Ideal S480x168 .bf16) (ix2 (⟨kh.val * 96 + ci.val * 32 + w.val, by omega⟩ : Fin 480) l)
      = x (ix4 kh ci w l) := by
  rw [truncf_apply]
  refine shapeCast_apply _ _ _ (ix4 kh ci w l) ?_
  rw [Shape.rowMajor_val_four, Shape.rowMajor_val_two]
  show ((kh.val * 3 + ci.val) * 32 + w.val) * 168 + l.val = (kh.val * 96 + ci.val * 32 + w.val) * 168 + l.val
  omega

/-- The flattened second Toeplitz tensor at row `162 kh + q` is the argument at (`kh`, `q`). -/
theorem t2_apply (x : FVec Ideal S5x162x160 .f32) (kh : Fin 5) (q : Fin 162) (l : Fin 160) :
    (truncf (F := Ideal) .bf16 (shapeCast S810x160 x shapeCasts_S5x162x160_S810x160) bitsLt_bf16_f32
        : FVec Ideal S810x160 .bf16) (ix2 (⟨kh.val * 162 + q.val, by omega⟩ : Fin 810) l)
      = x (ix3 kh q l) := by
  rw [truncf_apply]
  refine shapeCast_apply _ _ _ (ix3 kh q l) ?_
  rw [Shape.rowMajor_val_three, Shape.rowMajor_val_two]
  show (kh.val * 162 + q.val) * 160 + l.val = (kh.val * 162 + q.val) * 160 + l.val
  rfl

/-- The flattened first dense tensor at row `144 r + l` is the argument at (`r`, `l`). -/
theorem f1_apply (x : FVec Ideal S5x144x120 .f32) (r : Fin 5) (l : Fin 144) (j : Fin 120) :
    (truncf (F := Ideal) .bf16 (shapeCast S720x120 x shapeCasts_S5x144x120_S720x120) bitsLt_bf16_f32
        : FVec Ideal S720x120 .bf16) (ix2 (⟨r.val * 144 + l.val, by omega⟩ : Fin 720) j)
      = x (ix3 r l j) := by
  rw [truncf_apply]
  refine shapeCast_apply _ _ _ (ix3 r l j) ?_
  rw [Shape.rowMajor_val_three, Shape.rowMajor_val_two]
  show (r.val * 144 + l.val) * 120 + j.val = (r.val * 144 + l.val) * 120 + j.val
  rfl

/-! ## The staged blocks as windows of the staged arrays -/

/-- The image block at point `t` is images `512 t … 512 t + 511` of the staged image array. -/
theorem iblk_img (c : Dev nD) (t : Fin cfg0.N) (ih : Fin 32) (b : Fin 512) (q : Fin 96) :
    (iblk m c 0 t : Vec Ideal S32x512x96 .bf16) (ix3 ih b q)
      = (V m c main_v2 : FVec Ideal S32x4096x96 .bf16) (ix3 ih (rowOf t b) q) := by
  obtain ⟨e0, e1, e2⟩ := idx_img t
  unfold iblk
  rw [View.read_apply]
  show V m c main_v2 _ = V m c main_v2 _
  refine congrArg (V m c main_v2) (funext fun a => Fin.ext ?_)
  match a with
  | ⟨0, _⟩ => show win0_0.index t (0 : Fin 3) * 32 + 1 * ih.val = ih.val; omega
  | ⟨1, _⟩ => show win0_0.index t (1 : Fin 3) * 512 + 1 * b.val = t.val * 512 + b.val; omega
  | ⟨2, _⟩ => show win0_0.index t (2 : Fin 3) * 96 + 1 * q.val = q.val; omega

/-- Window 1's block is its whole array at every point. -/
theorem iblk_w1 (c : Dev nD) (t : Fin cfg0.N) :
    (iblk m c 1 t : Vec Ideal S480x168 .bf16) = (V m c main_v4 : Vec Ideal S480x168 .bf16) := by
  obtain ⟨e0, e1⟩ := idx_w1 t
  funext y
  unfold iblk
  rw [View.read_apply]
  show V m c main_v4 _ = V m c main_v4 y
  refine congrArg (V m c main_v4) (funext fun a => Fin.ext ?_)
  match a with
  | ⟨0, _⟩ => show win0_1.index t (0 : Fin 2) * 480 + 1 * (y 0).val = (y 0).val; omega
  | ⟨1, _⟩ => show win0_1.index t (1 : Fin 2) * 168 + 1 * (y 1).val = (y 1).val; omega

/-- Window 2's block is its whole array at every point. -/
theorem iblk_w2 (c : Dev nD) (t : Fin cfg0.N) :
    (iblk m c 2 t : Vec Ideal S1x168 .f32) = (V m c main_arg2 : Vec Ideal S1x168 .f32) := by
  obtain ⟨e0, e1⟩ := idx_w2 t
  funext y
  unfold iblk
  rw [View.read_apply]
  show V m c main_arg2 _ = V m c main_arg2 y
  refine congrArg (V m c main_arg2) (funext fun a => Fin.ext ?_)
  match a with
  | ⟨0, _⟩ => show win0_2.index t (0 : Fin 2) * 1 + 1 * (y 0).val = (y 0).val; omega
  | ⟨1, _⟩ => show win0_2.index t (1 : Fin 2) * 168 + 1 * (y 1).val = (y 1).val; omega

/-- Window 3's block is its whole array at every point. -/
theorem iblk_w3 (c : Dev nD) (t : Fin cfg0.N) :
    (iblk m c 3 t : Vec Ideal S810x160 .bf16) = (V m c main_v6 : Vec Ideal S810x160 .bf16) := by
  obtain ⟨e0, e1⟩ := idx_w3 t
  funext y
  unfold iblk
  rw [View.read_apply]
  show V m c main_v6 _ = V m c main_v6 y
  refine congrArg (V m c main_v6) (funext fun a => Fin.ext ?_)
  match a with
  | ⟨0, _⟩ => show win0_3.index t (0 : Fin 2) * 810 + 1 * (y 0).val = (y 0).val; omega
  | ⟨1, _⟩ => show win0_3.index t (1 : Fin 2) * 160 + 1 * (y 1).val = (y 1).val; omega

/-- Window 4's block is its whole array at every point. -/
theorem iblk_w4 (c : Dev nD) (t : Fin cfg0.N) :
    (iblk m c 4 t : Vec Ideal S1x160 .f32) = (V m c main_arg4 : Vec Ideal S1x160 .f32) := by
  obtain ⟨e0, e1⟩ := idx_w4 t
  funext y
  unfold iblk
  rw [View.read_apply]
  show V m c main_arg4 _ = V m c main_arg4 y
  refine congrArg (V m c main_arg4) (funext fun a => Fin.ext ?_)
  match a with
  | ⟨0, _⟩ => show win0_4.index t (0 : Fin 2) * 1 + 1 * (y 0).val = (y 0).val; omega
  | ⟨1, _⟩ => show win0_4.index t (1 : Fin 2) * 160 + 1 * (y 1).val = (y 1).val; omega

/-- Window 5's block is its whole array at every point. -/
theorem iblk_w5 (c : Dev nD) (t : Fin cfg0.N) :
    (iblk m c 5 t : Vec Ideal S720x120 .bf16) = (V m c main_v8 : Vec Ideal S720x120 .bf16) := by
  obtain ⟨e0, e1⟩ := idx_w5 t
  funext y
  unfold iblk
  rw [View.read_apply]
  show V m c main_v8 _ = V m c main_v8 y
  refine congrArg (V m c main_v8) (funext fun a => Fin.ext ?_)
  match a with
  | ⟨0, _⟩ => show win0_5.index t (0 : Fin 2) * 720 + 1 * (y 0).val = (y 0).val; omega
  | ⟨1, _⟩ => show win0_5.index t (1 : Fin 2) * 120 + 1 * (y 1).val = (y 1).val; omega

/-- Window 6's block is its whole array at every point. -/
theorem iblk_w6 (c : Dev nD) (t : Fin cfg0.N) :
    (iblk m c 6 t : Vec Ideal S1x120 .f32) = (V m c main_arg6 : Vec Ideal S1x120 .f32) := by
  obtain ⟨e0, e1⟩ := idx_w6 t
  funext y
  unfold iblk
  rw [View.read_apply]
  show V m c main_arg6 _ = V m c main_arg6 y
  refine congrArg (V m c main_arg6) (funext fun a => Fin.ext ?_)
  match a with
  | ⟨0, _⟩ => show win0_6.index t (0 : Fin 2) * 1 + 1 * (y 0).val = (y 0).val; omega
  | ⟨1, _⟩ => show win0_6.index t (1 : Fin 2) * 120 + 1 * (y 1).val = (y 1).val; omega

/-- Window 7's block is its whole array at every point. -/
theorem iblk_w7 (c : Dev nD) (t : Fin cfg0.N) :
    (iblk m c 7 t : Vec Ideal S120x84 .bf16) = (V m c main_v9 : Vec Ideal S120x84 .bf16) := by
  obtain ⟨e0, e1⟩ := idx_w7 t
  funext y
  unfold iblk
  rw [View.read_apply]
  show V m c main_v9 _ = V m c main_v9 y
  refine congrArg (V m c main_v9) (funext fun a => Fin.ext ?_)
  match a with
  | ⟨0, _⟩ => show win0_7.index t (0 : Fin 2) * 120 + 1 * (y 0).val = (y 0).val; omega
  | ⟨1, _⟩ => show win0_7.index t (1 : Fin 2) * 84 + 1 * (y 1).val = (y 1).val; omega

/-- Window 8's block is its whole array at every point. -/
theorem iblk_w8 (c : Dev nD) (t : Fin cfg0.N) :
    (iblk m c 8 t : Vec Ideal S1x84 .f32) = (V m c main_arg8 : Vec Ideal S1x84 .f32) := by
  obtain ⟨e0, e1⟩ := idx_w8 t
  funext y
  unfold iblk
  rw [View.read_apply]
  show V m c main_arg8 _ = V m c main_arg8 y
  refine congrArg (V m c main_arg8) (funext fun a => Fin.ext ?_)
  match a with
  | ⟨0, _⟩ => show win0_8.index t (0 : Fin 2) * 1 + 1 * (y 0).val = (y 0).val; omega
  | ⟨1, _⟩ => show win0_8.index t (1 : Fin 2) * 84 + 1 * (y 1).val = (y 1).val; omega

/-- Window 9's block is its whole array at every point. -/
theorem iblk_w9 (c : Dev nD) (t : Fin cfg0.N) :
    (iblk m c 9 t : Vec Ideal S84x10 .bf16) = (V m c main_v10 : Vec Ideal S84x10 .bf16) := by
  obtain ⟨e0, e1⟩ := idx_w9 t
  funext y
  unfold iblk
  rw [View.read_apply]
  show V m c main_v10 _ = V m c main_v10 y
  refine congrArg (V m c main_v10) (funext fun a => Fin.ext ?_)
  match a with
  | ⟨0, _⟩ => show win0_9.index t (0 : Fin 2) * 84 + 1 * (y 0).val = (y 0).val; omega
  | ⟨1, _⟩ => show win0_9.index t (1 : Fin 2) * 10 + 1 * (y 1).val = (y 1).val; omega

/-- Window 10's block is its whole array at every point. -/
theorem iblk_w10 (c : Dev nD) (t : Fin cfg0.N) :
    (iblk m c 10 t : Vec Ideal S1x10 .f32) = (V m c main_arg10 : Vec Ideal S1x10 .f32) := by
  obtain ⟨e0, e1⟩ := idx_w10 t
  funext y
  unfold iblk
  rw [View.read_apply]
  show V m c main_arg10 _ = V m c main_arg10 y
  refine congrArg (V m c main_arg10) (funext fun a => Fin.ext ?_)
  match a with
  | ⟨0, _⟩ => show win0_10.index t (0 : Fin 2) * 1 + 1 * (y 0).val = (y 0).val; omega
  | ⟨1, _⟩ => show win0_10.index t (1 : Fin 2) * 10 + 1 * (y 1).val = (y 1).val; omega

/-! ## What the kernel's layouts read of the staged blocks -/

/-- Image `b` of the block staged at point `t` is image `512 t + b` of the argument. -/
theorem Xk_iblk (c : Dev nD) (t : Fin cfg0.N) (b : Fin 512) :
    Body.Xk (iblk m c 0 t) b = Net.ten4 (m ((c : Thread nD τ).loc main_arg0)) (rowOf t b) := by
  funext ci ih w
  show (iblk m c 0 t : Vec Ideal S32x512x96 .bf16) (ix3 ih b (⟨ci.val * 32 + w.val, by omega⟩ : Fin 96))
    = (m ((c : Thread nD τ).loc main_arg0)) (ix4 (rowOf t b) ci ih w)
  refine (iblk_img m c t ih b _).trans ?_
  exact (congrFun (V_img m c) _).trans (img_apply _ ih (rowOf t b) ci w)

/-- The first Toeplitz tensor as the kernel reads its staged block is the argument. -/
theorem T1k_iblk (c : Dev nD) (t : Fin cfg0.N) :
    Body.T1k (iblk m c 1 t) = Net.ten4 (m ((c : Thread nD τ).loc main_arg1)) := by
  funext kh ci w l
  show (iblk m c 1 t : Vec Ideal S480x168 .bf16) (ix2 (⟨kh.val * 96 + ci.val * 32 + w.val, by omega⟩ : Fin 480) l)
    = (m ((c : Thread nD τ).loc main_arg1)) (ix4 kh ci w l)
  refine (congrFun (iblk_w1 m c t) _).trans ?_
  exact (congrFun (V_t1 m c) _).trans (t1_apply _ kh ci w l)

/-- The second Toeplitz tensor as the kernel reads its staged block is the argument. -/
theorem T2k_iblk (c : Dev nD) (t : Fin cfg0.N) :
    Body.T2k (iblk m c 3 t) = Net.ten3 (m ((c : Thread nD τ).loc main_arg3)) := by
  funext kh q l
  show (iblk m c 3 t : Vec Ideal S810x160 .bf16) (ix2 (⟨kh.val * 162 + q.val, by omega⟩ : Fin 810) l)
    = (m ((c : Thread nD τ).loc main_arg3)) (ix3 kh q l)
  refine (congrFun (iblk_w3 m c t) _).trans ?_
  exact (congrFun (V_t2 m c) _).trans (t2_apply _ kh q l)

/-- The first dense tensor as the kernel reads its staged block is the argument. -/
theorem F1k_iblk (c : Dev nD) (t : Fin cfg0.N) :
    Body.F1k (iblk m c 5 t) = Net.ten3 (m ((c : Thread nD τ).loc main_arg5)) := by
  funext r l j
  show (iblk m c 5 t : Vec Ideal S720x120 .bf16) (ix2 (⟨r.val * 144 + l.val, by omega⟩ : Fin 720) j)
    = (m ((c : Thread nD τ).loc main_arg5)) (ix3 r l j)
  refine (congrFun (iblk_w5 m c t) _).trans ?_
  exact (congrFun (V_f1 m c) _).trans (f1_apply _ r l j)

/-- The second dense matrix staged is the argument. -/
theorem W2_iblk (c : Dev nD) (t : Fin cfg0.N) :
    Net.mat (k := 120) (n := 84) (iblk m c 7 t : Vec Ideal S120x84 .bf16) = Net.mat (m ((c : Thread nD τ).loc main_arg7)) := by
  rw [iblk_w7 m c t]
  exact congrArg (Net.mat (k := 120) (n := 84)) (V_w2 m c)

/-- The third dense matrix staged is the argument. -/
theorem W3_iblk (c : Dev nD) (t : Fin cfg0.N) :
    Net.mat (k := 84) (n := 10) (iblk m c 9 t : Vec Ideal S84x10 .bf16) = Net.mat (m ((c : Thread nD τ).loc main_arg9)) := by
  rw [iblk_w9 m c t]
  exact congrArg (Net.mat (k := 84) (n := 10)) (V_w3 m c)

/-- The bias row staged by window 2 is the argument. -/
theorem B2_iblk (c : Dev nD) (t : Fin cfg0.N) :
    Net.rowv (n := 168) (iblk m c 2 t : Vec Ideal S1x168 .f32) = Net.rowv (m ((c : Thread nD τ).loc main_arg2)) := by
  rw [iblk_w2 m c t]
  exact congrArg (Net.rowv (n := 168)) (V_main_arg2 m c)

/-- The bias row staged by window 4 is the argument. -/
theorem B4_iblk (c : Dev nD) (t : Fin cfg0.N) :
    Net.rowv (n := 160) (iblk m c 4 t : Vec Ideal S1x160 .f32) = Net.rowv (m ((c : Thread nD τ).loc main_arg4)) := by
  rw [iblk_w4 m c t]
  exact congrArg (Net.rowv (n := 160)) (V_main_arg4 m c)

/-- The bias row staged by window 6 is the argument. -/
theorem B6_iblk (c : Dev nD) (t : Fin cfg0.N) :
    Net.rowv (n := 120) (iblk m c 6 t : Vec Ideal S1x120 .f32) = Net.rowv (m ((c : Thread nD τ).loc main_arg6)) := by
  rw [iblk_w6 m c t]
  exact congrArg (Net.rowv (n := 120)) (V_main_arg6 m c)

/-- The bias row staged by window 8 is the argument. -/
theorem B8_iblk (c : Dev nD) (t : Fin cfg0.N) :
    Net.rowv (n := 84) (iblk m c 8 t : Vec Ideal S1x84 .f32) = Net.rowv (m ((c : Thread nD τ).loc main_arg8)) := by
  rw [iblk_w8 m c t]
  exact congrArg (Net.rowv (n := 84)) (V_main_arg8 m c)

/-- The bias row staged by window 10 is the argument. -/
theorem B10_iblk (c : Dev nD) (t : Fin cfg0.N) :
    Net.rowv (n := 10) (iblk m c 10 t : Vec Ideal S1x10 .f32) = Net.rowv (m ((c : Thread nD τ).loc main_arg10)) := by
  rw [iblk_w10 m c t]
  exact congrArg (Net.rowv (n := 10)) (V_main_arg10 m c)

/-! ## What a point writes back, the cover, the final array -/

/-- The whole result of the argument arrays on core `c`. -/
abbrev Gm (c : Dev nD) : S4096x10.Idx → EReal :=
  Net.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Point `t` writes back rows `512 t … 512 t + 511` of the whole result. -/
theorem flushed_eq (c : Dev nD) (t : Fin cfg0.N) :
    (dats m 0 c).flushed 11 t = ((cfg0.win 11).blk t).view.read (Elt Ideal) (Gm m c) := by
  rw [Value.flushed11_A]
  refine funext fun (y : S512x10.Idx) => ?_
  obtain ⟨b, j, rfl⟩ : ∃ (b : Fin 512) (j : Fin 10), y = ix2 b j := ⟨y 0, y 1, eq_ix2 y⟩
  obtain ⟨e0, e1⟩ := idx_out t
  rw [View.read_apply]
  have hemb : ((cfg0.win 11).blk t).view.emb (ix2 b j) = (ix2 (rowOf t b) j : S4096x10.Idx) := by
    funext a; apply Fin.ext
    match a with
    | ⟨0, _⟩ => show win0_11.index t (0 : Fin 2) * 512 + 1 * b.val = t.val * 512 + b.val; omega
    | ⟨1, _⟩ => show win0_11.index t (1 : Fin 2) * 10 + 1 * j.val = j.val; omega
  rw [hemb]
  refine (Body.block_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) b j).trans ?_
  rw [Xk_iblk m c t b, T1k_iblk m c t, B2_iblk m c t, T2k_iblk m c t, B4_iblk m c t, F1k_iblk m c t, B6_iblk m c t,
    W2_iblk m c t, B8_iblk m c t, W3_iblk m c t, B10_iblk m c t]
  rfl

/-- An index of the result array is in point `t`'s block iff each coordinate is in the block's range. -/
theorem mem_blk (t : Fin cfg0.N) (i : S4096x10.Idx) :
    i ∈ ((cfg0.win 11).blk t).view.set ↔ ∀ a : Fin 2, win0_11.index t a * S512x10.size a ≤ (i a).val ∧ (i a).val < win0_11.index t a * S512x10.size a + S512x10.size a := by
  show i ∈ ((View.whole main_v11).slice (win0_11.rect t)).set ↔ _
  rw [View.set_slice_whole, Rect.mem_set_unit]
  exact Iff.rfl

/-- Row `r` of the result is in the block of point `r / 512`: the eight blocks tile the array. -/
theorem cover (i : S4096x10.Idx) :
    ∃ t : Fin cfg0.N, (cfg0.win 11).flush t = true ∧ i ∈ ((cfg0.win 11).blk t).view.set := by
  have hN : cfg0.N = 8 := N_0
  have hi0 : (i 0).val < 4096 := (i 0).isLt
  have hi1 : (i 1).val < 10 := (i 1).isLt
  obtain ⟨t, ht⟩ : ∃ t : Fin cfg0.N, t.val = (i 0).val / 512 := ⟨⟨(i 0).val / 512, by omega⟩, rfl⟩
  obtain ⟨e0, e1⟩ := idx_out t
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 10 ≤ (i 1).val ∧ (i 1).val < win0_11.index t (1 : Fin 2) * 10 + 10; omega

/-- The result array after the run is the whole result of the argument arrays. -/
theorem final (c : Dev nD) : (dats m 0 c).arrAt 11 cfg0.N = Gm m c :=
  (dats m 0 c).arrAt_eq_of_cover 11 (Gm m c) (fun t _ => flushed_eq m c t) cover

/-- The idealized kernel runs, ends with its result array at the network of the argument arrays, and leaves
    the arguments as they were. -/
theorem run : θ_run (defs (F := Ideal)) (onTc (τ := τ) (main (F := Ideal))) ⟨m, fun _ => 0, ρ⟩ fun r => ∀ c : Dev nD,
      r.2.mem ((c : Thread nD τ).loc main_v11) = Net.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run (defs (F := Ideal)) _ _).mono (fun r h c => ⟨(h c).1.trans (final m c), (h c).2⟩) (Value.run_blocks m ρ)

end Cert.KernelIdeal.Arr

end
-- ==== Proof.RefPayHead.lean ====
/-
  The reference's first stage read at an index: fifteen 28×32 by 32×168 products (one per input channel and
  kernel row, each on a window of 28 consecutive rows of the image's 96 = 3 × 32 rows) added up from zero, the
  bias, the rectifier, the lane-pair and the row-pair maxima (27 rows: row r pairs rows r and r + 1), and the
  single rows 0, 2, …, 26 of that array which are stored one by one into the scratch.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.ReferenceIdeal Cert.ReferenceIdeal.Gen

namespace Cert.ReferenceIdeal.Pay

/-- The image of a staged block [1, 3 × 32 rows, 32] as channel × row × column. -/
def Xr (x0 : Vec Ideal S1x96x32 .f32) : Fin 3 → Fin 32 → Fin 32 → EReal :=
  fun ci ih w => x0 (ix3 (0 : Fin 1) (⟨ci.val * 32 + ih.val, by omega⟩ : Fin 96) w)

/-- Fifteen row-window × weight-slice products, bias, rectifier: the first convolution over the taps as given. -/
def conv1Taps (a : Fin 15 → Vec Ideal S1x28x32 .f32) (t : Fin 15 → Vec Ideal S1x1x32x168 .f32) (x2 : Vec Ideal S1x168 .f32)
    (oh : Fin 28) (l : Fin 168) : EReal :=
  Net.relu ((∑ p : Fin 15, ∑ w : Fin 32,
      (a p (ix3 (0 : Fin 1) oh w) : EReal) * t p (ix4 (0 : Fin 1) (0 : Fin 1) w l)) + x2 (ix2 (0 : Fin 1) l))

/-- Left operand, row axis: the output row. -/
private theorem dot_lhs0 (j : S28x168.Idx) (k : dot_S28x32_S32x168_S28x168_1_0_0_1_n_n.contr.Idx) :
    (dot_S28x32_S32x168_S28x168_1_0_0_1_n_n.lhsIdx j k 0).val = (j 0).val := by
  simp [DotDims.lhsIdx, dot_S28x32_S32x168_S28x168_1_0_0_1_n_n]
  rfl

/-- Left operand, column axis: the contracted position. -/
private theorem dot_lhs1 (j : S28x168.Idx) (k : dot_S28x32_S32x168_S28x168_1_0_0_1_n_n.contr.Idx) :
    (dot_S28x32_S32x168_S28x168_1_0_0_1_n_n.lhsIdx j k 1).val = (k ⟨0, by decide⟩).val :=
  DotDims.lhsIdx_val_of_single dot_S28x32_S32x168_S28x168_1_0_0_1_n_n rfl j k

/-- Right operand, row axis: the contracted position. -/
private theorem dot_rhs0 (j : S28x168.Idx) (k : dot_S28x32_S32x168_S28x168_1_0_0_1_n_n.contr.Idx) :
    (dot_S28x32_S32x168_S28x168_1_0_0_1_n_n.rhsIdx j k 0).val = (k ⟨0, by decide⟩).val :=
  DotDims.rhsIdx_val_of_single dot_S28x32_S32x168_S28x168_1_0_0_1_n_n rfl j k

/-- Right operand, column axis: the output column. -/
private theorem dot_rhs1 (j : S28x168.Idx) (k : dot_S28x32_S32x168_S28x168_1_0_0_1_n_n.contr.Idx) :
    (dot_S28x32_S32x168_S28x168_1_0_0_1_n_n.rhsIdx j k 1).val = (j 1).val := by
  simp [DotDims.rhsIdx, dot_S28x32_S32x168_S28x168_1_0_0_1_n_n]
  rfl

/-- A 28×32 by 32×168 product accumulated into zero, at entry (oh, l): the sum over the 32 shared positions. -/
private theorem prod_apply (A : FVec Ideal S28x32 .f32) (B : FVec Ideal S32x168 .f32) (oh : Fin 28) (l : Fin 168) :
    matmul dot_S28x32_S32x168_S28x168_1_0_0_1_n_n none A B (constant S28x168 .f32 0x00000000#32) (ix2 oh l)
      = ∑ w : Fin 32, (A (ix2 oh w) : EReal) * B (ix2 w l) := by
  show FloatOps.matmul dot_S28x32_S32x168_S28x168_1_0_0_1_n_n none A B (constant S28x168 .f32 0x00000000#32) (ix2 oh l) = _
  rw [Ideal.matmul_constant_zero_apply,
    ← Equiv.sum_comp (contrEquiv1 dot_S28x32_S32x168_S28x168_1_0_0_1_n_n 32 rfl rfl).symm]
  refine Finset.sum_congr rfl fun w _ => ?_
  have c := contrEquiv1_symm_val dot_S28x32_S32x168_S28x168_1_0_0_1_n_n 32 rfl rfl w
  have hl : dot_S28x32_S32x168_S28x168_1_0_0_1_n_n.lhsIdx (ix2 oh l)
      ((contrEquiv1 dot_S28x32_S32x168_S28x168_1_0_0_1_n_n 32 rfl rfl).symm w) = ix2 oh w := by
    funext ax; apply Fin.ext
    match ax with
    | ⟨0, _⟩ => exact dot_lhs0 _ _
    | ⟨1, _⟩ => exact (dot_lhs1 _ _).trans c
  have hr : dot_S28x32_S32x168_S28x168_1_0_0_1_n_n.rhsIdx (ix2 oh l)
      ((contrEquiv1 dot_S28x32_S32x168_S28x168_1_0_0_1_n_n 32 rfl rfl).symm w) = ix2 w l := by
    funext ax; apply Fin.ext
    match ax with
    | ⟨0, _⟩ => exact (dot_rhs0 _ _).trans c
    | ⟨1, _⟩ => exact dot_rhs1 _ _
  rw [hl, hr]

/-- A window [1, 28, 32] viewed 28 × 32. -/
private theorem castA_apply (a : Vec Ideal S1x28x32 .f32) (oh : Fin 28) (w : Fin 32) :
    shapeCast S28x32 a shapeCasts_S1x28x32_S28x32 (ix2 oh w) = a (ix3 (0 : Fin 1) oh w) :=
  shapeCast_1ab_ab_apply a _ oh w

/-- A weight slice [1, 1, 32, 168] viewed 32 × 168. -/
private theorem castT_apply (t : Vec Ideal S1x1x32x168 .f32) (w : Fin 32) (l : Fin 168) :
    shapeCast S32x168 t shapeCasts_S1x1x32x168_S32x168 (ix2 w l) = t (ix4 (0 : Fin 1) (0 : Fin 1) w l) :=
  shapeCast_apply t _ _ _ (by
    rw [Shape.rowMajor_val_four, Shape.rowMajor_val_two]
    show ((0 * 1 + 0) * 32 + w.val) * 168 + l.val = w.val * 168 + l.val
    omega)

/-- One product at an entry: row oh of a window against column l of a weight slice. -/
private def tap (a : Vec Ideal S1x28x32 .f32) (t : Vec Ideal S1x1x32x168 .f32) (oh : Fin 28) (l : Fin 168) : EReal :=
  ∑ w : Fin 32, (a (ix3 (0 : Fin 1) oh w) : EReal) * t (ix4 (0 : Fin 1) (0 : Fin 1) w l)

/-- The product of a window and a weight slice, both through their shape casts, is that sum. -/
private theorem tap_apply (a : Vec Ideal S1x28x32 .f32) (t : Vec Ideal S1x1x32x168 .f32) (oh : Fin 28) (l : Fin 168) :
    matmul (F := Ideal) (φ₁ := .f32) (φ₂ := .f32) dot_S28x32_S32x168_S28x168_1_0_0_1_n_n none (shapeCast S28x32 a shapeCasts_S1x28x32_S28x32)
        (shapeCast S32x168 t shapeCasts_S1x1x32x168_S32x168) (constant S28x168 .f32 0x00000000#32) (ix2 oh l)
      = tap a t oh l := by
  rw [prod_apply]
  exact Finset.sum_congr rfl fun w _ => by rw [castA_apply, castT_apply]

/-- The first four products, added from zero. -/
private theorem pay2_apply (a0 : Vec Ideal S1x28x32 .f32) (t0 : Vec Ideal S1x1x32x168 .f32) (a1 : Vec Ideal S1x28x32 .f32)
    (t1 : Vec Ideal S1x1x32x168 .f32) (a2 : Vec Ideal S1x28x32 .f32) (t2 : Vec Ideal S1x1x32x168 .f32)
    (a3 : Vec Ideal S1x28x32 .f32) (t3 : Vec Ideal S1x1x32x168 .f32) (oh : Fin 28) (l : Fin 168) :
    k0_pay2 (F := Ideal) a0 t0 a1 t1 a2 t2 a3 t3 (ix2 oh l)
      = tap a0 t0 oh l + tap a1 t1 oh l + tap a2 t2 oh l + tap a3 t3 oh l := by
  unfold k0_pay2
  simp only [addf_apply, tap_apply, broadcast_apply]
  show Ideal.ofBits .f32 0x00000000#32 + _ + _ + _ + _ = _
  rw [Ideal.ofBits_zero_f32, zero_add]

/-- Four more products added to a running sum. -/
private theorem pay3_apply (v : FVec Ideal S28x168 .f32) (a0 : Vec Ideal S1x28x32 .f32) (t0 : Vec Ideal S1x1x32x168 .f32)
    (a1 : Vec Ideal S1x28x32 .f32) (t1 : Vec Ideal S1x1x32x168 .f32) (a2 : Vec Ideal S1x28x32 .f32)
    (t2 : Vec Ideal S1x1x32x168 .f32) (a3 : Vec Ideal S1x28x32 .f32) (t3 : Vec Ideal S1x1x32x168 .f32)
    (oh : Fin 28) (l : Fin 168) :
    k0_pay3 (F := Ideal) v a0 t0 a1 t1 a2 t2 a3 t3 (ix2 oh l)
      = v (ix2 oh l) + tap a0 t0 oh l + tap a1 t1 oh l + tap a2 t2 oh l + tap a3 t3 oh l := by
  unfold k0_pay3
  simp only [addf_apply, tap_apply]

/-- The same, the first window already viewed 28 × 32. -/
private theorem pay5_apply (v : FVec Ideal S28x168 .f32) (a0 : Vec Ideal S1x28x32 .f32) (t0 : Vec Ideal S1x1x32x168 .f32)
    (a1 : Vec Ideal S1x28x32 .f32) (t1 : Vec Ideal S1x1x32x168 .f32) (a2 : Vec Ideal S1x28x32 .f32)
    (t2 : Vec Ideal S1x1x32x168 .f32) (a3 : Vec Ideal S1x28x32 .f32) (t3 : Vec Ideal S1x1x32x168 .f32)
    (oh : Fin 28) (l : Fin 168) :
    k0_pay5 (F := Ideal) v (k0_pay4 a0) t0 a1 t1 a2 t2 a3 t3 (ix2 oh l)
      = v (ix2 oh l) + tap a0 t0 oh l + tap a1 t1 oh l + tap a2 t2 oh l + tap a3 t3 oh l := by
  unfold k0_pay5 k0_pay4
  simp only [addf_apply, tap_apply]

/-- Bias row added, then the maximum with the zero splat: the rectifier of entry plus bias. -/
private theorem relu_bias_apply (S : FVec Ideal S28x168 .f32) (x2 : Vec Ideal S1x168 .f32) (oh : Fin 28) (l : Fin 168) :
    maximumf (addf S (broadcastTo S28x168 x2 broadcasts_S1x168_S28x168))
        (broadcast S28x168 (Scalar.ofBits (F := Ideal) .f32 0x00000000#32)) (ix2 oh l)
      = Net.relu (S (ix2 oh l) + x2 (ix2 (0 : Fin 1) l)) := by
  rw [maximumf_apply, addf_apply, broadcast_apply, broadcastTo_1b_ab_apply]
  show max _ (Ideal.ofBits .f32 0x00000000#32) = _
  rw [Ideal.ofBits_zero_f32]
  rfl

/-- The maximum of the lane windows at offsets 0 and 6: lanes l and l + 6. -/
private theorem lanepair_apply (V : FVec Ideal S28x168 .f32) (oh : Fin 28) (l : Fin 162) :
    maximumf (extractStridedSlice S28x162 ![0, 0] V slices_S28x168_o0_0_S28x162)
        (extractStridedSlice S28x162 ![0, 6] V slices_S28x168_o0_6_S28x162) (ix2 oh l)
      = max (V (ix2 oh (⟨l.val, by omega⟩ : Fin 168))) (V (ix2 oh (⟨l.val + 6, by omega⟩ : Fin 168))) := by
  rw [maximumf_apply,
    slice2_axis1_apply 0 V slices_S28x168_o0_0_S28x162 oh l (⟨l.val, by omega⟩ : Fin 168) (Nat.zero_add _).symm,
    slice2_axis1_apply 6 V slices_S28x168_o0_6_S28x162 oh l (⟨l.val + 6, by omega⟩ : Fin 168) (Nat.add_comm _ _)]

/-- The maximum of the row windows at offsets 0 and 1: rows r and r + 1. -/
private theorem rowpair_apply (V : FVec Ideal S28x162 .f32) (r : Fin 27) (l : Fin 162) :
    maximumf (extractStridedSlice S27x162 ![0, 0] V slices_S28x162_o0_0_S27x162)
        (extractStridedSlice S27x162 ![1, 0] V slices_S28x162_o1_0_S27x162) (ix2 r l)
      = max (V (ix2 (⟨r.val, by omega⟩ : Fin 28) l)) (V (ix2 (⟨r.val + 1, by omega⟩ : Fin 28) l)) := by
  rw [maximumf_apply,
    slice2_axis0_apply 0 V slices_S28x162_o0_0_S27x162 r l (⟨r.val, by omega⟩ : Fin 28) (Nat.zero_add _).symm,
    slice2_axis0_apply 1 V slices_S28x162_o1_0_S27x162 r l (⟨r.val + 1, by omega⟩ : Fin 28) (Nat.add_comm _ _)]

/-- Rectified entry of the last stretch: a running sum, three more products, the bias. -/
private def post (v : FVec Ideal S28x168 .f32) (a0 : Vec Ideal S1x28x32 .f32) (t0 : Vec Ideal S1x1x32x168 .f32)
    (a1 : Vec Ideal S1x28x32 .f32) (t1 : Vec Ideal S1x1x32x168 .f32) (a2 : Vec Ideal S1x28x32 .f32)
    (t2 : Vec Ideal S1x1x32x168 .f32) (x2 : Vec Ideal S1x168 .f32) (oh : Fin 28) (l : Fin 168) : EReal :=
  Net.relu (v (ix2 oh l) + tap a0 t0 oh l + tap a1 t1 oh l + tap a2 t2 oh l + x2 (ix2 (0 : Fin 1) l))

/-- The last stretch at entry (r, l): the maximum over rows r, r + 1 and lanes l, l + 6 of the rectified entries. -/
private theorem pay7_apply (v : FVec Ideal S28x168 .f32) (a0 : Vec Ideal S1x28x32 .f32) (t0 : Vec Ideal S1x1x32x168 .f32)
    (a1 : Vec Ideal S1x28x32 .f32) (t1 : Vec Ideal S1x1x32x168 .f32) (a2 : Vec Ideal S1x28x32 .f32)
    (t2 : Vec Ideal S1x1x32x168 .f32) (x2 : Vec Ideal S1x168 .f32) (r : Fin 27) (l : Fin 162) :
    k0_pay7 (F := Ideal) v (k0_pay6 a0) t0 a1 t1 a2 t2 x2 (ix2 r l)
      = max (max (post v a0 t0 a1 t1 a2 t2 x2 (⟨r.val, by omega⟩ : Fin 28) (⟨l.val, by omega⟩ : Fin 168))
              (post v a0 t0 a1 t1 a2 t2 x2 (⟨r.val, by omega⟩ : Fin 28) (⟨l.val + 6, by omega⟩ : Fin 168)))
          (max (post v a0 t0 a1 t1 a2 t2 x2 (⟨r.val + 1, by omega⟩ : Fin 28) (⟨l.val, by omega⟩ : Fin 168))
              (post v a0 t0 a1 t1 a2 t2 x2 (⟨r.val + 1, by omega⟩ : Fin 28) (⟨l.val + 6, by omega⟩ : Fin 168))) := by
  unfold k0_pay7 k0_pay6
  simp only [rowpair_apply, lanepair_apply, relu_bias_apply, addf_apply, tap_apply]
  rfl

/-- A sum over fifteen terms written out, left to right. -/
private theorem sum_fifteen (f : Fin 15 → EReal) :
    ∑ p : Fin 15, f p
      = f 0 + f 1 + f 2 + f 3 + f 4 + f 5 + f 6 + f 7 + f 8 + f 9 + f 10 + f 11 + f 12 + f 13 + f 14 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- The fifteen products in the order the chain adds them, the bias, the rectifier: the convolution over the taps. -/
private theorem conv_eq (a : Fin 15 → Vec Ideal S1x28x32 .f32) (t : Fin 15 → Vec Ideal S1x1x32x168 .f32)
    (x2 : Vec Ideal S1x168 .f32) (oh : Fin 28) (l : Fin 168) :
    Net.relu (tap (a 0) (t 0) oh l + tap (a 1) (t 1) oh l + tap (a 2) (t 2) oh l + tap (a 3) (t 3) oh l
        + tap (a 4) (t 4) oh l + tap (a 5) (t 5) oh l + tap (a 6) (t 6) oh l + tap (a 7) (t 7) oh l
        + tap (a 8) (t 8) oh l + tap (a 9) (t 9) oh l + tap (a 10) (t 10) oh l + tap (a 11) (t 11) oh l
        + tap (a 12) (t 12) oh l + tap (a 13) (t 13) oh l + tap (a 14) (t 14) oh l + x2 (ix2 (0 : Fin 1) l))
      = conv1Taps a t x2 oh l := by
  unfold conv1Taps
  rw [sum_fifteen]
  rfl

/-- The accumulation chain of the fifteen products, bias, rectifier and both pair maxima: entry (r, l) of the
    27 × 162 array is the maximum over rows r, r + 1 and lanes l, l + 6 of the convolution. -/
theorem head_apply (a : Fin 15 → Vec Ideal S1x28x32 .f32) (t : Fin 15 → Vec Ideal S1x1x32x168 .f32) (x2 : Vec Ideal S1x168 .f32)
    (r : Fin 27) (l : Fin 162) :
    k0_pay7 (F := Ideal)
        (k0_pay5 (k0_pay3 (k0_pay2 (a 0) (t 0) (a 1) (t 1) (a 2) (t 2) (a 3) (t 3)) (a 4) (t 4) (a 5) (t 5) (a 6) (t 6) (a 7) (t 7))
          (k0_pay4 (a 8)) (t 8) (a 9) (t 9) (a 10) (t 10) (a 11) (t 11))
        (k0_pay6 (a 12)) (t 12) (a 13) (t 13) (a 14) (t 14) x2 (ix2 r l)
      = max (Net.lanePair (R := 28) (n := 162) 6 (conv1Taps a t x2) (⟨r.val, by omega⟩ : Fin 28) l)
          (Net.lanePair (R := 28) (n := 162) 6 (conv1Taps a t x2) (⟨r.val + 1, by omega⟩ : Fin 28) l) := by
  rw [pay7_apply]
  unfold post
  simp only [pay5_apply, pay3_apply, pay2_apply, conv_eq a t x2]
  rfl

theorem pay8_apply (v72 : FVec Ideal S28x168 .f32) (v74 : FVec Ideal S28x32 .f32) (v75 : Vec Ideal S1x1x32x168 .f32) (v79 : Vec Ideal S1x28x32 .f32) (v81 : Vec Ideal S1x1x32x168 .f32) (v85 : Vec Ideal S1x28x32 .f32) (v87 : Vec Ideal S1x1x32x168 .f32) (v91 : Vec Ideal S1x168 .f32) (l : Fin 162) :
    k0_pay8 (F := Ideal) v72 v74 v75 v79 v81 v85 v87 v91 (ix2 (0 : Fin 1) l) = k0_pay7 (F := Ideal) v72 v74 v75 v79 v81 v85 v87 v91 (ix2 (0 : Fin 27) l) := by
  unfold k0_pay8
  rw [shapeCast_self]
  exact slice2_axis0_apply 0 _ _ 0 l 0 rfl

theorem pay9_apply (v72 : FVec Ideal S28x168 .f32) (v74 : FVec Ideal S28x32 .f32) (v75 : Vec Ideal S1x1x32x168 .f32) (v79 : Vec Ideal S1x28x32 .f32) (v81 : Vec Ideal S1x1x32x168 .f32) (v85 : Vec Ideal S1x28x32 .f32) (v87 : Vec Ideal S1x1x32x168 .f32) (v91 : Vec Ideal S1x168 .f32) (l : Fin 162) :
    k0_pay9 (F := Ideal) v72 v74 v75 v79 v81 v85 v87 v91 (ix2 (0 : Fin 1) l) = k0_pay7 (F := Ideal) v72 v74 v75 v79 v81 v85 v87 v91 (ix2 (2 : Fin 27) l) := by
  unfold k0_pay9
  rw [shapeCast_self]
  exact slice2_axis0_apply 2 _ _ 0 l 2 rfl

theorem pay10_apply (v101 : FVec Ideal S27x162 .f32) (l : Fin 162) :
    k0_pay10 (F := Ideal) v101 (ix2 (0 : Fin 1) l) = v101 (ix2 (4 : Fin 27) l) := by
  unfold k0_pay10
  rw [shapeCast_self]
  exact slice2_axis0_apply 4 v101 _ 0 l 4 rfl

theorem pay11_apply (v101 : FVec Ideal S27x162 .f32) (l : Fin 162) :
    k0_pay11 (F := Ideal) v101 (ix2 (0 : Fin 1) l) = v101 (ix2 (6 : Fin 27) l) := by
  unfold k0_pay11
  rw [shapeCast_self]
  exact slice2_axis0_apply 6 v101 _ 0 l 6 rfl

theorem pay12_apply (v101 : FVec Ideal S27x162 .f32) (l : Fin 162) :
    k0_pay12 (F := Ideal) v101 (ix2 (0 : Fin 1) l) = v101 (ix2 (8 : Fin 27) l) := by
  unfold k0_pay12
  rw [shapeCast_self]
  exact slice2_axis0_apply 8 v101 _ 0 l 8 rfl

theorem pay13_apply (v101 : FVec Ideal S27x162 .f32) (l : Fin 162) :
    k0_pay13 (F := Ideal) v101 (ix2 (0 : Fin 1) l) = v101 (ix2 (10 : Fin 27) l) := by
  unfold k0_pay13
  rw [shapeCast_self]
  exact slice2_axis0_apply 10 v101 _ 0 l 10 rfl

theorem pay14_apply (v101 : FVec Ideal S27x162 .f32) (l : Fin 162) :
    k0_pay14 (F := Ideal) v101 (ix2 (0 : Fin 1) l) = v101 (ix2 (12 : Fin 27) l) := by
  unfold k0_pay14
  rw [shapeCast_self]
  exact slice2_axis0_apply 12 v101 _ 0 l 12 rfl

theorem pay15_apply (v101 : FVec Ideal S27x162 .f32) (l : Fin 162) :
    k0_pay15 (F := Ideal) v101 (ix2 (0 : Fin 1) l) = v101 (ix2 (14 : Fin 27) l) := by
  unfold k0_pay15
  rw [shapeCast_self]
  exact slice2_axis0_apply 14 v101 _ 0 l 14 rfl

theorem pay16_apply (v101 : FVec Ideal S27x162 .f32) (l : Fin 162) :
    k0_pay16 (F := Ideal) v101 (ix2 (0 : Fin 1) l) = v101 (ix2 (16 : Fin 27) l) := by
  unfold k0_pay16
  rw [shapeCast_self]
  exact slice2_axis0_apply 16 v101 _ 0 l 16 rfl

theorem pay17_apply (v101 : FVec Ideal S27x162 .f32) (l : Fin 162) :
    k0_pay17 (F := Ideal) v101 (ix2 (0 : Fin 1) l) = v101 (ix2 (18 : Fin 27) l) := by
  unfold k0_pay17
  rw [shapeCast_self]
  exact slice2_axis0_apply 18 v101 _ 0 l 18 rfl

theorem pay18_apply (v101 : FVec Ideal S27x162 .f32) (l : Fin 162) :
    k0_pay18 (F := Ideal) v101 (ix2 (0 : Fin 1) l) = v101 (ix2 (20 : Fin 27) l) := by
  unfold k0_pay18
  exact slice2_axis0_apply 20 v101 _ 0 l 20 rfl

theorem pay20_apply (v101 : FVec Ideal S27x162 .f32) (l : Fin 162) :
    k0_pay20 (F := Ideal) v101 (ix2 (0 : Fin 1) l) = v101 (ix2 (22 : Fin 27) l) := by
  unfold k0_pay20
  rw [shapeCast_self]
  exact slice2_axis0_apply 22 v101 _ 0 l 22 rfl

theorem pay21_apply (v101 : FVec Ideal S27x162 .f32) (l : Fin 162) :
    k0_pay21 (F := Ideal) v101 (ix2 (0 : Fin 1) l) = v101 (ix2 (24 : Fin 27) l) := by
  unfold k0_pay21
  rw [shapeCast_self]
  exact slice2_axis0_apply 24 v101 _ 0 l 24 rfl

theorem pay22_apply (v101 : FVec Ideal S27x162 .f32) (l : Fin 162) :
    k0_pay22 (F := Ideal) v101 (ix2 (0 : Fin 1) l) = v101 (ix2 (26 : Fin 27) l) := by
  unfold k0_pay22
  rw [shapeCast_self]
  exact slice2_axis0_apply 26 v101 _ 0 l 26 rfl

/-- A shape cast between equal shapes. -/
theorem pay19_apply (v142 : FVec Ideal S1x162 .f32) (i : S1x162.Idx) : k0_pay19 (F := Ideal) v142 i = v142 i := by
  unfold k0_pay19
  rw [shapeCast_self]

end Cert.ReferenceIdeal.Pay

end
-- ==== Proof.RefPayTail.lean ====
/-
  The reference's later stages read at an index, over their own operands: five ten-row windows s of the scratch
  against five 162×160 weight slices w (added up from zero), bias, rectifier, both pair maxima (9 rows), then the
  rows 0, 2, 4, 6, 8 of that against five 144×120 slices f (added up from zero), bias, rectifier, and two dense
  layers. The second-stage array is recomputed inside three payloads from the same operands.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Whole
import proofs.«125908_g2000603131124687_pallasbulk_7_34_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.ReferenceIdeal Cert.ReferenceIdeal.Gen

namespace Cert.ReferenceIdeal.Pay

/-! ### The second convolution's contraction: [10,162] × [162,160] -/

/-- Left operand, row axis: the output row. -/
private theorem lhs0_A (i : S10x160.Idx) (q : dot_S10x162_S162x160_S10x160_1_0_0_1_n_n.contr.Idx) :
    (dot_S10x162_S162x160_S10x160_1_0_0_1_n_n.lhsIdx i q 0).val = (i 0).val := by
  unfold DotDims.lhsIdx
  rw [dif_neg (show ¬(0 : Fin S10x162.rank) ∈ dot_S10x162_S162x160_S10x160_1_0_0_1_n_n.lhsBatch by decide),
    dif_pos (show (0 : Fin S10x162.rank) ∈ dot_S10x162_S162x160_S10x160_1_0_0_1_n_n.lhsNonContracting by decide)]
  rfl

/-- Left operand, column axis: the contracted coordinate. -/
private theorem lhs1_A (i : S10x160.Idx) (q : dot_S10x162_S162x160_S10x160_1_0_0_1_n_n.contr.Idx) :
    (dot_S10x162_S162x160_S10x160_1_0_0_1_n_n.lhsIdx i q 1).val = (q ⟨0, by decide⟩).val :=
  dot_S10x162_S162x160_S10x160_1_0_0_1_n_n.lhsIdx_val_of_single rfl i q

/-- Right operand, row axis: the contracted coordinate. -/
private theorem rhs0_A (i : S10x160.Idx) (q : dot_S10x162_S162x160_S10x160_1_0_0_1_n_n.contr.Idx) :
    (dot_S10x162_S162x160_S10x160_1_0_0_1_n_n.rhsIdx i q 0).val = (q ⟨0, by decide⟩).val :=
  dot_S10x162_S162x160_S10x160_1_0_0_1_n_n.rhsIdx_val_of_single rfl i q

/-- Right operand, column axis: the output column. -/
private theorem rhs1_A (i : S10x160.Idx) (q : dot_S10x162_S162x160_S10x160_1_0_0_1_n_n.contr.Idx) :
    (dot_S10x162_S162x160_S10x160_1_0_0_1_n_n.rhsIdx i q 1).val = (i 1).val := by
  unfold DotDims.rhsIdx
  rw [dif_neg (show ¬(1 : Fin S162x160.rank) ∈ dot_S10x162_S162x160_S10x160_1_0_0_1_n_n.rhsBatch by decide),
    dif_pos (show (1 : Fin S162x160.rank) ∈ dot_S10x162_S162x160_S10x160_1_0_0_1_n_n.rhsNonContracting by decide)]
  rfl

/-- The product into zeros at (a, b): the sum over the 162 contracted positions of row a times column b. -/
private theorem mm_A (x : FVec Ideal S10x162 .f32) (y : FVec Ideal S162x160 .f32) (a : Fin 10) (b : Fin 160) :
    matmul dot_S10x162_S162x160_S10x160_1_0_0_1_n_n none x y (constant S10x160 .f32 0x00000000#32) (ix2 a b)
      = ∑ k : Fin 162, (x (ix2 a k) : EReal) * y (ix2 k b) := by
  simp only [matmul]
  rw [Ideal.matmul_constant_zero_apply,
    ← Equiv.sum_comp (contrEquiv1 dot_S10x162_S162x160_S10x160_1_0_0_1_n_n 162 rfl rfl).symm]
  refine Finset.sum_congr rfl fun k _ => ?_
  have hk := contrEquiv1_symm_val dot_S10x162_S162x160_S10x160_1_0_0_1_n_n 162 rfl rfl k
  have el : dot_S10x162_S162x160_S10x160_1_0_0_1_n_n.lhsIdx (ix2 a b)
      ((contrEquiv1 dot_S10x162_S162x160_S10x160_1_0_0_1_n_n 162 rfl rfl).symm k) = ix2 a k :=
    funext fun ax => Fin.ext (by
      match ax with
      | ⟨0, _⟩ => exact lhs0_A _ _
      | ⟨1, _⟩ => exact (lhs1_A _ _).trans hk)
  have er : dot_S10x162_S162x160_S10x160_1_0_0_1_n_n.rhsIdx (ix2 a b)
      ((contrEquiv1 dot_S10x162_S162x160_S10x160_1_0_0_1_n_n 162 rfl rfl).symm k) = ix2 k b :=
    funext fun ax => Fin.ext (by
      match ax with
      | ⟨0, _⟩ => exact (rhs0_A _ _).trans hk
      | ⟨1, _⟩ => exact rhs1_A _ _)
  rw [el, er]

/-! ### The first dense layer's contraction, one pooled row: [1,144] × [144,120] -/

/-- Left operand, row axis: the output row. -/
private theorem lhs0_B (i : S1x120.Idx) (q : dot_S1x144_S144x120_S1x120_1_0_0_1_n_n.contr.Idx) :
    (dot_S1x144_S144x120_S1x120_1_0_0_1_n_n.lhsIdx i q 0).val = (i 0).val := by
  unfold DotDims.lhsIdx
  rw [dif_neg (show ¬(0 : Fin S1x144.rank) ∈ dot_S1x144_S144x120_S1x120_1_0_0_1_n_n.lhsBatch by decide),
    dif_pos (show (0 : Fin S1x144.rank) ∈ dot_S1x144_S144x120_S1x120_1_0_0_1_n_n.lhsNonContracting by decide)]
  rfl

/-- Left operand, column axis: the contracted coordinate. -/
private theorem lhs1_B (i : S1x120.Idx) (q : dot_S1x144_S144x120_S1x120_1_0_0_1_n_n.contr.Idx) :
    (dot_S1x144_S144x120_S1x120_1_0_0_1_n_n.lhsIdx i q 1).val = (q ⟨0, by decide⟩).val :=
  dot_S1x144_S144x120_S1x120_1_0_0_1_n_n.lhsIdx_val_of_single rfl i q

/-- Right operand, row axis: the contracted coordinate. -/
private theorem rhs0_B (i : S1x120.Idx) (q : dot_S1x144_S144x120_S1x120_1_0_0_1_n_n.contr.Idx) :
    (dot_S1x144_S144x120_S1x120_1_0_0_1_n_n.rhsIdx i q 0).val = (q ⟨0, by decide⟩).val :=
  dot_S1x144_S144x120_S1x120_1_0_0_1_n_n.rhsIdx_val_of_single rfl i q

/-- Right operand, column axis: the output column. -/
private theorem rhs1_B (i : S1x120.Idx) (q : dot_S1x144_S144x120_S1x120_1_0_0_1_n_n.contr.Idx) :
    (dot_S1x144_S144x120_S1x120_1_0_0_1_n_n.rhsIdx i q 1).val = (i 1).val := by
  unfold DotDims.rhsIdx
  rw [dif_neg (show ¬(1 : Fin S144x120.rank) ∈ dot_S1x144_S144x120_S1x120_1_0_0_1_n_n.rhsBatch by decide),
    dif_pos (show (1 : Fin S144x120.rank) ∈ dot_S1x144_S144x120_S1x120_1_0_0_1_n_n.rhsNonContracting by decide)]
  rfl

/-- The product into zeros at (a, b): the sum over the 144 contracted positions of row a times column b. -/
private theorem mm_B (x : FVec Ideal S1x144 .f32) (y : FVec Ideal S144x120 .f32) (a : Fin 1) (b : Fin 120) :
    matmul dot_S1x144_S144x120_S1x120_1_0_0_1_n_n none x y (constant S1x120 .f32 0x00000000#32) (ix2 a b)
      = ∑ k : Fin 144, (x (ix2 a k) : EReal) * y (ix2 k b) := by
  simp only [matmul]
  rw [Ideal.matmul_constant_zero_apply,
    ← Equiv.sum_comp (contrEquiv1 dot_S1x144_S144x120_S1x120_1_0_0_1_n_n 144 rfl rfl).symm]
  refine Finset.sum_congr rfl fun k _ => ?_
  have hk := contrEquiv1_symm_val dot_S1x144_S144x120_S1x120_1_0_0_1_n_n 144 rfl rfl k
  have el : dot_S1x144_S144x120_S1x120_1_0_0_1_n_n.lhsIdx (ix2 a b)
      ((contrEquiv1 dot_S1x144_S144x120_S1x120_1_0_0_1_n_n 144 rfl rfl).symm k) = ix2 a k :=
    funext fun ax => Fin.ext (by
      match ax with
      | ⟨0, _⟩ => exact lhs0_B _ _
      | ⟨1, _⟩ => exact (lhs1_B _ _).trans hk)
  have er : dot_S1x144_S144x120_S1x120_1_0_0_1_n_n.rhsIdx (ix2 a b)
      ((contrEquiv1 dot_S1x144_S144x120_S1x120_1_0_0_1_n_n 144 rfl rfl).symm k) = ix2 k b :=
    funext fun ax => Fin.ext (by
      match ax with
      | ⟨0, _⟩ => exact (rhs0_B _ _).trans hk
      | ⟨1, _⟩ => exact rhs1_B _ _)
  rw [el, er]

/-! ### The second dense layer's contraction: [1,120] × [120,84] -/

/-- Left operand, row axis: the output row. -/
private theorem lhs0_C (i : S1x84.Idx) (q : dot_S1x120_S120x84_S1x84_1_0_0_1_n_n.contr.Idx) :
    (dot_S1x120_S120x84_S1x84_1_0_0_1_n_n.lhsIdx i q 0).val = (i 0).val := by
  unfold DotDims.lhsIdx
  rw [dif_neg (show ¬(0 : Fin S1x120.rank) ∈ dot_S1x120_S120x84_S1x84_1_0_0_1_n_n.lhsBatch by decide),
    dif_pos (show (0 : Fin S1x120.rank) ∈ dot_S1x120_S120x84_S1x84_1_0_0_1_n_n.lhsNonContracting by decide)]
  rfl

/-- Left operand, column axis: the contracted coordinate. -/
private theorem lhs1_C (i : S1x84.Idx) (q : dot_S1x120_S120x84_S1x84_1_0_0_1_n_n.contr.Idx) :
    (dot_S1x120_S120x84_S1x84_1_0_0_1_n_n.lhsIdx i q 1).val = (q ⟨0, by decide⟩).val :=
  dot_S1x120_S120x84_S1x84_1_0_0_1_n_n.lhsIdx_val_of_single rfl i q

/-- Right operand, row axis: the contracted coordinate. -/
private theorem rhs0_C (i : S1x84.Idx) (q : dot_S1x120_S120x84_S1x84_1_0_0_1_n_n.contr.Idx) :
    (dot_S1x120_S120x84_S1x84_1_0_0_1_n_n.rhsIdx i q 0).val = (q ⟨0, by decide⟩).val :=
  dot_S1x120_S120x84_S1x84_1_0_0_1_n_n.rhsIdx_val_of_single rfl i q

/-- Right operand, column axis: the output column. -/
private theorem rhs1_C (i : S1x84.Idx) (q : dot_S1x120_S120x84_S1x84_1_0_0_1_n_n.contr.Idx) :
    (dot_S1x120_S120x84_S1x84_1_0_0_1_n_n.rhsIdx i q 1).val = (i 1).val := by
  unfold DotDims.rhsIdx
  rw [dif_neg (show ¬(1 : Fin S120x84.rank) ∈ dot_S1x120_S120x84_S1x84_1_0_0_1_n_n.rhsBatch by decide),
    dif_pos (show (1 : Fin S120x84.rank) ∈ dot_S1x120_S120x84_S1x84_1_0_0_1_n_n.rhsNonContracting by decide)]
  rfl

/-- The product into zeros at (a, b): the sum over the 120 contracted positions of row a times column b. -/
private theorem mm_C (x : FVec Ideal S1x120 .f32) (y : FVec Ideal S120x84 .f32) (a : Fin 1) (b : Fin 84) :
    matmul dot_S1x120_S120x84_S1x84_1_0_0_1_n_n none x y (constant S1x84 .f32 0x00000000#32) (ix2 a b)
      = ∑ k : Fin 120, (x (ix2 a k) : EReal) * y (ix2 k b) := by
  simp only [matmul]
  rw [Ideal.matmul_constant_zero_apply,
    ← Equiv.sum_comp (contrEquiv1 dot_S1x120_S120x84_S1x84_1_0_0_1_n_n 120 rfl rfl).symm]
  refine Finset.sum_congr rfl fun k _ => ?_
  have hk := contrEquiv1_symm_val dot_S1x120_S120x84_S1x84_1_0_0_1_n_n 120 rfl rfl k
  have el : dot_S1x120_S120x84_S1x84_1_0_0_1_n_n.lhsIdx (ix2 a b)
      ((contrEquiv1 dot_S1x120_S120x84_S1x84_1_0_0_1_n_n 120 rfl rfl).symm k) = ix2 a k :=
    funext fun ax => Fin.ext (by
      match ax with
      | ⟨0, _⟩ => exact lhs0_C _ _
      | ⟨1, _⟩ => exact (lhs1_C _ _).trans hk)
  have er : dot_S1x120_S120x84_S1x84_1_0_0_1_n_n.rhsIdx (ix2 a b)
      ((contrEquiv1 dot_S1x120_S120x84_S1x84_1_0_0_1_n_n 120 rfl rfl).symm k) = ix2 k b :=
    funext fun ax => Fin.ext (by
      match ax with
      | ⟨0, _⟩ => exact (rhs0_C _ _).trans hk
      | ⟨1, _⟩ => exact rhs1_C _ _)
  rw [el, er]

/-! ### The third dense layer's contraction: [1,84] × [84,10] -/

/-- Left operand, row axis: the output row. -/
private theorem lhs0_D (i : S1x10.Idx) (q : dot_S1x84_S84x10_S1x10_1_0_0_1_n_n.contr.Idx) :
    (dot_S1x84_S84x10_S1x10_1_0_0_1_n_n.lhsIdx i q 0).val = (i 0).val := by
  unfold DotDims.lhsIdx
  rw [dif_neg (show ¬(0 : Fin S1x84.rank) ∈ dot_S1x84_S84x10_S1x10_1_0_0_1_n_n.lhsBatch by decide),
    dif_pos (show (0 : Fin S1x84.rank) ∈ dot_S1x84_S84x10_S1x10_1_0_0_1_n_n.lhsNonContracting by decide)]
  rfl

/-- Left operand, column axis: the contracted coordinate. -/
private theorem lhs1_D (i : S1x10.Idx) (q : dot_S1x84_S84x10_S1x10_1_0_0_1_n_n.contr.Idx) :
    (dot_S1x84_S84x10_S1x10_1_0_0_1_n_n.lhsIdx i q 1).val = (q ⟨0, by decide⟩).val :=
  dot_S1x84_S84x10_S1x10_1_0_0_1_n_n.lhsIdx_val_of_single rfl i q

/-- Right operand, row axis: the contracted coordinate. -/
private theorem rhs0_D (i : S1x10.Idx) (q : dot_S1x84_S84x10_S1x10_1_0_0_1_n_n.contr.Idx) :
    (dot_S1x84_S84x10_S1x10_1_0_0_1_n_n.rhsIdx i q 0).val = (q ⟨0, by decide⟩).val :=
  dot_S1x84_S84x10_S1x10_1_0_0_1_n_n.rhsIdx_val_of_single rfl i q

/-- Right operand, column axis: the output column. -/
private theorem rhs1_D (i : S1x10.Idx) (q : dot_S1x84_S84x10_S1x10_1_0_0_1_n_n.contr.Idx) :
    (dot_S1x84_S84x10_S1x10_1_0_0_1_n_n.rhsIdx i q 1).val = (i 1).val := by
  unfold DotDims.rhsIdx
  rw [dif_neg (show ¬(1 : Fin S84x10.rank) ∈ dot_S1x84_S84x10_S1x10_1_0_0_1_n_n.rhsBatch by decide),
    dif_pos (show (1 : Fin S84x10.rank) ∈ dot_S1x84_S84x10_S1x10_1_0_0_1_n_n.rhsNonContracting by decide)]
  rfl

/-- The product into zeros at (a, b): the sum over the 84 contracted positions of row a times column b. -/
private theorem mm_D (x : FVec Ideal S1x84 .f32) (y : FVec Ideal S84x10 .f32) (a : Fin 1) (b : Fin 10) :
    matmul dot_S1x84_S84x10_S1x10_1_0_0_1_n_n none x y (constant S1x10 .f32 0x00000000#32) (ix2 a b)
      = ∑ k : Fin 84, (x (ix2 a k) : EReal) * y (ix2 k b) := by
  simp only [matmul]
  rw [Ideal.matmul_constant_zero_apply,
    ← Equiv.sum_comp (contrEquiv1 dot_S1x84_S84x10_S1x10_1_0_0_1_n_n 84 rfl rfl).symm]
  refine Finset.sum_congr rfl fun k _ => ?_
  have hk := contrEquiv1_symm_val dot_S1x84_S84x10_S1x10_1_0_0_1_n_n 84 rfl rfl k
  have el : dot_S1x84_S84x10_S1x10_1_0_0_1_n_n.lhsIdx (ix2 a b)
      ((contrEquiv1 dot_S1x84_S84x10_S1x10_1_0_0_1_n_n 84 rfl rfl).symm k) = ix2 a k :=
    funext fun ax => Fin.ext (by
      match ax with
      | ⟨0, _⟩ => exact lhs0_D _ _
      | ⟨1, _⟩ => exact (lhs1_D _ _).trans hk)
  have er : dot_S1x84_S84x10_S1x10_1_0_0_1_n_n.rhsIdx (ix2 a b)
      ((contrEquiv1 dot_S1x84_S84x10_S1x10_1_0_0_1_n_n 84 rfl rfl).symm k) = ix2 k b :=
    funext fun ax => Fin.ext (by
      match ax with
      | ⟨0, _⟩ => exact (rhs0_D _ _).trans hk
      | ⟨1, _⟩ => exact rhs1_D _ _)
  rw [el, er]

/-! ### Small readings -/

/-- The zero word is the extended real 0. -/
private theorem zero_word : (Scalar.ofBits (F := Ideal) .f32 0x00000000#32 : EReal) = 0 := Ideal.ofBits_zero_f32

/-- One ten-row window against one cast weight slice, into zeros, at (oh, l). -/
private theorem conv_term (s : Vec Ideal S10x162 .f32) (w : Vec Ideal S1x162x160 .f32)
    (hc : S1x162x160.ShapeCasts S162x160) (oh : Fin 10) (l : Fin 160) :
    matmul (F := Ideal) (φ₁ := .f32) (φ₂ := .f32) dot_S10x162_S162x160_S10x160_1_0_0_1_n_n none s (shapeCast S162x160 w hc)
        (constant S10x160 .f32 0x00000000#32) (ix2 oh l)
      = ∑ q : Fin 162, (s (ix2 oh q) : EReal) * w (ix3 (0 : Fin 1) q l) := by
  rw [mm_A]
  refine Finset.sum_congr rfl fun q _ => ?_
  rw [shapeCast_1ab_ab_apply]

/-- The first three products added onto zero. -/
private theorem pay23_apply (s0 : Vec Ideal S10x162 .f32) (w0 : Vec Ideal S1x162x160 .f32)
    (s1 : Vec Ideal S10x162 .f32) (w1 : Vec Ideal S1x162x160 .f32)
    (s2 : Vec Ideal S10x162 .f32) (w2 : Vec Ideal S1x162x160 .f32) (oh : Fin 10) (l : Fin 160) :
    k0_pay23 (F := Ideal) s0 w0 s1 w1 s2 w2 (ix2 oh l)
      = ((∑ q : Fin 162, (s0 (ix2 oh q) : EReal) * w0 (ix3 (0 : Fin 1) q l))
          + ∑ q : Fin 162, (s1 (ix2 oh q) : EReal) * w1 (ix3 (0 : Fin 1) q l))
          + ∑ q : Fin 162, (s2 (ix2 oh q) : EReal) * w2 (ix3 (0 : Fin 1) q l) := by
  simp only [k0_pay23, addf_apply, broadcast_apply, conv_term, zero_word, zero_add]

/-- The second convolution's rectified rows, as the specification writes them. -/
private def conv (s : Fin 5 → Vec Ideal S10x162 .f32) (w : Fin 5 → Vec Ideal S1x162x160 .f32)
    (x4 : Vec Ideal S1x160 .f32) (oh : Fin 10) (l : Fin 160) : EReal :=
  Net.relu ((∑ kh : Fin 5, ∑ q : Fin 162, (s kh (ix2 oh q) : EReal) * w kh (ix3 (0 : Fin 1) q l))
    + x4 (ix2 (0 : Fin 1) l))

/-- All five products, the bias row and the rectifier, at (r, c). -/
private theorem act_apply (s : Fin 5 → Vec Ideal S10x162 .f32) (w : Fin 5 → Vec Ideal S1x162x160 .f32)
    (x4 : Vec Ideal S1x160 .f32) (hc : S1x162x160.ShapeCasts S162x160) (hb : S1x160.Broadcasts S10x160)
    (r : Fin 10) (c : Fin 160) :
    maximumf
        (addf
          (addf
            (addf (k0_pay23 (F := Ideal) (s 0) (w 0) (s 1) (w 1) (s 2) (w 2))
              (matmul (φ₁ := .f32) (φ₂ := .f32) dot_S10x162_S162x160_S10x160_1_0_0_1_n_n none (s 3) (shapeCast S162x160 (w 3) hc)
                (constant S10x160 .f32 0x00000000#32)))
            (matmul (φ₁ := .f32) (φ₂ := .f32) dot_S10x162_S162x160_S10x160_1_0_0_1_n_n none (s 4) (shapeCast S162x160 (w 4) hc)
              (constant S10x160 .f32 0x00000000#32)))
          (broadcastTo S10x160 x4 hb))
        (broadcast S10x160 (Scalar.ofBits (F := Ideal) .f32 0x00000000#32)) (ix2 r c)
      = conv s w x4 r c := by
  simp only [maximumf_apply, addf_apply, broadcast_apply, broadcastTo_1b_ab_apply, conv_term, pay23_apply,
    zero_word]
  simp only [conv, Net.relu, Fin.sum_univ_five]

/-- The lane-pair maximum of a 10×160 array: lanes l and l + 16. -/
private theorem lanes_apply (X : FVec Ideal S10x160 .f32) (h0 : S10x160.Slices ![0, 0] S10x144)
    (h16 : S10x160.Slices ![0, 16] S10x144) (r : Fin 10) (l : Fin 144) :
    maximumf (extractStridedSlice S10x144 ![0, 0] X h0) (extractStridedSlice S10x144 ![0, 16] X h16) (ix2 r l)
      = max (X (ix2 r (⟨l.val, by omega⟩ : Fin 160))) (X (ix2 r (⟨l.val + 16, by omega⟩ : Fin 160))) := by
  rw [maximumf_apply, slice2_axis1_apply 0 X h0 r l ⟨l.val, by omega⟩ (Nat.zero_add _).symm,
    slice2_axis1_apply 16 X h16 r l ⟨l.val + 16, by omega⟩ (Nat.add_comm _ _)]

/-- The row-pair maximum of a 10×144 array: rows p and p + 1. -/
private theorem rows_apply (X : FVec Ideal S10x144 .f32) (h0 : S10x144.Slices ![0, 0] S9x144)
    (h1 : S10x144.Slices ![1, 0] S9x144) (p : Fin 9) (l : Fin 144) :
    maximumf (extractStridedSlice S9x144 ![0, 0] X h0) (extractStridedSlice S9x144 ![1, 0] X h1) (ix2 p l)
      = max (X (ix2 (⟨p.val, by omega⟩ : Fin 10) l)) (X (ix2 (⟨p.val + 1, by omega⟩ : Fin 10) l)) := by
  rw [maximumf_apply, slice2_axis0_apply 0 X h0 p l ⟨p.val, by omega⟩ (Nat.zero_add _).symm,
    slice2_axis0_apply 1 X h1 p l ⟨p.val + 1, by omega⟩ (Nat.add_comm _ _)]

/-! ### The second-stage array -/

/-- The 9-row array at (p, l): the maximum of the lane-pair maxima of rows p and p + 1 of the convolution. -/
private theorem stage2_apply (s : Fin 5 → Vec Ideal S10x162 .f32) (w : Fin 5 → Vec Ideal S1x162x160 .f32)
    (x4 : Vec Ideal S1x160 .f32) (p : Fin 9) (l : Fin 144) :
    k0_pay24 (F := Ideal) (k0_pay23 (s 0) (w 0) (s 1) (w 1) (s 2) (w 2)) (s 3) (w 3) (s 4) (w 4) x4 (ix2 p l)
      = max (Net.lanePair (R := 10) (n := 144) 16 (conv s w x4) ⟨p.val, by omega⟩ l)
          (Net.lanePair (R := 10) (n := 144) 16 (conv s w x4) ⟨p.val + 1, by omega⟩ l) := by
  simp only [k0_pay24, rows_apply, lanes_apply, act_apply]
  rfl

/-- Row 2r of the 9-row array is pooled row r. -/
private theorem stage2_even (s : Fin 5 → Vec Ideal S10x162 .f32) (w : Fin 5 → Vec Ideal S1x162x160 .f32)
    (x4 : Vec Ideal S1x160 .f32) (r : Fin 5) (k : Fin 9) (hk : k.val = 2 * r.val) (l : Fin 144) :
    k0_pay24 (F := Ideal) (k0_pay23 (s 0) (w 0) (s 1) (w 1) (s 2) (w 2)) (s 3) (w 3) (s 4) (w 4) x4 (ix2 k l)
      = Net.pool2 (conv s w x4) r l := by
  obtain ⟨kv, hkv⟩ := k
  change kv = 2 * r.val at hk
  subst hk
  rw [stage2_apply]
  rfl

/-! ### The dense layers -/

/-- Row k of the 9-row array, cut out as a [1,144] array. -/
private theorem row_apply (o : Nat) (k : Fin 9) (hk : k.val = o) (X : FVec Ideal S9x144 .f32)
    (h : S9x144.Slices ![o, 0] S1x144) (u : Fin 1) (l : Fin 144) :
    extractStridedSlice S1x144 ![o, 0] X h (ix2 u l) = X (ix2 k l) :=
  slice2_axis0_apply o X h u l k (by omega)

/-- A [1,144] row against one cast 144×120 slice, into zeros, at (u, j). -/
private theorem fc_term (v : FVec Ideal S1x144 .f32) (f : Vec Ideal S1x144x120 .f32)
    (hc : S1x144x120.ShapeCasts S144x120) (u : Fin 1) (j : Fin 120) :
    matmul (F := Ideal) (φ₁ := .f32) (φ₂ := .f32) dot_S1x144_S144x120_S1x120_1_0_0_1_n_n none v
        (shapeCast S144x120 f hc) (constant S1x120 .f32 0x00000000#32) (ix2 u j)
      = ∑ l : Fin 144, (v (ix2 u l) : EReal) * f (ix3 (0 : Fin 1) l j) := by
  rw [mm_B]
  refine Finset.sum_congr rfl fun l _ => ?_
  rw [shapeCast_1ab_ab_apply]

/-- Rows 0 and 2 of the 9-row array against their slices, added onto zero. -/
private theorem pay25_apply (v173 : FVec Ideal S10x160 .f32) (v174 : Vec Ideal S10x162 .f32)
    (v175 : Vec Ideal S1x162x160 .f32) (v179 : Vec Ideal S10x162 .f32) (v180 : Vec Ideal S1x162x160 .f32)
    (v184 : Vec Ideal S1x160 .f32) (f0 f1 : Vec Ideal S1x144x120 .f32) (u : Fin 1) (j : Fin 120) :
    k0_pay25 (F := Ideal) v173 v174 v175 v179 v180 v184 f0 f1 (ix2 u j)
      = (∑ l : Fin 144, (k0_pay24 (F := Ideal) v173 v174 v175 v179 v180 v184 (ix2 (0 : Fin 9) l) : EReal)
            * f0 (ix3 (0 : Fin 1) l j))
          + ∑ l : Fin 144, (k0_pay24 (F := Ideal) v173 v174 v175 v179 v180 v184 (ix2 (2 : Fin 9) l) : EReal)
            * f1 (ix3 (0 : Fin 1) l j) := by
  simp only [k0_pay25, addf_apply, broadcast_apply, zero_word, zero_add, fc_term, row_apply 0 0 rfl,
    row_apply 2 2 rfl]

/-- Row 4 of the 9-row array. -/
private theorem pay26_apply (v173 : FVec Ideal S10x160 .f32) (v174 : Vec Ideal S10x162 .f32)
    (v175 : Vec Ideal S1x162x160 .f32) (v179 : Vec Ideal S10x162 .f32) (v180 : Vec Ideal S1x162x160 .f32)
    (v184 : Vec Ideal S1x160 .f32) (u : Fin 1) (l : Fin 144) :
    k0_pay26 (F := Ideal) v173 v174 v175 v179 v180 v184 (ix2 u l)
      = k0_pay24 (F := Ideal) v173 v174 v175 v179 v180 v184 (ix2 (4 : Fin 9) l) := by
  simp only [k0_pay26, row_apply 4 4 rfl]

/-- The last three products, the bias and the rectifier, then the two remaining dense layers. -/
private theorem pay27_apply (v194 : FVec Ideal S9x144 .f32) (v205 : FVec Ideal S1x120 .f32)
    (v206 : FVec Ideal S1x144 .f32) (f2 f3 f4 : Vec Ideal S1x144x120 .f32) (x6 : Vec Ideal S1x120 .f32)
    (x7 : Vec Ideal S120x84 .f32) (x8 : Vec Ideal S1x84 .f32) (x9 : Vec Ideal S84x10 .f32)
    (x10 : Vec Ideal S1x10 .f32) (j : Fin 10) :
    k0_pay27 (F := Ideal) v194 v205 v206 f2 f3 f4 x6 x7 x8 x9 x10 (ix2 (0 : Fin 1) j)
      = Net.dense (fun k => Net.relu (Net.dense
          (fun i => Net.relu (((((v205 (ix2 (0 : Fin 1) i) : EReal)
              + ∑ l : Fin 144, (v206 (ix2 (0 : Fin 1) l) : EReal) * f2 (ix3 (0 : Fin 1) l i))
              + ∑ l : Fin 144, (v194 (ix2 (6 : Fin 9) l) : EReal) * f3 (ix3 (0 : Fin 1) l i))
              + ∑ l : Fin 144, (v194 (ix2 (8 : Fin 9) l) : EReal) * f4 (ix3 (0 : Fin 1) l i))
              + x6 (ix2 (0 : Fin 1) i)))
          (Net.mat x7) (Net.rowv x8) k)) (Net.mat x9) (Net.rowv x10) j := by
  simp only [k0_pay27, addf_apply, maximumf_apply, broadcast_apply, zero_word, mm_D, mm_C, fc_term,
    row_apply 6 6 rfl, row_apply 8 8 rfl]
  rfl

/-- The result row with its leading unit axis. -/
private theorem pay1_apply (v : FVec Ideal S1x10 .f32) (j : Fin 10) :
    k0_pay1 (F := Ideal) v (ix3 (0 : Fin 1) (0 : Fin 1) j) = v (ix2 (0 : Fin 1) j) := by
  simp only [k0_pay1, shapeCast_ab_1ab_apply]

/-- From the five scratch windows to the ten scores. -/
theorem tail_apply (s : Fin 5 → Vec Ideal S10x162 .f32) (w : Fin 5 → Vec Ideal S1x162x160 .f32) (x4 : Vec Ideal S1x160 .f32)
    (f : Fin 5 → Vec Ideal S1x144x120 .f32) (x6 : Vec Ideal S1x120 .f32) (x7 : Vec Ideal S120x84 .f32) (x8 : Vec Ideal S1x84 .f32)
    (x9 : Vec Ideal S84x10 .f32) (x10 : Vec Ideal S1x10 .f32) (j : Fin 10) :
    k0_pay1 (F := Ideal) (k0_pay27
        (k0_pay24 (k0_pay23 (s 0) (w 0) (s 1) (w 1) (s 2) (w 2)) (s 3) (w 3) (s 4) (w 4) x4)
        (k0_pay25 (k0_pay23 (s 0) (w 0) (s 1) (w 1) (s 2) (w 2)) (s 3) (w 3) (s 4) (w 4) x4 (f 0) (f 1))
        (k0_pay26 (k0_pay23 (s 0) (w 0) (s 1) (w 1) (s 2) (w 2)) (s 3) (w 3) (s 4) (w 4) x4)
        (f 2) (f 3) (f 4) x6 x7 x8 x9 x10) (ix3 (0 : Fin 1) (0 : Fin 1) j)
      = Net.dense (fun k => Net.relu (Net.dense
          (Net.fc1 (Net.pool2 (fun oh l => Net.relu ((∑ kh : Fin 5, ∑ q : Fin 162,
                (s kh (ix2 oh q) : EReal) * w kh (ix3 (0 : Fin 1) q l)) + x4 (ix2 (0 : Fin 1) l))))
            (fun r l j' => (f r (ix3 (0 : Fin 1) l j') : EReal)) (Net.rowv x6))
          (Net.mat x7) (Net.rowv x8) k)) (Net.mat x9) (Net.rowv x10) j := by
  rw [pay1_apply, pay27_apply]
  simp only [pay25_apply, pay26_apply, stage2_even s w x4 0 0 rfl, stage2_even s w x4 1 2 rfl,
    stage2_even s w x4 2 4 rfl, stage2_even s w x4 3 6 rfl, stage2_even s w x4 4 8 rfl]
  refine congrArg (fun Y => Net.dense (fun k => Net.relu (Net.dense Y (Net.mat x7) (Net.rowv x8) k))
    (Net.mat x9) (Net.rowv x10) j) (funext fun i => ?_)
  unfold Net.fc1
  rw [Fin.sum_univ_five]
  rfl

end Cert.ReferenceIdeal.Pay

end
-- ==== Proof.RefScratch.lean ====
/-
  What the reference's scratch [14, 162] holds once its fourteen rows are stored: pooled row ph of the first
  convolution. The rows are stored one at a time (row ph takes row 2 ph of the 27-row pair-maximum array), so the
  contents at (ph, l) are found by walking the stores newest first to the one that holds row ph; the fifteen
  taps are windows of the image's rows (channel ci, kernel row kh: rows 32 ci + kh … + 27) and slices of the
  weight tensor, and the sum over the fifteen taps regroups as the sum over channel and kernel row.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Whole
import proofs.«125908_g2000603131124687_pallasbulk_7_34_alg».proof.Proof.RefPayHead
import proofs.«125908_g2000603131124687_pallasbulk_7_34_alg».proof.Proof.Gen.ReferenceIdeal.Frame
import Idealize.ShloMosaic.Lib.Pipeline.RowLoads
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.ReferenceIdeal Cert.ReferenceIdeal.Gen Cert.ReferenceIdeal.Pay

namespace Cert.ReferenceIdeal.Scratch

/-! ### Walking the row stores -/

/-- A stored row other than row `ph` is passed over. -/
private theorem canon_skip (k : Nat) (inb : ∀ a, (![k, 0] : Fin 2 → Nat) a + S1x162.size a ≤ S14x162.size a)
    (w : (Rect.unit (s := S14x162) ![k, 0] S1x162.size inb).shape.Idx → Elt Ideal .f32)
    (L : List (View.Piece (Elt Ideal) S14x162 .f32)) (ph : Fin 14) (l : Fin 162) (h : ph.val ≠ k) :
    View.canon ((⟨Rect.unit (s := S14x162) ![k, 0] S1x162.size inb, w⟩ : View.Piece (Elt Ideal) S14x162 .f32) :: L) (ix2 ph l)
      = View.canon L (ix2 ph l) := by
  refine View.canon_cons_of_not_mem _ L ?_
  intro hm
  have hm' : ix2 ph l ∈ (Rect.unit (s := S14x162) ![k, 0] S1x162.size inb).set := hm
  have h0 : k ≤ ph.val ∧ ph.val < k + 1 := (Rect.mem_set_unit.mp hm') (0 : Fin 2)
  omega

/-- The store of row `ph` holds its payload's one row. -/
private theorem canon_hit (k : Nat) (inb : ∀ a, (![k, 0] : Fin 2 → Nat) a + S1x162.size a ≤ S14x162.size a)
    (w : (Rect.unit (s := S14x162) ![k, 0] S1x162.size inb).shape.Idx → Elt Ideal .f32)
    (L : List (View.Piece (Elt Ideal) S14x162 .f32)) (ph : Fin 14) (l : Fin 162) (h : ph.val = k) :
    View.canon ((⟨Rect.unit (s := S14x162) ![k, 0] S1x162.size inb, w⟩ : View.Piece (Elt Ideal) S14x162 .f32) :: L) (ix2 ph l)
      = w (ix2 (0 : Fin 1) l) := by
  have he : (Rect.unit (s := S14x162) ![k, 0] S1x162.size inb).emb (ix2 (0 : Fin 1) l) = ix2 ph l := by
    funext a; apply Fin.ext
    fin_cases a
    · show k + 1 * 0 = ph.val; omega
    · show 0 + 1 * l.val = l.val; omega
  exact (congrArg (View.canon _) he.symm).trans (View.canon_cons_emb _ w L (ix2 (0 : Fin 1) l))

/-! ### The fifteen taps: windows of the image's rows, slices of the weight tensor -/

section Taps

variable (arg1 : Memref sig .tc .vmem S1x96x32 .f32) (harg1 : arg1.IsWhole)
    (arg2 : Memref sig .tc .vmem S5x3x32x168 .f32) (harg2 : arg2.IsWhole)
    (arg3 : Memref sig .tc .vmem S1x168 .f32) (harg3 : arg3.IsWhole)
    (x0 : Vec Ideal S1x96x32 .f32) (x1 : Vec Ideal S5x3x32x168 .f32) (x2 : Vec Ideal S1x168 .f32)

/-- Tap `p` = kernel row `p % 5` of channel `p / 5` reads the 28 rows from row `32 (p / 5) + p % 5` of the 96. -/
private theorem win_inb (p : Fin 15) :
    ∀ a, (![0, 32 * (p.val / 5) + p.val % 5, 0] : Fin 3 → Nat) a + S1x28x32.size a ≤ S1x96x32.size a := by
  intro a
  fin_cases a
  · show 0 + 1 ≤ 1; omega
  · show 32 * (p.val / 5) + p.val % 5 + 28 ≤ 96; omega
  · show 0 + 32 ≤ 32; omega

/-- Tap `p` reads the weight slice at kernel row `p % 5`, channel `p / 5`. -/
private theorem wsl_inb (p : Fin 15) :
    ∀ a, (![p.val % 5, p.val / 5, 0, 0] : Fin 4 → Nat) a + S1x1x32x168.size a ≤ S5x3x32x168.size a := by
  intro a
  fin_cases a
  · show p.val % 5 + 1 ≤ 5; omega
  · show p.val / 5 + 1 ≤ 3; omega
  · show 0 + 32 ≤ 32; omega
  · show 0 + 168 ≤ 168; omega

/-- The `p`-th window of the image block. -/
private def win (p : Fin 15) : Vec Ideal S1x28x32 .f32 :=
  View.readAt (Elt Ideal) arg1.view
    (Rect.unit (s := S1x96x32) ![0, 32 * (p.val / 5) + p.val % 5, 0] S1x28x32.size (win_inb p)).toLoadRect (harg1.unread x0)

/-- The `p`-th slice of the weight block. -/
private def wsl (p : Fin 15) : Vec Ideal S1x1x32x168 .f32 :=
  View.readAt (Elt Ideal) arg2.view
    (Rect.unit (s := S5x3x32x168) ![p.val % 5, p.val / 5, 0, 0] S1x1x32x168.size (wsl_inb p)).toLoadRect (harg2.unread x1)

/-- The bias row as loaded. -/
private def bias : Vec Ideal S1x168 .f32 :=
  View.readAt (Elt Ideal) arg3.view
    (Rect.unit (s := S1x168) ![0, 0] S1x168.size inb_S1x168_S1x168_0_0).toLoadRect (harg3.unread x2)

/-- A window at (0, oh, w) is the image block at row `32 (p / 5) + p % 5 + oh`. -/
private theorem win_apply (p : Fin 15) (oh : Fin 28) (w : Fin 32) (q : Fin 96)
    (hq : q.val = 32 * (p.val / 5) + p.val % 5 + oh.val) :
    win arg1 harg1 x0 p (ix3 (0 : Fin 1) oh w) = x0 (ix3 (0 : Fin 1) q w) := by
  unfold win
  rw [View.readAt_eq_ld, harg1.read_unread]
  refine congrArg x0 ?_
  funext a; apply Fin.ext
  fin_cases a
  · show 0 + 1 * 0 = 0; omega
  · show 32 * (p.val / 5) + p.val % 5 + 1 * oh.val = q.val; omega
  · show 0 + 1 * w.val = w.val; omega

/-- A weight slice at (0, 0, w, l) is the weight block at kernel row `p % 5`, channel `p / 5`. -/
private theorem wsl_apply (p : Fin 15) (w : Fin 32) (l : Fin 168) (kh : Fin 5) (ci : Fin 3)
    (hk : kh.val = p.val % 5) (hc : ci.val = p.val / 5) :
    wsl arg2 harg2 x1 p (ix4 (0 : Fin 1) (0 : Fin 1) w l) = x1 (ix4 kh ci w l) := by
  unfold wsl
  rw [View.readAt_eq_ld, harg2.read_unread]
  refine congrArg x1 ?_
  funext a; apply Fin.ext
  fin_cases a
  · show p.val % 5 + 1 * 0 = kh.val; omega
  · show p.val / 5 + 1 * 0 = ci.val; omega
  · show 0 + 1 * w.val = w.val; omega
  · show 0 + 1 * l.val = l.val; omega

/-- The loaded bias row is the bias block. -/
private theorem bias_apply (l : Fin 168) : bias arg3 harg3 x2 (ix2 (0 : Fin 1) l) = x2 (ix2 (0 : Fin 1) l) := by
  unfold bias
  rw [View.readAt_eq_ld, harg3.read_unread]
  refine congrArg x2 ?_
  funext a; apply Fin.ext
  fin_cases a
  · show 0 + 1 * 0 = 0; omega
  · show 0 + 1 * l.val = l.val; omega

/-- Over these taps the fifteen products are the first convolution: tap `kh + 5 ci` is kernel row `kh` of channel `ci`. -/
private theorem taps_eq :
    conv1Taps (win arg1 harg1 x0) (wsl arg2 harg2 x1) (bias arg3 harg3 x2)
      = Net.conv1 (Xr x0) (Net.ten4 x1) (Net.rowv x2) := by
  funext oh l
  have hsum : (∑ p : Fin 15, ∑ w : Fin 32,
        (win arg1 harg1 x0 p (ix3 (0 : Fin 1) oh w) : EReal) * wsl arg2 harg2 x1 p (ix4 (0 : Fin 1) (0 : Fin 1) w l))
      = ∑ ci : Fin 3, ∑ kh : Fin 5, ∑ w : Fin 32,
        Xr x0 ci ⟨oh.val + kh.val, by omega⟩ w * Net.ten4 x1 kh ci w l := by
    refine Net.sum_flat_of 3 5 _ _ (fun ci kh => ?_)
    beta_reduce
    refine Finset.sum_congr rfl fun w _ => ?_
    have hv : (Net.flat ci kh).val = kh.val + 5 * ci.val := Net.flat_val ci kh
    rw [win_apply arg1 harg1 x0 (Net.flat ci kh) oh w ⟨ci.val * 32 + (oh.val + kh.val), by omega⟩
        (by show ci.val * 32 + (oh.val + kh.val) = _; omega),
      wsl_apply arg2 harg2 x1 (Net.flat ci kh) w l kh ci (by omega) (by omega)]
    rfl
  unfold conv1Taps Net.conv1
  rw [hsum, bias_apply]
  rfl

end Taps

/-! ### The pooled 27-row array, and the row each store takes from it -/

section Rows

variable (c : Dev nD) (arg1 : Memref sig .tc .vmem S1x96x32 .f32) (harg1 : arg1.IsWhole)
    (arg2 : Memref sig .tc .vmem S5x3x32x168 .f32) (harg2 : arg2.IsWhole)
    (arg3 : Memref sig .tc .vmem S1x168 .f32) (harg3 : arg3.IsWhole)
    (x0 : Vec Ideal S1x96x32 .f32) (x1 : Vec Ideal S5x3x32x168 .f32) (x2 : Vec Ideal S1x168 .f32)

/-- The pair-maximum array of the run is the accumulation chain over the fifteen taps. -/
private theorem r5_eq :
    kernelRun0_A.sl.r_5 (F := Ideal) c arg1 harg1 arg2 harg2 arg3 harg3 x0 x1 x2
      = k0_pay7 (F := Ideal)
        (k0_pay5 (k0_pay3 (k0_pay2 (win arg1 harg1 x0 0) (wsl arg2 harg2 x1 0) (win arg1 harg1 x0 1) (wsl arg2 harg2 x1 1)
              (win arg1 harg1 x0 2) (wsl arg2 harg2 x1 2) (win arg1 harg1 x0 3) (wsl arg2 harg2 x1 3))
            (win arg1 harg1 x0 4) (wsl arg2 harg2 x1 4) (win arg1 harg1 x0 5) (wsl arg2 harg2 x1 5)
            (win arg1 harg1 x0 6) (wsl arg2 harg2 x1 6) (win arg1 harg1 x0 7) (wsl arg2 harg2 x1 7))
          (k0_pay4 (win arg1 harg1 x0 8)) (wsl arg2 harg2 x1 8) (win arg1 harg1 x0 9) (wsl arg2 harg2 x1 9)
          (win arg1 harg1 x0 10) (wsl arg2 harg2 x1 10) (win arg1 harg1 x0 11) (wsl arg2 harg2 x1 11))
        (k0_pay6 (win arg1 harg1 x0 12)) (wsl arg2 harg2 x1 12) (win arg1 harg1 x0 13) (wsl arg2 harg2 x1 13)
        (win arg1 harg1 x0 14) (wsl arg2 harg2 x1 14) (bias arg3 harg3 x2) := by
  unfold kernelRun0_A.sl.r_5 kernelRun0_A.sl.r_3 kernelRun0_A.sl.r_4 kernelRun0_A.sl.r_1 kernelRun0_A.sl.r_2 kernelRun0_A.sl.r
  rfl

/-- Entry (r, l) of the pair-maximum array: the maximum over rows r, r + 1 and lanes l, l + 6 of the first convolution. -/
private theorem r5_apply (r : Fin 27) (l : Fin 162) :
    kernelRun0_A.sl.r_5 (F := Ideal) c arg1 harg1 arg2 harg2 arg3 harg3 x0 x1 x2 (ix2 r l)
      = max (Net.lanePair (R := 28) (n := 162) 6 (Net.conv1 (Xr x0) (Net.ten4 x1) (Net.rowv x2)) (⟨r.val, by omega⟩ : Fin 28) l)
          (Net.lanePair (R := 28) (n := 162) 6 (Net.conv1 (Xr x0) (Net.ten4 x1) (Net.rowv x2)) (⟨r.val + 1, by omega⟩ : Fin 28) l) := by
  rw [r5_eq, head_apply (win arg1 harg1 x0) (wsl arg2 harg2 x1) (bias arg3 harg3 x2) r l, taps_eq]

/-- Row `ph` of the scratch is row `2 ph` of the pair-maximum array: the stores are walked newest first to the one
    that holds row `ph`, whose payload is that row of the array. -/
private theorem scratch_row (ph : Fin 14) (l : Fin 162) :
    View.canon (kernelRun0_A.sl.HS0_14 (F := Ideal) c arg1 harg1 arg2 harg2 arg3 harg3 x0 x1 x2) (ix2 ph l)
      = kernelRun0_A.sl.r_5 (F := Ideal) c arg1 harg1 arg2 harg2 arg3 harg3 x0 x1 x2
          (ix2 (⟨2 * ph.val, by omega⟩ : Fin 27) l) := by
  obtain ⟨k, hk⟩ := ph
  unfold kernelRun0_A.sl.HS0_14
  interval_cases k
  all_goals repeat (refine Eq.trans (canon_skip _ _ _ _ _ _ (by exact Nat.ne_of_beq_eq_false rfl)) ?_)
  all_goals refine Eq.trans (canon_hit _ _ _ _ _ _ rfl) ?_
  · exact pay8_apply _ _ _ _ _ _ _ _ l
  · exact pay9_apply _ _ _ _ _ _ _ _ l
  · exact pay10_apply _ l
  · exact pay11_apply _ l
  · exact pay12_apply _ l
  · exact pay13_apply _ l
  · exact pay14_apply _ l
  · exact pay15_apply _ l
  · exact pay16_apply _ l
  · exact pay17_apply _ l
  · exact (pay19_apply _ _).trans (pay18_apply _ l)
  · exact pay20_apply _ l
  · exact pay21_apply _ l
  · exact pay22_apply _ l

end Rows

/-- The scratch after the fourteen row stores holds the first pooling of the first convolution. -/
theorem scratch_apply (c : Dev nD) (arg1 : Memref sig .tc .vmem S1x96x32 .f32) (harg1 : arg1.IsWhole)
    (arg2 : Memref sig .tc .vmem S5x3x32x168 .f32) (harg2 : arg2.IsWhole) (arg3 : Memref sig .tc .vmem S1x168 .f32) (harg3 : arg3.IsWhole)
    (x0 : Vec Ideal S1x96x32 .f32) (x1 : Vec Ideal S5x3x32x168 .f32) (x2 : Vec Ideal S1x168 .f32) (ph : Fin 14) (l : Fin 162) :
    View.canon (kernelRun0_A.sl.HS0_14 (F := Ideal) c arg1 harg1 arg2 harg2 arg3 harg3 x0 x1 x2) (ix2 ph l)
      = Net.pool1 (Net.conv1 (Xr x0) (Net.ten4 x1) (Net.rowv x2)) ph l := by
  rw [scratch_row c arg1 harg1 arg2 harg2 arg3 harg3 x0 x1 x2 ph l,
    r5_apply c arg1 harg1 arg2 harg2 arg3 harg3 x0 x1 x2 _ l]
  rfl

end Cert.ReferenceIdeal.Scratch

end
-- ==== Proof.RefBody.lean ====
/-
  What one grid point of the idealized reference leaves in its result block [1, 1, 10]: the network's ten scores
  on the point's image. The scratch holds the first pooling; its five ten-row windows feed the later stages.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Whole
import proofs.«125908_g2000603131124687_pallasbulk_7_34_alg».proof.Proof.RefPayHead
import proofs.«125908_g2000603131124687_pallasbulk_7_34_alg».proof.Proof.RefPayTail
import proofs.«125908_g2000603131124687_pallasbulk_7_34_alg».proof.Proof.RefScratch
import proofs.«125908_g2000603131124687_pallasbulk_7_34_alg».proof.Proof.Gen.ReferenceIdeal.Frame
import Idealize.ShloMosaic.Lib.Pipeline.RowLoads
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.ReferenceIdeal Cert.ReferenceIdeal.Gen Cert.ReferenceIdeal.Pay

namespace Cert.ReferenceIdeal.Body

theorem hz2 : (![0, 0] : Fin 2 → Nat) = fun _ => 0 := funext fun a => by fin_cases a <;> rfl
theorem hz3 : (![0, 0, 0] : Fin 3 → Nat) = fun _ => 0 := funext fun a => by fin_cases a <;> rfl

section Loads

variable {sig' : RefSig} {κ : Kind} {sp : Space} {e : EltTy} {Val : EltTy → Type} [∀ e, Nonempty (Val e)] {m n : Nat}

/-- A buffer read, after the stores `L`, through a window of `k` rows from row `o`: those rows of what the
    stores leave. -/
theorem readCov_rows {k : Nat} (v : View sig' κ sp (⟨2, ![m, n]⟩ : Shape) e) (L : List (View.Piece Val (⟨2, ![m, n]⟩ : Shape) e))
    (o : Nat)
    (inb : ∀ a, (![o, 0] : Fin 2 → Nat) a + (⟨2, ![k, n]⟩ : Shape).size a ≤ (⟨2, ![m, n]⟩ : Shape).size a) :
    v.readCov L (Rect.unit (s := (⟨2, ![m, n]⟩ : Shape)) ![o, 0] (⟨2, ![k, n]⟩ : Shape).size inb).toLoadRect
      = RowLoads.rowsFrom k (View.canon L) o (inb 0) := by
  rw [View.readCov_eq_canon']
  funext j
  unfold RowLoads.rowsFrom
  refine congrArg (View.canon L) ?_
  funext a; apply Fin.ext
  fin_cases a
  · show o + 1 * (j 0).val = o + (j 0).val; omega
  · show 0 + 1 * (j 1).val = (j 1).val; omega

/-- A load of slice `k` of the leading axis of a rank-3 array. -/
theorem ld_slice3 {α' : EltTy → Type} {e' : EltTy} {a b c : Nat} (X : (⟨3, ![a, b, c]⟩ : Shape).Idx → α' e') (k : Nat)
    (inb : ∀ x, (![k, 0, 0] : Fin 3 → Nat) x + (⟨3, ![1, b, c]⟩ : Shape).size x ≤ (⟨3, ![a, b, c]⟩ : Shape).size x) :
    View.ld X (Rect.unit (s := (⟨3, ![a, b, c]⟩ : Shape)) ![k, 0, 0] (⟨3, ![1, b, c]⟩ : Shape).size inb)
      = fun y => X (ix3 (⟨k, by have := inb 0; simp at this; omega⟩ : Fin a) (y 1) (y 2)) := by
  funext y
  show X _ = X _
  refine congrArg X ?_
  funext x; apply Fin.ext
  fin_cases x
  · show k + 1 * (y 0).val = k
    have : (y 0).val < 1 := (y 0).isLt
    omega
  · show 0 + 1 * (y 1).val = (y 1).val; omega
  · show 0 + 1 * (y 2).val = (y 2).val; omega

end Loads

/-- One grid point's result block, score `j`. -/
theorem block_out (c : Dev nD) (i : grid0.Coords) (arg1 : Memref sig .tc .vmem S1x96x32 .f32) (harg1 : arg1.IsWhole) (arg2 : Memref sig .tc .vmem S5x3x32x168 .f32) (harg2 : arg2.IsWhole) (arg3 : Memref sig .tc .vmem S1x168 .f32) (harg3 : arg3.IsWhole) (arg4 : Memref sig .tc .vmem S5x162x160 .f32) (harg4 : arg4.IsWhole) (arg5 : Memref sig .tc .vmem S1x160 .f32) (harg5 : arg5.IsWhole) (arg6 : Memref sig .tc .vmem S5x144x120 .f32) (harg6 : arg6.IsWhole) (arg7 : Memref sig .tc .vmem S1x120 .f32) (harg7 : arg7.IsWhole) (arg8 : Memref sig .tc .vmem S120x84 .f32) (harg8 : arg8.IsWhole) (arg9 : Memref sig .tc .vmem S1x84 .f32) (harg9 : arg9.IsWhole) (arg10 : Memref sig .tc .vmem S84x10 .f32) (harg10 : arg10.IsWhole) (arg11 : Memref sig .tc .vmem S1x10 .f32) (harg11 : arg11.IsWhole) (arg12 : Memref sig .tc .vmem S1x1x10 .f32) (harg12 : arg12.IsWhole) (arg13 : Memref sig .tc .vmem S14x162 .f32) (harg13 : arg13.IsWhole)
    (x0 : Vec Ideal S1x96x32 .f32) (x1 : Vec Ideal S5x3x32x168 .f32) (x2 : Vec Ideal S1x168 .f32) (x3 : Vec Ideal S5x162x160 .f32) (x4 : Vec Ideal S1x160 .f32) (x5 : Vec Ideal S5x144x120 .f32) (x6 : Vec Ideal S1x120 .f32) (x7 : Vec Ideal S120x84 .f32) (x8 : Vec Ideal S1x84 .f32) (x9 : Vec Ideal S84x10 .f32) (x10 : Vec Ideal S1x10 .f32) (j : Fin 10) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 (0 : Fin 1) (0 : Fin 1) j)
      = Net.net (Xr x0) (Net.ten4 x1) (Net.rowv x2) (Net.ten3 x3) (Net.rowv x4) (Net.ten3 x5) (Net.rowv x6) (Net.mat x7)
          (Net.rowv x8) (Net.mat x9) (Net.rowv x10) j := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  rw [View.canon_unit_zero hz3]
  unfold kernelRun0_A.sl.r_11 kernelRun0_A.sl.r_8 kernelRun0_A.sl.r_9 kernelRun0_A.sl.r_10 kernelRun0_A.sl.r_7
  unfold kernelRun0_A.sl.v159 kernelRun0_A.sl.v164 kernelRun0_A.sl.v169 kernelRun0_A.sl.v174 kernelRun0_A.sl.v179
  simp only [View.readAt_eq_ld, harg4.read_unread, harg5.read_unread, harg6.read_unread, harg7.read_unread,
    harg8.read_unread, harg9.read_unread, harg10.read_unread, harg11.read_unread,
    View.ld_unit_zero (S := S1x160) hz2, View.ld_unit_zero (S := S1x120) hz2, View.ld_unit_zero (S := S120x84) hz2,
    View.ld_unit_zero (S := S1x84) hz2, View.ld_unit_zero (S := S84x10) hz2, View.ld_unit_zero (S := S1x10) hz2]
  have hb : ∀ kh : Fin 5, ∀ a, (![kh.val, 0] : Fin 2 → Nat) a + S10x162.size a ≤ S14x162.size a := fun kh a => by
    have := kh.isLt
    fin_cases a
    · show kh.val + 10 ≤ 14; omega
    · show 0 + 162 ≤ 162; omega
  have hw : ∀ kh : Fin 5, ∀ a, (![kh.val, 0, 0] : Fin 3 → Nat) a + S1x162x160.size a ≤ S5x162x160.size a := fun kh a => by
    have := kh.isLt
    fin_cases a
    · show kh.val + 1 ≤ 5; omega
    · show 0 + 162 ≤ 162; omega
    · show 0 + 160 ≤ 160; omega
  have hf : ∀ r : Fin 5, ∀ a, (![r.val, 0, 0] : Fin 3 → Nat) a + S1x144x120.size a ≤ S5x144x120.size a := fun r a => by
    have := r.isLt
    fin_cases a
    · show r.val + 1 ≤ 5; omega
    · show 0 + 144 ≤ 144; omega
    · show 0 + 120 ≤ 120; omega
  refine (tail_apply
    (fun kh => arg13.view.readCov (kernelRun0_A.sl.HS0_14 (F := Ideal) c arg1 harg1 arg2 harg2 arg3 harg3 x0 x1 x2)
      (Rect.unit (s := S14x162) ![kh.val, 0] S10x162.size (hb kh)).toLoadRect)
    (fun kh => View.ld x3 (Rect.unit (s := S5x162x160) ![kh.val, 0, 0] S1x162x160.size (hw kh)))
    x4 (fun r => View.ld x5 (Rect.unit (s := S5x144x120) ![r.val, 0, 0] S1x144x120.size (hf r))) x6 x7 x8 x9 x10 j).trans ?_
  unfold Net.net
  refine congrArg (fun A => Net.dense (fun k => Net.relu (Net.dense A (Net.mat x7) (Net.rowv x8) k)) (Net.mat x9) (Net.rowv x10) j) ?_
  have hF : (fun (r : Fin 5) (l : Fin 144) (j' : Fin 120) =>
      (View.ld x5 (Rect.unit (s := S5x144x120) ![r.val, 0, 0] S1x144x120.size (hf r)) (ix3 (0 : Fin 1) l j') : EReal))
      = Net.ten3 x5 := by
    funext r l j'
    exact congrFun (ld_slice3 (α' := Elt Ideal) (e' := .f32) x5 r.val (hf r)) (ix3 (0 : Fin 1) l j')
  rw [hF]
  refine congrArg (fun C => Net.fc1 (Net.pool2 C) (Net.ten3 x5) (Net.rowv x6)) ?_
  funext oh l
  unfold Net.conv2
  refine congrArg (fun s => Net.relu (s + x4 (ix2 (0 : Fin 1) l))) ?_
  refine Finset.sum_congr rfl fun kh _ => Finset.sum_congr rfl fun q _ => ?_
  refine congrArg₂ (· * ·) ?_ ?_
  · refine (congrFun (readCov_rows (Val := Elt Ideal) arg13.view (kernelRun0_A.sl.HS0_14 (F := Ideal) c arg1 harg1 arg2 harg2 arg3 harg3 x0 x1 x2) kh.val (hb kh)) (ix2 oh q)).trans ?_
    unfold RowLoads.rowsFrom
    refine Eq.trans (congrArg (View.canon (kernelRun0_A.sl.HS0_14 (F := Ideal) c arg1 harg1 arg2 harg2 arg3 harg3 x0 x1 x2)) ?_)
      (Scratch.scratch_apply c arg1 harg1 arg2 harg2 arg3 harg3 x0 x1 x2 (⟨oh.val + kh.val, by have := kh.isLt; have := oh.isLt; omega⟩ : Fin 14) q)
    funext a; apply Fin.ext
    fin_cases a
    · show kh.val + oh.val = oh.val + kh.val; omega
    · rfl
  · exact congrFun (ld_slice3 (α' := Elt Ideal) (e' := .f32) x3 kh.val (hw kh)) (ix3 (0 : Fin 1) q l)

end Cert.ReferenceIdeal.Body

end
-- ==== Proof.RefArray.lean ====
/-
  The idealized reference's run with its result named: grid point n writes row n of a [4096, 1, 10] array (the
  4096 one-row blocks tile it), which the host flattens to [4096, 10]; the image blocks are windows of the
  argument array flattened to [4096, 96, 32] by the host before the call, the weights are staged whole.
-/
import proofs.«125908_g2000603131124687_pallasbulk_7_34_alg».proof.Proof.Spec
import proofs.«125908_g2000603131124687_pallasbulk_7_34_alg».proof.Proof.Sums
import proofs.«125908_g2000603131124687_pallasbulk_7_34_alg».proof.Proof.Whole
import proofs.«125908_g2000603131124687_pallasbulk_7_34_alg».proof.Proof.RefBody
import proofs.«125908_g2000603131124687_pallasbulk_7_34_alg».proof.Proof.Gen.ReferenceIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx BigOperators
open Cert.ReferenceIdeal Cert.ReferenceIdeal.Gen Idealize.SL.Sem
open Idealize.ShloMosaic.Pipeline (Dat)

namespace Cert.ReferenceIdeal.Arr

variable (m : (ℓ : Loc nD τ sig) → Buf (Elt Ideal) ℓ) (ρ : Dev nD → PrngReg)

/-! ## The argument arrays and the staged blocks, at their literal types -/

/-- The image array as launched on core `c`. -/
abbrev A0 (c : Dev nD) : S4096x3x32x32.Idx → EReal := m ((c : Thread nD τ).loc main_arg0)
/-- Argument 1 as launched on core `c`. -/
abbrev A1 (c : Dev nD) : S5x3x32x168.Idx → EReal := m ((c : Thread nD τ).loc main_arg1)
/-- Argument 2 as launched on core `c`. -/
abbrev A2 (c : Dev nD) : S1x168.Idx → EReal := m ((c : Thread nD τ).loc main_arg2)
/-- Argument 3 as launched on core `c`. -/
abbrev A3 (c : Dev nD) : S5x162x160.Idx → EReal := m ((c : Thread nD τ).loc main_arg3)
/-- Argument 4 as launched on core `c`. -/
abbrev A4 (c : Dev nD) : S1x160.Idx → EReal := m ((c : Thread nD τ).loc main_arg4)
/-- Argument 5 as launched on core `c`. -/
abbrev A5 (c : Dev nD) : S5x144x120.Idx → EReal := m ((c : Thread nD τ).loc main_arg5)
/-- Argument 6 as launched on core `c`. -/
abbrev A6 (c : Dev nD) : S1x120.Idx → EReal := m ((c : Thread nD τ).loc main_arg6)
/-- Argument 7 as launched on core `c`. -/
abbrev A7 (c : Dev nD) : S120x84.Idx → EReal := m ((c : Thread nD τ).loc main_arg7)
/-- Argument 8 as launched on core `c`. -/
abbrev A8 (c : Dev nD) : S1x84.Idx → EReal := m ((c : Thread nD τ).loc main_arg8)
/-- Argument 9 as launched on core `c`. -/
abbrev A9 (c : Dev nD) : S84x10.Idx → EReal := m ((c : Thread nD τ).loc main_arg9)
/-- Argument 10 as launched on core `c`. -/
abbrev A10 (c : Dev nD) : S1x10.Idx → EReal := m ((c : Thread nD τ).loc main_arg10)

/-- The image block staged at point `t`. -/
abbrev b0 (c : Dev nD) (t : Fin cfg0.N) : Vec Ideal S1x96x32 .f32 := iblk m c 0 t
/-- Argument 1's block staged at point `t`. -/
abbrev b1 (c : Dev nD) (t : Fin cfg0.N) : Vec Ideal S5x3x32x168 .f32 := iblk m c 1 t
/-- Argument 2's block staged at point `t`. -/
abbrev b2 (c : Dev nD) (t : Fin cfg0.N) : Vec Ideal S1x168 .f32 := iblk m c 2 t
/-- Argument 3's block staged at point `t`. -/
abbrev b3 (c : Dev nD) (t : Fin cfg0.N) : Vec Ideal S5x162x160 .f32 := iblk m c 3 t
/-- Argument 4's block staged at point `t`. -/
abbrev b4 (c : Dev nD) (t : Fin cfg0.N) : Vec Ideal S1x160 .f32 := iblk m c 4 t
/-- Argument 5's block staged at point `t`. -/
abbrev b5 (c : Dev nD) (t : Fin cfg0.N) : Vec Ideal S5x144x120 .f32 := iblk m c 5 t
/-- Argument 6's block staged at point `t`. -/
abbrev b6 (c : Dev nD) (t : Fin cfg0.N) : Vec Ideal S1x120 .f32 := iblk m c 6 t
/-- Argument 7's block staged at point `t`. -/
abbrev b7 (c : Dev nD) (t : Fin cfg0.N) : Vec Ideal S120x84 .f32 := iblk m c 7 t
/-- Argument 8's block staged at point `t`. -/
abbrev b8 (c : Dev nD) (t : Fin cfg0.N) : Vec Ideal S1x84 .f32 := iblk m c 8 t
/-- Argument 9's block staged at point `t`. -/
abbrev b9 (c : Dev nD) (t : Fin cfg0.N) : Vec Ideal S84x10 .f32 := iblk m c 9 t
/-- Argument 10's block staged at point `t`. -/
abbrev b10 (c : Dev nD) (t : Fin cfg0.N) : Vec Ideal S1x10 .f32 := iblk m c 10 t

/-! ## The grid's one axis, and the two index maps that move with it -/

/-- A point's number is below 4096. -/
theorem lt_of_point (t : Fin cfg0.N) : t.val < 4096 := by
  have hN : cfg0.N = 4096 := N_0
  have := t.isLt
  omega

/-- The grid has one axis: point `t` has coordinate `t`. -/
theorem coord_val (t : Fin cfg0.N) : ((grid0.coords t) (0 : Fin 1)).val = t.val := by
  have ht := lt_of_point t
  show t.val / grid0.stride 0 % grid0.bound 0 = t.val
  rw [show grid0.stride 0 = 1 from by decide, show grid0.bound 0 = 4096 from rfl]
  omega

/-- A 32-bit word made of a point's coordinate is that coordinate. -/
theorem word_val (t : Fin cfg0.N) : (BitVec.ofNat 32 ((grid0.coords t) (0 : Fin 1)).val).toNat = t.val := by
  rw [BitVec.toNat_ofNat, coord_val]
  exact Nat.mod_eq_of_lt (lt_of_lt_of_le (lt_of_point t) (by decide))

/-- The image window's block index at point `t` is (t, 0, 0). -/
theorem index0_0 (t : Fin cfg0.N) : win0_0.index t (0 : Fin 3) = t.val := word_val t
theorem index0_1 (t : Fin cfg0.N) : win0_0.index t (1 : Fin 3) = 0 := rfl
theorem index0_2 (t : Fin cfg0.N) : win0_0.index t (2 : Fin 3) = 0 := rfl

/-- The result window's block index at point `t` is (t, 0, 0). -/
theorem index11_0 (t : Fin cfg0.N) : win0_11.index t (0 : Fin 3) = t.val := word_val t
theorem index11_1 (t : Fin cfg0.N) : win0_11.index t (1 : Fin 3) = 0 := rfl
theorem index11_2 (t : Fin cfg0.N) : win0_11.index t (2 : Fin 3) = 0 := rfl

/-! ## The host's flattening before the call, and the image block -/

/-- The array the image window stages: the image array flattened to [4096, 96, 32]. -/
theorem V_v0 (c : Dev nD) : (V m c main_v0 : S4096x96x32.Idx → EReal)
    = shapeCast S4096x96x32 (A0 m c) shapeCasts_S4096x3x32x32_S4096x96x32 := by
  show StableHlo.after (hostOps0 (F := Ideal)) (fun b => m (c, b)) (Proc.devRef .tc main_v0) = _
  after_results
  rfl

/-- The flattening keeps (image, channel, row, column) at (image, 32 · channel + row, column): both are the
    same row-major position. -/
theorem flat_apply (x : S4096x3x32x32.Idx → EReal) (h : S4096x3x32x32.ShapeCasts S4096x96x32)
    (n : Fin 4096) (ci : Fin 3) (ih : Fin 32) (w : Fin 32) :
    shapeCast S4096x96x32 x h (ix3 n (⟨ci.val * 32 + ih.val, by omega⟩ : Fin 96) w) = x (ix4 n ci ih w) := by
  refine shapeCast_apply x h _ _ ?_
  rw [Shape.rowMajor_val_four, Shape.rowMajor_val_three]
  show ((n.val * 3 + ci.val) * 32 + ih.val) * 32 + w.val = (n.val * 96 + (ci.val * 32 + ih.val)) * 32 + w.val
  omega

/-- Point `t`'s image block is row block `t` of the flattened array. -/
theorem b0_apply (c : Dev nD) (t : Fin cfg0.N) (r : Fin 96) (w : Fin 32) :
    b0 m c t (ix3 (0 : Fin 1) r w)
      = (V m c main_v0 : S4096x96x32.Idx → EReal) (ix3 (⟨t.val, lt_of_point t⟩ : Fin 4096) r w) := by
  unfold b0 iblk
  rw [View.read_apply]
  show (V m c main_v0 : S4096x96x32.Idx → EReal) _ = _
  congr 1
  funext a
  apply Fin.ext
  match a with
  | ⟨0, _⟩ => show win0_0.index t (0 : Fin 3) * 1 + 1 * 0 = t.val; rw [index0_0]; omega
  | ⟨1, _⟩ => show win0_0.index t (1 : Fin 3) * 96 + 1 * r.val = r.val; rw [index0_1]; omega
  | ⟨2, _⟩ => show win0_0.index t (2 : Fin 3) * 32 + 1 * w.val = w.val; rw [index0_2]; omega

/-- So the image the body sees at point `t` is image `t` of the argument array. -/
theorem Xr_b0 (c : Dev nD) (t : Fin cfg0.N) :
    Pay.Xr (b0 m c t) = Net.ten4 (A0 m c) (⟨t.val, lt_of_point t⟩ : Fin 4096) := by
  funext ci ih w
  show b0 m c t (ix3 (0 : Fin 1) (⟨ci.val * 32 + ih.val, _⟩ : Fin 96) w) = A0 m c (ix4 (⟨t.val, lt_of_point t⟩ : Fin 4096) ci ih w)
  rw [b0_apply, V_v0]
  exact flat_apply (A0 m c) _ _ ci ih w

/-! ## The weights are staged whole -/

/-- Argument 1's block is the whole array at every point: its block index is zero on every axis. -/
theorem b1_eq (c : Dev nD) (t : Fin cfg0.N) : b1 m c t = A1 m c := by
  have hz : (fun a => win0_1.index t a * main_arg1.ty.shape.size a) = fun _ => 0 := funext fun a => by fin_cases a <;> rfl
  exact (Memref.read_access_unit_zero (Elt Ideal) main_arg1 hz (fun a => by rw [congrFun hz a]; simp) (V m c main_arg1)).trans (V_main_arg1 m c)

/-- Argument 2's block is the whole array at every point: its block index is zero on every axis. -/
theorem b2_eq (c : Dev nD) (t : Fin cfg0.N) : b2 m c t = A2 m c := by
  have hz : (fun a => win0_2.index t a * main_arg2.ty.shape.size a) = fun _ => 0 := funext fun a => by fin_cases a <;> rfl
  exact (Memref.read_access_unit_zero (Elt Ideal) main_arg2 hz (fun a => by rw [congrFun hz a]; simp) (V m c main_arg2)).trans (V_main_arg2 m c)

/-- Argument 3's block is the whole array at every point: its block index is zero on every axis. -/
theorem b3_eq (c : Dev nD) (t : Fin cfg0.N) : b3 m c t = A3 m c := by
  have hz : (fun a => win0_3.index t a * main_arg3.ty.shape.size a) = fun _ => 0 := funext fun a => by fin_cases a <;> rfl
  exact (Memref.read_access_unit_zero (Elt Ideal) main_arg3 hz (fun a => by rw [congrFun hz a]; simp) (V m c main_arg3)).trans (V_main_arg3 m c)

/-- Argument 4's block is the whole array at every point: its block index is zero on every axis. -/
theorem b4_eq (c : Dev nD) (t : Fin cfg0.N) : b4 m c t = A4 m c := by
  have hz : (fun a => win0_4.index t a * main_arg4.ty.shape.size a) = fun _ => 0 := funext fun a => by fin_cases a <;> rfl
  exact (Memref.read_access_unit_zero (Elt Ideal) main_arg4 hz (fun a => by rw [congrFun hz a]; simp) (V m c main_arg4)).trans (V_main_arg4 m c)

/-- Argument 5's block is the whole array at every point: its block index is zero on every axis. -/
theorem b5_eq (c : Dev nD) (t : Fin cfg0.N) : b5 m c t = A5 m c := by
  have hz : (fun a => win0_5.index t a * main_arg5.ty.shape.size a) = fun _ => 0 := funext fun a => by fin_cases a <;> rfl
  exact (Memref.read_access_unit_zero (Elt Ideal) main_arg5 hz (fun a => by rw [congrFun hz a]; simp) (V m c main_arg5)).trans (V_main_arg5 m c)

/-- Argument 6's block is the whole array at every point: its block index is zero on every axis. -/
theorem b6_eq (c : Dev nD) (t : Fin cfg0.N) : b6 m c t = A6 m c := by
  have hz : (fun a => win0_6.index t a * main_arg6.ty.shape.size a) = fun _ => 0 := funext fun a => by fin_cases a <;> rfl
  exact (Memref.read_access_unit_zero (Elt Ideal) main_arg6 hz (fun a => by rw [congrFun hz a]; simp) (V m c main_arg6)).trans (V_main_arg6 m c)

/-- Argument 7's block is the whole array at every point: its block index is zero on every axis. -/
theorem b7_eq (c : Dev nD) (t : Fin cfg0.N) : b7 m c t = A7 m c := by
  have hz : (fun a => win0_7.index t a * main_arg7.ty.shape.size a) = fun _ => 0 := funext fun a => by fin_cases a <;> rfl
  exact (Memref.read_access_unit_zero (Elt Ideal) main_arg7 hz (fun a => by rw [congrFun hz a]; simp) (V m c main_arg7)).trans (V_main_arg7 m c)

/-- Argument 8's block is the whole array at every point: its block index is zero on every axis. -/
theorem b8_eq (c : Dev nD) (t : Fin cfg0.N) : b8 m c t = A8 m c := by
  have hz : (fun a => win0_8.index t a * main_arg8.ty.shape.size a) = fun _ => 0 := funext fun a => by fin_cases a <;> rfl
  exact (Memref.read_access_unit_zero (Elt Ideal) main_arg8 hz (fun a => by rw [congrFun hz a]; simp) (V m c main_arg8)).trans (V_main_arg8 m c)

/-- Argument 9's block is the whole array at every point: its block index is zero on every axis. -/
theorem b9_eq (c : Dev nD) (t : Fin cfg0.N) : b9 m c t = A9 m c := by
  have hz : (fun a => win0_9.index t a * main_arg9.ty.shape.size a) = fun _ => 0 := funext fun a => by fin_cases a <;> rfl
  exact (Memref.read_access_unit_zero (Elt Ideal) main_arg9 hz (fun a => by rw [congrFun hz a]; simp) (V m c main_arg9)).trans (V_main_arg9 m c)

/-- Argument 10's block is the whole array at every point: its block index is zero on every axis. -/
theorem b10_eq (c : Dev nD) (t : Fin cfg0.N) : b10 m c t = A10 m c := by
  have hz : (fun a => win0_10.index t a * main_arg10.ty.shape.size a) = fun _ => 0 := funext fun a => by fin_cases a <;> rfl
  exact (Memref.read_access_unit_zero (Elt Ideal) main_arg10 hz (fun a => by rw [congrFun hz a]; simp) (V m c main_arg10)).trans (V_main_arg10 m c)

/-! ## What the kernel leaves: row `n` of a [4096, 1, 10] array is the network on image `n` -/

/-- The kernel's result array as one function of the argument arrays. -/
def Gc (c : Dev nD) : S4096x1x10.Idx → EReal := fun i =>
  Net.net (Net.ten4 (A0 m c) (i 0)) (Net.ten4 (A1 m c)) (Net.rowv (A2 m c)) (Net.ten3 (A3 m c)) (Net.rowv (A4 m c)) (Net.ten3 (A5 m c)) (Net.rowv (A6 m c)) (Net.mat (A7 m c)) (Net.rowv (A8 m c)) (Net.mat (A9 m c)) (Net.rowv (A10 m c)) (i 2)

/-- What point `t` leaves in its result block, score `j`: the network on image `t`. -/
theorem out_apply (c : Dev nD) (t : Fin cfg0.N) (j : Fin 10) :
    (outsAt0 m c t : Vec Ideal S1x1x10 .f32) (ix3 (0 : Fin 1) (0 : Fin 1) j)
      = Net.net (Net.ten4 (A0 m c) (⟨t.val, lt_of_point t⟩ : Fin 4096)) (Net.ten4 (A1 m c)) (Net.rowv (A2 m c)) (Net.ten3 (A3 m c)) (Net.rowv (A4 m c)) (Net.ten3 (A5 m c)) (Net.rowv (A6 m c)) (Net.mat (A7 m c)) (Net.rowv (A8 m c)) (Net.mat (A9 m c)) (Net.rowv (A10 m c)) j := by
  unfold outsAt0
  refine (Body.block_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (b6 m c t) (b7 m c t) (b8 m c t) (b9 m c t) (b10 m c t) j).trans ?_
  rw [Xr_b0 m c t, b1_eq m c t, b2_eq m c t, b3_eq m c t, b4_eq m c t, b5_eq m c t, b6_eq m c t, b7_eq m c t, b8_eq m c t, b9_eq m c t, b10_eq m c t]

/-- The same at any index of the block. -/
theorem out_read (c : Dev nD) (t : Fin cfg0.N) (y : S1x1x10.Idx) :
    (outsAt0 m c t : Vec Ideal S1x1x10 .f32) y = Gc m c (ix3 (⟨t.val, lt_of_point t⟩ : Fin 4096) (0 : Fin 1) (y 2)) := by
  have hy : y = ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  rw [hy]
  exact out_apply m c t (y 2)

/-- Point `t`'s result block sits at row `t` of the array. -/
theorem emb11 (t : Fin cfg0.N) (y : S1x1x10.Idx) :
    (((cfg0.win 11).blk t).view.emb y : S4096x1x10.Idx) = ix3 (⟨t.val, lt_of_point t⟩ : Fin 4096) (0 : Fin 1) (y 2) := by
  funext a
  apply Fin.ext
  have h0 : (y 0).val < 1 := (y 0).isLt
  have h1 : (y 1).val < 1 := (y 1).isLt
  match a with
  | ⟨0, _⟩ => show win0_11.index t (0 : Fin 3) * 1 + 1 * (y 0).val = t.val; rw [index11_0]; omega
  | ⟨1, _⟩ => show win0_11.index t (1 : Fin 3) * 1 + 1 * (y 1).val = 0; rw [index11_1]; omega
  | ⟨2, _⟩ => show win0_11.index t (2 : Fin 3) * 10 + 1 * (y 2).val = (y 2).val; rw [index11_2]; omega

/-- What point `t` writes back is block `t` of `Gc`. -/
theorem flushed_eq (c : Dev nD) (t : Fin cfg0.N) :
    (dats m 0 c).flushed 11 t = ((cfg0.win 11).blk t).view.read (Elt Ideal) (Gc m c) := by
  show (cfg0.win 11).cut (grid0.coords t) ((dats m 0 c).after 11 t) = _
  rw [after0_11]
  funext y
  show (outsAt0 m c t : Vec Ideal S1x1x10 .f32) y = Gc m c (((cfg0.win 11).blk t).view.emb y)
  exact (out_read m c t y).trans (congrArg (Gc m c) (emb11 t y).symm)

/-- An index of the array is in point `t`'s block iff each coordinate is in the block's range on its axis. -/
theorem mem_blk (t : Fin cfg0.N) (i : S4096x1x10.Idx) :
    i ∈ ((cfg0.win 11).blk t).view.set ↔ ∀ a : Fin 3, win0_11.index t a * S1x1x10.size a ≤ (i a).val ∧ (i a).val < win0_11.index t a * S1x1x10.size a + S1x1x10.size a := by
  show i ∈ ((View.whole main_v1).slice (win0_11.rect t)).set ↔ _
  rw [View.set_slice_whole, Rect.mem_set_unit]
  exact Iff.rfl

/-- Row `n` of the array is covered by point `n`. -/
theorem cover (i : S4096x1x10.Idx) : ∃ t : Fin cfg0.N, (cfg0.win 11).flush t = true ∧ i ∈ ((cfg0.win 11).blk t).view.set := by
  have hN : cfg0.N = 4096 := N_0
  have h0 : (i 0).val < 4096 := (i 0).isLt
  have h1 : (i 1).val < 1 := (i 1).isLt
  have h2 : (i 2).val < 10 := (i 2).isLt
  obtain ⟨t, ht⟩ : ∃ t : Fin cfg0.N, t.val = (i 0).val := ⟨⟨(i 0).val, by omega⟩, rfl⟩
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; rw [index11_0]; omega
  | ⟨1, _⟩ => show win0_11.index t (1 : Fin 3) * 1 ≤ (i 1).val ∧ (i 1).val < win0_11.index t (1 : Fin 3) * 1 + 1; rw [index11_1]; omega
  | ⟨2, _⟩ => show win0_11.index t (2 : Fin 3) * 10 ≤ (i 2).val ∧ (i 2).val < win0_11.index t (2 : Fin 3) * 10 + 10; rw [index11_2]; omega

/-- The kernel's result array after the run. -/
theorem final (c : Dev nD) : (dats m 0 c).arrAt 11 cfg0.N = Gc m c :=
  (dats m 0 c).arrAt_eq_of_cover 11 (Gc m c) (fun t _ => flushed_eq m c t) cover

/-! ## The host's flattening after the call -/

/-- Dropping the unit axis keeps (row, score) at (row, 0, score). -/
theorem unflat_apply (g : S4096x1x10.Idx → EReal) (h : S4096x1x10.ShapeCasts S4096x10) (j : S4096x10.Idx) :
    shapeCast S4096x10 g h j = g (ix3 (j 0) (0 : Fin 1) (j 1)) := by
  refine shapeCast_apply g h j _ ?_
  rw [Shape.rowMajor_val_three, Shape.rowMajor_val_two]
  show ((j 0).val * 1 + 0) * 10 + (j 1).val = (j 0).val * 10 + (j 1).val
  omega

/-- The reference's result: the kernel's array with its unit axis dropped is `Net.G` of the arguments. -/
theorem tail_eq (c : Dev nD) :
    Pipeline.afterTail₀ cfgs (dats m) 0 (V0 m) [hostOps1] c main_v2 = Net.G (A0 m c) (A1 m c) (A2 m c) (A3 m c) (A4 m c) (A5 m c) (A6 m c) (A7 m c) (A8 m c) (A9 m c) (A10 m c) := by
  unfold Pipeline.afterTail₀
  show StableHlo.after (hostOps1 (F := Ideal)) _ (Proc.devRef .tc main_v2) = _
  after_results
  have e : Pipeline.withArrays (cfgs 0).spec c (V0 m c) (fun w => (dats m 0 c).arrAt w (cfgs 0).N) (Proc.devRef .tc main_v1) = Gc m c :=
    (Pipeline.withArrays_arr spec0 launch0.win.arr_inj c _ _ 11).trans (final m c)
  funext j
  show shapeCast S4096x10 (Pipeline.withArrays (cfgs 0).spec c (V0 m c) (fun w => (dats m 0 c).arrAt w (cfgs 0).N) (Proc.devRef .tc main_v1)) shapeCasts_S4096x1x10_S4096x10 j = _
  rw [e]
  exact unflat_apply (Gc m c) _ j

/-- The idealized reference runs, ends with its result at the network of the argument arrays, and leaves the
    arguments as they were. -/
theorem run : θ_run (defs (F := Ideal)) (onTc (τ := τ) (main (F := Ideal))) ⟨m, fun _ => 0, ρ⟩ fun r => ∀ c : Dev nD,
      r.2.mem ((c : Thread nD τ).loc main_v2) = Net.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run (defs (F := Ideal)) _ _).mono (fun r h c => ?_) (run_main m ρ)
  exact ⟨((h c).2 main_v2 (Pipeline.mem_restRefs_of main_v2 (by decide) (by decide))).trans (tail_eq m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c)))⟩

end Cert.ReferenceIdeal.Arr

end
-- ==== Proof.lean ====
/-
  The certificate. Both programs are the same small convolutional network (two 5×5 valid convolutions written as
  row-Toeplitz products, each followed by a rectifier and a 2×2 maximum pooling kept dilated along the lanes, then
  three dense layers) on 4096 images. The reference treats one image per grid point and adds up one small product
  per kernel row (and input channel); the kernel treats 512 images per grid point, lays rows out as (row, image)
  so that a kernel-row tap is a window of whole bands, and contracts all taps of a layer in one product. At the
  ideal instance (extended reals, exact operations, float-format changes the identity) the two differ only in how
  finite sums are grouped and in layout, so both result arrays are one function of the arguments (Net.G): no
  input needs to be finite for that, and the precondition is not opened.
  The three frames are the generated frame certificates; the idealization ledger is empty.
-/
import proofs.«125908_g2000603131124687_pallasbulk_7_34_alg».proof.Defs
import proofs.«125908_g2000603131124687_pallasbulk_7_34_alg».proof.Proof.Gen.Kernel
import proofs.«125908_g2000603131124687_pallasbulk_7_34_alg».proof.Proof.Gen.Kernel.Frame
import proofs.«125908_g2000603131124687_pallasbulk_7_34_alg».proof.Proof.Gen.KernelIdeal
import proofs.«125908_g2000603131124687_pallasbulk_7_34_alg».proof.Proof.Gen.KernelIdeal.Frame
import proofs.«125908_g2000603131124687_pallasbulk_7_34_alg».proof.Proof.Gen.ReferenceIdeal
import proofs.«125908_g2000603131124687_pallasbulk_7_34_alg».proof.Proof.Gen.ReferenceIdeal.Frame
import proofs.«125908_g2000603131124687_pallasbulk_7_34_alg».proof.Proof.Gen.Pre_finite_inputs
import proofs.«125908_g2000603131124687_pallasbulk_7_34_alg».proof.Proof.KernelArray
import proofs.«125908_g2000603131124687_pallasbulk_7_34_alg».proof.Proof.RefArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- From memories that agree on the eleven arguments both idealized programs end at the network of those
    arguments: the kernel's run and the reference's run are stated with the same whole-array function. -/
theorem algebraic : Cert.algebraic_KernelIdeal_ReferenceIdeal := by
  intro m ρ m' ρ' _ hagree
  refine ⟨fun c => Cert.Net.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Arr.run m ρ, ?_⟩
  refine (θ_run Cert.ReferenceIdeal.defs _ _).mono (fun r h c => ⟨(h c).1.trans ?_, (h c).2⟩)
    (Cert.ReferenceIdeal.Arr.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
